-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 2048]⟩ ⟨2, ![2048, 2048]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 2048]⟩ (Layout.meshBlock [2, 4, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x2048 : Shape := ⟨2, ![512, 2048]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel

variable [Facts]

def fn {F : FTy → Type} [FloatOps F] (main_arg0 : FVec F S512x2048 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  main_v3
-- ==== Pre_finite_inputs_ReferenceIdeal.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  main_v3
-- ==== Kernel.lean ====
abbrev S512x2048 : Shape := ⟨2, ![512, 2048]⟩
abbrev S2048x512 : Shape := ⟨2, ![2048, 512]⟩
abbrev S3x512x512 : Shape := ⟨3, ![3, 512, 512]⟩
abbrev S3 : Shape := ⟨1, ![3]⟩
abbrev S_ : Shape := ⟨0, ![]⟩
abbrev S512x512 : Shape := ⟨2, ![512, 512]⟩
abbrev S1x512x512 : Shape := ⟨3, ![1, 512, 512]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S512x2048, .f32⟩
  | .hbm, ⟨1, _⟩ => ⟨S2048x512, .bf16⟩
  | .local _ .vmem, ⟨0, _⟩ => ⟨S512x2048, .f32⟩
  | .local _ .vmem, ⟨1, _⟩ => ⟨S2048x512, .bf16⟩
  | .local _ .vmem, ⟨2, _⟩ => ⟨S3x512x512, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v21 : BitVec 32 := Scalar.muli v2 c16_i32_9
  let v22 : BitVec 32 := Scalar.addi c0_i32_10 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v10 : BitVec 32 := Scalar.addi v5 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c4_i32_11 : BitVec 32 := 4#32
  let v23 : BitVec 32 := Scalar.muli v20 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v25 : BitVec 32 := Scalar.muli v8 c1_i32_12
  let v26 : BitVec 32 := Scalar.addi v24 v25
  v26.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let v27 : BitVec 32 := Scalar.addi v5 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c4_i32_23 : BitVec 32 := 4#32
  let v40 : BitVec 32 := Scalar.muli v37 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v42 : BitVec 32 := Scalar.muli v8 c1_i32_24
  let v43 : BitVec 32 := Scalar.addi v41 v42
  v43.toNat
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v44 : BitVec 32 := Scalar.addi v5 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c4_i32_34 : BitVec 32 := 4#32
  let v57 : BitVec 32 := Scalar.muli v54 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v59 : BitVec 32 := Scalar.muli v8 c1_i32_35
  let v60 : BitVec 32 := Scalar.addi v58 v59
  v60.toNat
def k0_off1 (d0 : Dev nD) (c1_i32_36 : BitVec 32) : Fin 2 → Nat :=
  let c0 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v61 : BitVec 32 := Scalar.addi v5 c1_i32_36
  let c4_i32_37 : BitVec 32 := 4#32
  let c0_i32_38 : BitVec 32 := 0#32
  let v62 : BitVec 1 := Scalar.cmpi .eq c4_i32_37 c0_i32_38
  let c1_i32_39 : BitVec 32 := 1#32
  let v63 : BitVec 32 := Scalar.select v62 c1_i32_39 c4_i32_37
  let v64 : BitVec 32 := Scalar.remsi v61 v63
  let c0_i32_41 : BitVec 32 := 0#32
  let v66 : BitVec 1 := Scalar.cmpi .slt v64 c0_i32_41
  let c0_i32_42 : BitVec 32 := 0#32
  let v67 : BitVec 1 := Scalar.cmpi .slt v63 c0_i32_42
  let v68 : BitVec 1 := Scalar.xori v66 v67
  let c0_i32_40 : BitVec 32 := 0#32
  let v65 : BitVec 1 := Scalar.cmpi .ne v64 c0_i32_40
  let v69 : BitVec 1 := Scalar.andi v68 v65
  let v70 : BitVec 32 := Scalar.addi v64 v63
  let v71 : BitVec 32 := Scalar.select v69 v70 v64
  let c512_i32 : BitVec 32 := 512#32
  let v72 : BitVec 32 := Scalar.muli v71 c512_i32
  let v73 : Index := Scalar.indexCast v72
  ![0, v73.toNat]
def k0_off2 (d0 : Dev nD) : Fin 2 → Nat :=
  let c0_69 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c512_i32_68 : BitVec 32 := 512#32
  let v118 : BitVec 32 := Scalar.muli v5 c512_i32_68
  let v119 : Index := Scalar.indexCast v118
  ![0, v119.toNat]
def k0_off3 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c512_i32_70 : BitVec 32 := 512#32
  let v123 : BitVec 32 := Scalar.muli v5 c512_i32_70
  let v124 : Index := Scalar.indexCast v123
  let c0_71 : Index := 0#32
  ![v124.toNat, 0]
def k0_off4 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c512_i32_80 : BitVec 32 := 512#32
  let v137 : BitVec 32 := Scalar.muli v5 c512_i32_80
  let c0_i32_88 : BitVec 32 := 0#32
  ![v137.toNat, 0]
def k0_dev4 (d0 : Dev nD) : Nat :=
  let c0_i32_85 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_84 : BitVec 32 := 16#32
  let v138 : BitVec 32 := Scalar.muli v2 c16_i32_84
  let v139 : BitVec 32 := Scalar.addi c0_i32_85 v138
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_73 : BitVec 32 := 1#32
  let v126 : BitVec 32 := Scalar.addi v5 c1_i32_73
  let c4_i32_74 : BitVec 32 := 4#32
  let c0_i32_75 : BitVec 32 := 0#32
  let v127 : BitVec 1 := Scalar.cmpi .eq c4_i32_74 c0_i32_75
  let c1_i32_76 : BitVec 32 := 1#32
  let v128 : BitVec 32 := Scalar.select v127 c1_i32_76 c4_i32_74
  let v129 : BitVec 32 := Scalar.remsi v126 v128
  let c0_i32_78 : BitVec 32 := 0#32
  let v131 : BitVec 1 := Scalar.cmpi .slt v129 c0_i32_78
  let c0_i32_79 : BitVec 32 := 0#32
  let v132 : BitVec 1 := Scalar.cmpi .slt v128 c0_i32_79
  let v133 : BitVec 1 := Scalar.xori v131 v132
  let c0_i32_77 : BitVec 32 := 0#32
  let v130 : BitVec 1 := Scalar.cmpi .ne v129 c0_i32_77
  let v134 : BitVec 1 := Scalar.andi v133 v130
  let v135 : BitVec 32 := Scalar.addi v129 v128
  let v136 : BitVec 32 := Scalar.select v134 v135 v129
  let c4_i32_86 : BitVec 32 := 4#32
  let v140 : BitVec 32 := Scalar.muli v136 c4_i32_86
  let v141 : BitVec 32 := Scalar.addi v139 v140
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_87 : BitVec 32 := 1#32
  let v142 : BitVec 32 := Scalar.muli v8 c1_i32_87
  let v143 : BitVec 32 := Scalar.addi v141 v142
  v143.toNat
def k0_dev5 (d0 : Dev nD) : Nat :=
  let c0_i32_103 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_102 : BitVec 32 := 16#32
  let v163 : BitVec 32 := Scalar.muli v2 c16_i32_102
  let v164 : BitVec 32 := Scalar.addi c0_i32_103 v163
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_91 : BitVec 32 := 2#32
  let v151 : BitVec 32 := Scalar.addi v5 c2_i32_91
  let c4_i32_92 : BitVec 32 := 4#32
  let c0_i32_93 : BitVec 32 := 0#32
  let v152 : BitVec 1 := Scalar.cmpi .eq c4_i32_92 c0_i32_93
  let c1_i32_94 : BitVec 32 := 1#32
  let v153 : BitVec 32 := Scalar.select v152 c1_i32_94 c4_i32_92
  let v154 : BitVec 32 := Scalar.remsi v151 v153
  let c0_i32_96 : BitVec 32 := 0#32
  let v156 : BitVec 1 := Scalar.cmpi .slt v154 c0_i32_96
  let c0_i32_97 : BitVec 32 := 0#32
  let v157 : BitVec 1 := Scalar.cmpi .slt v153 c0_i32_97
  let v158 : BitVec 1 := Scalar.xori v156 v157
  let c0_i32_95 : BitVec 32 := 0#32
  let v155 : BitVec 1 := Scalar.cmpi .ne v154 c0_i32_95
  let v159 : BitVec 1 := Scalar.andi v158 v155
  let v160 : BitVec 32 := Scalar.addi v154 v153
  let v161 : BitVec 32 := Scalar.select v159 v160 v154
  let c4_i32_104 : BitVec 32 := 4#32
  let v165 : BitVec 32 := Scalar.muli v161 c4_i32_104
  let v166 : BitVec 32 := Scalar.addi v164 v165
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_105 : BitVec 32 := 1#32
  let v167 : BitVec 32 := Scalar.muli v8 c1_i32_105
  let v168 : BitVec 32 := Scalar.addi v166 v167
  v168.toNat
def k0_dev6 (d0 : Dev nD) : Nat :=
  let c0_i32_121 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_120 : BitVec 32 := 16#32
  let v188 : BitVec 32 := Scalar.muli v2 c16_i32_120
  let v189 : BitVec 32 := Scalar.addi c0_i32_121 v188
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_109 : BitVec 32 := 3#32
  let v176 : BitVec 32 := Scalar.addi v5 c3_i32_109
  let c4_i32_110 : BitVec 32 := 4#32
  let c0_i32_111 : BitVec 32 := 0#32
  let v177 : BitVec 1 := Scalar.cmpi .eq c4_i32_110 c0_i32_111
  let c1_i32_112 : BitVec 32 := 1#32
  let v178 : BitVec 32 := Scalar.select v177 c1_i32_112 c4_i32_110
  let v179 : BitVec 32 := Scalar.remsi v176 v178
  let c0_i32_114 : BitVec 32 := 0#32
  let v181 : BitVec 1 := Scalar.cmpi .slt v179 c0_i32_114
  let c0_i32_115 : BitVec 32 := 0#32
  let v182 : BitVec 1 := Scalar.cmpi .slt v178 c0_i32_115
  let v183 : BitVec 1 := Scalar.xori v181 v182
  let c0_i32_113 : BitVec 32 := 0#32
  let v180 : BitVec 1 := Scalar.cmpi .ne v179 c0_i32_113
  let v184 : BitVec 1 := Scalar.andi v183 v180
  let v185 : BitVec 32 := Scalar.addi v179 v178
  let v186 : BitVec 32 := Scalar.select v184 v185 v179
  let c4_i32_122 : BitVec 32 := 4#32
  let v190 : BitVec 32 := Scalar.muli v186 c4_i32_122
  let v191 : BitVec 32 := Scalar.addi v189 v190
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v192 : BitVec 32 := Scalar.muli v8 c1_i32_123
  let v193 : BitVec 32 := Scalar.addi v191 v192
  v193.toNat
def k0_off5 (d0 : Dev nD) (c1_i32_127 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v201 : BitVec 32 := Scalar.subi v5 c1_i32_127
  let c4_i32_128 : BitVec 32 := 4#32
  let c0_i32_129 : BitVec 32 := 0#32
  let v202 : BitVec 1 := Scalar.cmpi .eq c4_i32_128 c0_i32_129
  let c1_i32_130 : BitVec 32 := 1#32
  let v203 : BitVec 32 := Scalar.select v202 c1_i32_130 c4_i32_128
  let v204 : BitVec 32 := Scalar.remsi v201 v203
  let c0_i32_132 : BitVec 32 := 0#32
  let v206 : BitVec 1 := Scalar.cmpi .slt v204 c0_i32_132
  let c0_i32_133 : BitVec 32 := 0#32
  let v207 : BitVec 1 := Scalar.cmpi .slt v203 c0_i32_133
  let v208 : BitVec 1 := Scalar.xori v206 v207
  let c0_i32_131 : BitVec 32 := 0#32
  let v205 : BitVec 1 := Scalar.cmpi .ne v204 c0_i32_131
  let v209 : BitVec 1 := Scalar.andi v208 v205
  let v210 : BitVec 32 := Scalar.addi v204 v203
  let v211 : BitVec 32 := Scalar.select v209 v210 v204
  let c512_i32_134 : BitVec 32 := 512#32
  let v212 : BitVec 32 := Scalar.muli v211 c512_i32_134
  let c0_i32_142 : BitVec 32 := 0#32
  ![v212.toNat, 0]
abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  h_S512x512 : 0 < S512x512.numel
  shapeCasts_S512x512_S512x512 : S512x512.ShapeCasts S512x512
  bitsLt_bf16_f32 : FTy.bits .bf16 < FTy.bits .f32
  inb_S3x512x512_S1x512x512_0_0_0 : ∀ a, (![0, 0, 0] : Fin 3 → Nat) a + S1x512x512.size a ≤ S3x512x512.size a
  h_S1x512x512 : 0 < S1x512x512.numel
  shapeCasts_S1x512x512_S512x512 : S1x512x512.ShapeCasts S512x512
  shapeCasts_S512x512_S1x512x512 : S512x512.ShapeCasts S1x512x512
  packedbf16_S3x512x512_S1x512x512_0_0_0 : (Rect.unit (s := S3x512x512) ![0, 0, 0] S1x512x512.size inb_S3x512x512_S1x512x512_0_0_0).PackedRows (EltTy.packing .bf16)
  inb_S3x512x512_S1x512x512_1_0_0 : ∀ a, (![1, 0, 0] : Fin 3 → Nat) a + S1x512x512.size a ≤ S3x512x512.size a
  packedbf16_S3x512x512_S1x512x512_1_0_0 : (Rect.unit (s := S3x512x512) ![1, 0, 0] S1x512x512.size inb_S3x512x512_S1x512x512_1_0_0).PackedRows (EltTy.packing .bf16)
  inb_S3x512x512_S1x512x512_2_0_0 : ∀ a, (![2, 0, 0] : Fin 3 → Nat) a + S1x512x512.size a ≤ S3x512x512.size a
  packedbf16_S3x512x512_S1x512x512_2_0_0 : (Rect.unit (s := S3x512x512) ![2, 0, 0] S1x512x512.size inb_S3x512x512_S1x512x512_2_0_0).PackedRows (EltTy.packing .bf16)
  hamt_3 : (3#32 : BitVec 32).msb = false
  inb_S3_S1_0 : ∀ a, (![0] : Fin 1 → Nat) a + S1.size a ≤ S3.size a
  squeezes_S1_S_ : S1.Squeezes S_
  squeezes_S1x512x512_S512x512 : S1x512x512.Squeezes S512x512
  wordsbf16_S3x512x512_S1x512x512_0_0_0 : (Rect.unit (s := S3x512x512) ![0, 0, 0] S1x512x512.size inb_S3x512x512_S1x512x512_0_0_0).WholeWords (EltTy.packing .bf16)
  inb_S3_S1_1 : ∀ a, (![1] : Fin 1 → Nat) a + S1.size a ≤ S3.size a
  wordsbf16_S3x512x512_S1x512x512_1_0_0 : (Rect.unit (s := S3x512x512) ![1, 0, 0] S1x512x512.size inb_S3x512x512_S1x512x512_1_0_0).WholeWords (EltTy.packing .bf16)
  inb_S3_S1_2 : ∀ a, (![2] : Fin 1 → Nat) a + S1.size a ≤ S3.size a
  wordsbf16_S3x512x512_S1x512x512_2_0_0 : (Rect.unit (s := S3x512x512) ![2, 0, 0] S1x512x512.size inb_S3x512x512_S1x512x512_2_0_0).WholeWords (EltTy.packing .bf16)
  hcc0_scratch1 : 2 + S3.numel ≤ 8
  hcc0_scratch2 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 3), ∀ a, (k0_off1 d0 (BitVec.ofNat 32 (1 + r.val))) a + S512x512.size a ≤ S512x2048.size a
  k0_off2_inb : ∀ d0 : Dev nD, ∀ a, (k0_off2 d0) a + S512x512.size a ≤ S512x2048.size a
  k0_off3_inb : ∀ d0 : Dev nD, ∀ a, (k0_off3 d0) a + S512x512.size a ≤ S2048x512.size a
  k0_off3_packedbf16 : ∀ d0 : Dev nD, (Rect.unit (s := S2048x512) (k0_off3 d0) S512x512.size (k0_off3_inb d0)).PackedRows (EltTy.packing .bf16)
  k0_off4_inb : ∀ d0 : Dev nD, ∀ a, (k0_off4 d0) a + S512x512.size a ≤ S2048x512.size a
  k0_off4_wordsbf16 : ∀ d0 : Dev nD, (Rect.unit (s := S2048x512) (k0_off4 d0) S512x512.size (k0_off4_inb d0)).WholeWords (EltTy.packing .bf16)
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off5_inb : ∀ d0 : Dev nD, ∀ (r : Fin 3), ∀ a, (k0_off5 d0 (BitVec.ofNat 32 (1 + r.val))) a + S512x512.size a ≤ S2048x512.size a
  k0_off5_wordsbf16 : ∀ d0 : Dev nD, ∀ (r : Fin 3), (Rect.unit (s := S2048x512) (k0_off5 d0 (BitVec.ofNat 32 (1 + r.val))) S512x512.size (k0_off5_inb d0 r)).WholeWords (EltTy.packing .bf16)
  hstage0_0 : ∀ j, (stage0_0 j).IsWhole
  hstage0_1 : ∀ j, (stage0_1 j).IsWhole

variable [Facts₀]

abbrev cc0_scratch1 : DmaSems sig S3 := SemArray.consecutive 2 S3 hcc0_scratch1
abbrev cc0_scratch2 : DmaSems sig S3 := SemArray.consecutive 5 S3 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x2048 : Shape := ⟨2, ![2048, 2048]⟩

abbrev nBuf : Space → Nat
  | .hbm => 2
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Mesh.lean ====
import proofs.«900655_g7700000000000656_dist_a2a_v7x_xyz2x4x4_y_m512_n512_bf16_1_alg».proof.Proof.Gen.KernelIdeal
import proofs.«900655_g7700000000000656_dist_a2a_v7x_xyz2x4x4_y_m512_n512_bf16_1_alg».proof.Proof.Gen.KernelIdeal.Skeleton
import proofs.«900655_g7700000000000656_dist_a2a_v7x_xyz2x4x4_y_m512_n512_bf16_1_alg».proof.Proof.Gen.KernelIdeal.Launch
import proofs.«900655_g7700000000000656_dist_a2a_v7x_xyz2x4x4_y_m512_n512_bf16_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.ValueIdx

/-!
# The exchange along one mesh axis: devices, blocks, cells

Thirty-two devices on a 2 × 4 × 4 mesh. The four devices that share their first and last coordinate form a group;
inside a group every device sends each of the three others one 512 × 512 block of its 512 × 2048 array, and keeps
the fourth. Device `c` at position `y` of its group ends with a 2048 × 512 array whose row block `s` is the
column block `y` of the array of the device at position `s`.

This module fixes the vocabulary: the position of a device in its group, the device `j` places further along the
group, the row blocks of the result buffer, the three slots of the send buffer, the seven semaphore cells of a
device, and the block a device at position `s` contributes to the device at position `y`.
-/

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside one whose rounds have three duties -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The group of a device -/

/-- The position of device `c` in its group (its coordinate on the middle mesh axis). -/
def yc (c : Dev nD) : ℕ := c.val / 4 % 4

/-- The device `j` places after `c` in its group, cyclically: the other two coordinates are kept. -/
def sh (j : ℕ) (c : Dev nD) : Dev nD :=
  ⟨c.val / 16 * 16 + (c.val / 4 % 4 + j) % 4 * 4 + c.val % 4, by have : c.val < 32 := c.isLt; show _ < 32; omega⟩

/-- The device that `c`'s transfer number `k` goes to: `k + 1` places after it. -/
def dst (k : Fin 3) (c : Dev nD) : Dev nD := sh (k.val + 1) c
/-- The device whose transfer number `k` comes to `c`: `k + 1` places before it. -/
def src (k : Fin 3) (c : Dev nD) : Dev nD := sh (3 - k.val) c

theorem src_dst (k : Fin 3) (c : Dev nD) : src k (dst k c) = c := by revert k c; decide
theorem dst_src (k : Fin 3) (c : Dev nD) : dst k (src k c) = c := by revert k c; decide
theorem dst_ne (k : Fin 3) (c : Dev nD) : dst k c ≠ c := by revert k c; decide
theorem src_ne (k : Fin 3) (c : Dev nD) : src k c ≠ c := by revert k c; decide
theorem dst_inj (k k' : Fin 3) (c : Dev nD) (h : dst k c = dst k' c) : k = k' := by revert k k' c; decide
theorem src_inj (k k' : Fin 3) (c : Dev nD) (h : src k c = src k' c) : k = k' := by revert k k' c; decide
theorem yc_lt (c : Dev nD) : yc c < 4 := Nat.mod_lt _ (by decide)
theorem yc_dst (k : Fin 3) (c : Dev nD) : yc (dst k c) = (yc c + k.val + 1) % 4 := by revert k c; decide
theorem yc_src (k : Fin 3) (c : Dev nD) : yc (src k c) = (yc c + 3 - k.val) % 4 := by revert k c; decide
theorem yc_dst_ne (k : Fin 3) (c : Dev nD) : yc (dst k c) ≠ yc c := by revert k c; decide
theorem yc_dst_inj (k k' : Fin 3) (c : Dev nD) (h : yc (dst k c) = yc (dst k' c)) : k = k' := by revert k k' c; decide
/-- The reverse numbering: `c` is the target of transfer `2 - k` of the device it reaches with transfer `k`. -/
def rev (k : Fin 3) : Fin 3 := ⟨2 - k.val, by omega⟩
theorem dst_rev (k : Fin 3) (c : Dev nD) : dst (rev k) (dst k c) = c := by revert k c; decide
theorem src_eq_dst_rev (k : Fin 3) (c : Dev nD) : src k c = dst (rev k) c := by revert k c; decide

/-! ## The kernel's device chains and offsets, in closed form -/

theorem dev1_val : ∀ c : Dev nD, k0_dev1 c = (dst 0 c).val := by decide +kernel
theorem dev2_val : ∀ c : Dev nD, k0_dev2 c = (dst 1 c).val := by decide +kernel
theorem dev3_val : ∀ c : Dev nD, k0_dev3 c = (dst 2 c).val := by decide +kernel
theorem dev4_val : ∀ c : Dev nD, k0_dev4 c = (dst 0 c).val := by decide +kernel
theorem dev5_val : ∀ c : Dev nD, k0_dev5 c = (dst 1 c).val := by decide +kernel
theorem dev6_val : ∀ c : Dev nD, k0_dev6 c = (dst 2 c).val := by decide +kernel

theorem dev1_eq (c : Dev nD) : (⟨k0_dev1 c, k0_dev1_lt c⟩ : Dev nD) = dst 0 c := Fin.ext (dev1_val c)
theorem dev2_eq (c : Dev nD) : (⟨k0_dev2 c, k0_dev2_lt c⟩ : Dev nD) = dst 1 c := Fin.ext (dev2_val c)
theorem dev3_eq (c : Dev nD) : (⟨k0_dev3 c, k0_dev3_lt c⟩ : Dev nD) = dst 2 c := Fin.ext (dev3_val c)
theorem dev4_eq (c : Dev nD) : (⟨k0_dev4 c, k0_dev4_lt c⟩ : Dev nD) = dst 0 c := Fin.ext (dev4_val c)
theorem dev5_eq (c : Dev nD) : (⟨k0_dev5 c, k0_dev5_lt c⟩ : Dev nD) = dst 1 c := Fin.ext (dev5_val c)
theorem dev6_eq (c : Dev nD) : (⟨k0_dev6 c, k0_dev6_lt c⟩ : Dev nD) = dst 2 c := Fin.ext (dev6_val c)

/-- The column block of its own array a device reads for transfer `k`: the one at the target's position. -/
theorem off1_eq : ∀ (c : Dev nD) (k : Fin 3), k0_off1 c (BitVec.ofNat 32 (1 + k.val)) = ![0, 512 * yc (dst k c)] := by decide +kernel
/-- The column block it keeps: the one at its own position. -/
theorem off2_eq (c : Dev nD) : k0_off2 c = ![0, 512 * yc c] := k0_off2_eq c
/-- The row block of the result it writes itself, and the row block of a peer's result its transfers write: its own position. -/
theorem off3_eq (c : Dev nD) : k0_off3 c = ![512 * yc c, 0] := k0_off3_eq c
theorem off4_eq (c : Dev nD) : k0_off4 c = ![512 * yc c, 0] := k0_off4_eq c
/-- The row block transfer `k` of another device lands in: that device's position. -/
theorem off5_eq : ∀ (c : Dev nD) (k : Fin 3), k0_off5 c (BitVec.ofNat 32 (1 + k.val)) = ![512 * yc (src k c), 0] := by decide +kernel

/-! ## Buffers, views and cells -/

abbrev xM : Memref sig .tc .vmem S512x2048 .f32 := Memref.whole cc0_stg0_0
abbrev oM : Memref sig .tc .vmem S2048x512 .bf16 := Memref.whole cc0_stg1_0
abbrev cM : Memref sig .tc .vmem S3x512x512 .bf16 := Memref.whole cc0_scratch0

/-- The row block of a result buffer at device `c`'s position: the rows `c` stores in its own buffer, and the rows its
    transfers write in its peers' buffers. -/
abbrev oBlk (c : Dev nD) : Memref sig .tc .vmem S512x512 .bf16 :=
  oM.slice (Rect.unit (s := S2048x512) (k0_off4 c) S512x512.size (k0_off4_inb c)) (fun _ => rfl)

/-- Slot `k` of the send buffer, as a 512 × 512 view. -/
abbrev cSlot : Fin 3 → Memref sig .tc .vmem S512x512 .bf16
  | 0 => (cM.slice (Rect.unit (s := S3x512x512) ![0, 0, 0] S1x512x512.size inb_S3x512x512_S1x512x512_0_0_0) (fun _ => rfl)).squeeze S512x512 squeezes_S1x512x512_S512x512
  | 1 => (cM.slice (Rect.unit (s := S3x512x512) ![1, 0, 0] S1x512x512.size inb_S3x512x512_S1x512x512_1_0_0) (fun _ => rfl)).squeeze S512x512 squeezes_S1x512x512_S512x512
  | 2 => (cM.slice (Rect.unit (s := S3x512x512) ![2, 0, 0] S1x512x512.size inb_S3x512x512_S1x512x512_2_0_0) (fun _ => rfl)).squeeze S512x512 squeezes_S1x512x512_S512x512

/-- The runtime's barrier semaphore (unscoped); the three send and the three receive DMA semaphores (scoped scratch). -/
abbrev barS : Sem sig := (SemArray.scalar (sig.barrier 0 rfl) : Sems sig S_).sem
abbrev sndS : Fin 3 → DmaSems sig S_
  | 0 => (cc0_scratch1.slice (Rect.unit (s := S3) ![0] S1.size inb_S3_S1_0)).squeeze S_ squeezes_S1_S_
  | 1 => (cc0_scratch1.slice (Rect.unit (s := S3) ![1] S1.size inb_S3_S1_1)).squeeze S_ squeezes_S1_S_
  | 2 => (cc0_scratch1.slice (Rect.unit (s := S3) ![2] S1.size inb_S3_S1_2)).squeeze S_ squeezes_S1_S_
abbrev rcvS : Fin 3 → DmaSems sig S_
  | 0 => (cc0_scratch2.slice (Rect.unit (s := S3) ![0] S1.size inb_S3_S1_0)).squeeze S_ squeezes_S1_S_
  | 1 => (cc0_scratch2.slice (Rect.unit (s := S3) ![1] S1.size inb_S3_S1_1)).squeeze S_ squeezes_S1_S_
  | 2 => (cc0_scratch2.slice (Rect.unit (s := S3) ![2] S1.size inb_S3_S1_2)).squeeze S_ squeezes_S1_S_

abbrev barCell (c : Dev nD) : GSem nD τ sig := ((c : Thread nD τ), .reg barS)
abbrev sndCell (k : Fin 3) (c : Dev nD) : GSem nD τ sig := ((c : Thread nD τ), .dma (sndS k).sem)
abbrev rcvCell (k : Fin 3) (c : Dev nD) : GSem nD τ sig := ((c : Thread nD τ), .dma (rcvS k).sem)

/-- The kernel's OWN (scoped) semaphores, as the launch indexes them: the three send ones, then the three receive ones; -/
abbrev osem : Fin 6 → SemLoc sig := fun
  | 0 => .dma (sndS 0).sem | 1 => .dma (sndS 1).sem | 2 => .dma (sndS 2).sem
  | 3 => .dma (rcvS 0).sem | 4 => .dma (rcvS 1).sem | 5 => .dma (rcvS 2).sem
/-- all seven of a device: the barrier first. -/
abbrev csem : Fin 7 → SemLoc sig := fun
  | 0 => .reg barS
  | 1 => .dma (sndS 0).sem | 2 => .dma (sndS 1).sem | 3 => .dma (sndS 2).sem
  | 4 => .dma (rcvS 0).sem | 5 => .dma (rcvS 1).sem | 6 => .dma (rcvS 2).sem
abbrev kcell (ck : Dev nD × Fin 7) : GSem nD τ sig := ((ck.1 : Thread nD τ), csem ck.2)
/-- Where a send and a receive cell sit among the seven. -/
def sndIx (k : Fin 3) : Fin 7 := ⟨1 + k.val, by omega⟩
def rcvIx (k : Fin 3) : Fin 7 := ⟨4 + k.val, by omega⟩
theorem kcell_bar (c : Dev nD) : kcell (c, 0) = barCell c := rfl
theorem kcell_snd (k : Fin 3) (c : Dev nD) : kcell (c, sndIx k) = sndCell k c := by fin_cases k <;> rfl
theorem kcell_rcv (k : Fin 3) (c : Dev nD) : kcell (c, rcvIx k) = rcvCell k c := by fin_cases k <;> rfl

/-- The units one 512 × 512 block credits a DMA semaphore. -/
abbrev N : ℕ := (cSlot 0).view.dmaCredit
theorem N_pos : 0 < N := View.dmaCredit_pos _ (by decide)
theorem amount_oBlk (c : Dev nD) (sm : DmaSem sig) : (oBlk c).view.amount (.dma sm) = N := rfl
theorem amount_cSlot (k : Fin 3) (sm : DmaSem sig) : (cSlot k).view.amount (.dma sm) = N := by fin_cases k <;> rfl

/-! ## Contents -/

/-- Device `c`'s own 512 × 2048 array, as the kernel finds it staged. -/
def xs (c : Dev nD) : (cc0_stg0_0 : Ref sig .tc).ty.Contents (Elt F) :=
  (win0_0.blk (0 : Fin 1)).view.read (Elt F) ((s₀ m ρ).mem ((c : Thread nD τ).loc main_arg0))

/-- The device of `c`'s group at position `y`. -/
def atY (c : Dev nD) (y : ℕ) : Dev nD :=
  ⟨c.val / 16 * 16 + y % 4 * 4 + c.val % 4, by have : c.val < 32 := c.isLt; show _ < 32; omega⟩
theorem atY_yc (c : Dev nD) : atY c (yc c) = c := by revert c; decide
theorem atY_dst (k : Fin 3) (c : Dev nD) (y : ℕ) : atY (dst k c) y = atY c y := by
  have h : ∀ (k : Fin 3) (c : Dev nD) (y : Fin 4), atY (dst k c) y.val = atY c y.val := by decide
  have : atY (dst k c) y = atY (dst k c) (y % 4) := Fin.ext (by simp only [atY, Nat.mod_mod])
  rw [this, show atY c y = atY c (y % 4) from Fin.ext (by simp only [atY, Nat.mod_mod])]
  exact h k c ⟨y % 4, Nat.mod_lt _ (by decide)⟩
theorem yc_atY (c : Dev nD) (y : ℕ) (hy : y < 4) : yc (atY c y) = y := by
  have h : ∀ (c : Dev nD) (y : Fin 4), yc (atY c y.val) = y.val := by decide
  exact h c ⟨y, hy⟩
theorem atY_yc_dst (k : Fin 3) (c : Dev nD) : atY c (yc (dst k c)) = dst k c := by revert k c; decide
theorem atY_yc_src (k : Fin 3) (c : Dev nD) : atY c (yc (src k c)) = src k c := by revert k c; decide

/-- The result buffer of device `c` at the end: entry `(R, q)` is, narrowed to the result's format, entry
    `(R mod 512, 512 · (position of c) + q)` of the array of the device at position `R / 512` of `c`'s group. -/
def outF (c : Dev nD) : (cc0_stg1_0 : Ref sig .tc).ty.Contents (Elt F) :=
  fun (i : S2048x512.Idx) =>
    (FloatOps.truncf (F := F) .bf16 bitsLt_bf16_f32
      ((xs m ρ (atY c ((i 0).val / 512)) : S512x2048.Idx → F .f32)
        (ValueIdx.ix2 (⟨(i 0).val % 512, Nat.mod_lt _ (by decide)⟩ : Fin 512)
          (⟨512 * yc c + (i 1).val, by have := yc_lt c; have : (i 1).val < 512 := (i 1).isLt; show _ < 2048; omega⟩ : Fin 2048))) : F .bf16)

/-- What the three narrowing stores leave in the send buffer, whatever it held: slot `k` holds the column block of
    the device's own array at the position of the device transfer `k` goes to. -/
def ld (c : Dev nD) (k : Fin 3) : Vec F S512x512 .f32 :=
  xM.view.readAt (Elt F) (Rect.unit (s := S512x2048) (k0_off1 c (BitVec.ofNat 32 (1 + k.val))) S512x512.size (k0_off1_inb c k)).toLoadRect (xs m ρ c)
def ldOwn (c : Dev nD) : Vec F S512x512 .f32 :=
  xM.view.readAt (Elt F) (Rect.unit (s := S512x2048) (k0_off2 c) S512x512.size (k0_off2_inb c)).toLoadRect (xs m ρ c)
abbrev cRect0 : Rect S3x512x512 := Rect.unit (s := S3x512x512) ![0, 0, 0] S1x512x512.size inb_S3x512x512_S1x512x512_0_0_0
abbrev cRect1 : Rect S3x512x512 := Rect.unit (s := S3x512x512) ![1, 0, 0] S1x512x512.size inb_S3x512x512_S1x512x512_1_0_0
abbrev cRect2 : Rect S3x512x512 := Rect.unit (s := S3x512x512) ![2, 0, 0] S1x512x512.size inb_S3x512x512_S1x512x512_2_0_0
abbrev oRect (c : Dev nD) : Rect S2048x512 := Rect.unit (s := S2048x512) (k0_off3 c) S512x512.size (k0_off3_inb c)
def commAfter (c : Dev nD) (f0 : (cc0_scratch0 : Ref sig .tc).ty.Contents (Elt F)) : (cc0_scratch0 : Ref sig .tc).ty.Contents (Elt F) :=
  (cM.access cRect2 : View sig .tc _ _ _).write (Elt F)
    ((cM.access cRect1 : View sig .tc _ _ _).write (Elt F)
      ((cM.access cRect0 : View sig .tc _ _ _).write (Elt F) f0 (k0_pay1 (ld m ρ c 0)) Finset.univ)
      (k0_pay2 (ld m ρ c 1)) Finset.univ)
    (k0_pay3 (ld m ρ c 2)) Finset.univ

/-! ## What a landing hands over -/

/-- Duty `k` of device `c`'s barrier cell is paid by the device `c`'s transfer `k` goes to; its signal hands `c` the
    row block at `c`'s position of that device's result buffer, whatever it holds. -/
def barPay (c : Dev nD) (k : Fin 3) : sProp 𝕄 :=
  iprop(∃ f, (oBlk c).view.loc ((dst k c : Dev nD) : Thread nD τ) ↦[(oBlk c).view.set]{fullShare} f)
/-- The transfer number `k` that comes to `c` hands it the row block at the sender's position of its own result
    buffer, holding what the result holds there at the end. -/
def rcvPay (k : Fin 3) (c : Dev nD) : sProp 𝕄 :=
  (oBlk (src k c)).view.loc (c : Thread nD τ) ↦[(oBlk (src k c)).view.set]{fullShare} outF m ρ c
/-- A transfer's source fully read hands its slot of the send buffer back. -/
def sndPay (k : Fin 3) (c : Dev nD) : sProp 𝕄 :=
  iprop(∃ f, (cSlot k).view.loc (c : Thread nD τ) ↦[(cSlot k).view.set]{fullShare} f)

/-! ## The schedule: one round -/

abbrev IsBar (g : GSem nD τ sig) : Prop := g.1.2 = .tc ∧ g.2 = .reg barS
abbrev IsXfer (g : GSem nD τ sig) : Prop := g.1.2 = .tc ∧
  (g.2 = .dma (sndS 0).sem ∨ g.2 = .dma (sndS 1).sem ∨ g.2 = .dma (sndS 2).sem
    ∨ g.2 = .dma (rcvS 0).sem ∨ g.2 = .dma (rcvS 1).sem ∨ g.2 = .dma (rcvS 2).sem)

/-- Round 0 only. A barrier cell has three duties of one unit, one per peer; a send or a receive cell the one duty
    `0` of a block's credit. -/
def a2aRd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma (rcvS 0).sem then rcvPay m ρ 0 g.1.1
    else if g.2 = .dma (rcvS 1).sem then rcvPay m ρ 1 g.1.1
    else if g.2 = .dma (rcvS 2).sem then rcvPay m ρ 2 g.1.1
    else if g.2 = .dma (sndS 0).sem then sndPay 0 g.1.1
    else if g.2 = .dma (sndS 1).sem then sndPay 1 g.1.1
    else if g.2 = .dma (sndS 2).sem then sndPay 2 g.1.1
    else iprop(emp)
  amount_pos g _ _ _ := by
    by_cases h : g.2 = .reg barS
    · rw [if_pos h]; exact Nat.one_pos
    · rw [if_neg h]; exact N_pos

instance a2aRd_payload_storable (g : GSem nD τ sig) (r : ℕ) (d : Fin 3) :
    BI.Storable (upEmb : UEmb _ 𝕄) ((a2aRd (F := F) m ρ).payload g r d) := by
  show BI.Storable upEmb (if g.2 = .reg barS then barPay g.1.1 d
    else if g.2 = .dma (rcvS 0).sem then rcvPay m ρ 0 g.1.1
    else if g.2 = .dma (rcvS 1).sem then rcvPay m ρ 1 g.1.1
    else if g.2 = .dma (rcvS 2).sem then rcvPay m ρ 2 g.1.1
    else if g.2 = .dma (sndS 0).sem then sndPay 0 g.1.1
    else if g.2 = .dma (sndS 1).sem then sndPay 1 g.1.1
    else if g.2 = .dma (sndS 2).sem then sndPay 2 g.1.1
    else iprop(emp))
  unfold barPay rcvPay sndPay
  (repeat' split) <;> infer_instance

section Sched
variable (c : Dev nD) (k : Fin 3)

theorem snd_ne_bar : (SemLoc.dma (sndS k).sem : SemLoc sig) ≠ .reg barS := fun h => by cases h
theorem rcv_ne_bar : (SemLoc.dma (rcvS k).sem : SemLoc sig) ≠ .reg barS := fun h => by cases h
theorem snd_ne_rcv (k k' : Fin 3) : (SemLoc.dma (sndS k).sem : SemLoc sig) ≠ .dma (rcvS k').sem := by revert k k'; decide
theorem rcv_ne_snd (k k' : Fin 3) : (SemLoc.dma (rcvS k).sem : SemLoc sig) ≠ .dma (sndS k').sem := by revert k k'; decide
theorem snd_inj (k k' : Fin 3) (h : (SemLoc.dma (sndS k).sem : SemLoc sig) = .dma (sndS k').sem) : k = k' := by revert k k'; decide
theorem rcv_inj (k k' : Fin 3) (h : (SemLoc.dma (rcvS k).sem : SemLoc sig) = .dma (rcvS k').sem) : k = k' := by revert k k'; decide
theorem not_bar_snd : ¬ IsBar (sndCell k c) := fun h => snd_ne_bar k h.2
theorem not_bar_rcv : ¬ IsBar (rcvCell k c) := fun h => rcv_ne_bar k h.2
theorem isXfer_snd : IsXfer (sndCell k c) := ⟨rfl, (by decide : ∀ k : Fin 3, (SemLoc.dma (sndS k).sem : SemLoc sig) = .dma (sndS 0).sem ∨ (SemLoc.dma (sndS k).sem : SemLoc sig) = .dma (sndS 1).sem ∨ (SemLoc.dma (sndS k).sem : SemLoc sig) = .dma (sndS 2).sem
    ∨ (SemLoc.dma (sndS k).sem : SemLoc sig) = .dma (rcvS 0).sem ∨ (SemLoc.dma (sndS k).sem : SemLoc sig) = .dma (rcvS 1).sem ∨ (SemLoc.dma (sndS k).sem : SemLoc sig) = .dma (rcvS 2).sem) k⟩
theorem isXfer_rcv : IsXfer (rcvCell k c) := ⟨rfl, (by decide : ∀ k : Fin 3, (SemLoc.dma (rcvS k).sem : SemLoc sig) = .dma (sndS 0).sem ∨ (SemLoc.dma (rcvS k).sem : SemLoc sig) = .dma (sndS 1).sem ∨ (SemLoc.dma (rcvS k).sem : SemLoc sig) = .dma (sndS 2).sem
    ∨ (SemLoc.dma (rcvS k).sem : SemLoc sig) = .dma (rcvS 0).sem ∨ (SemLoc.dma (rcvS k).sem : SemLoc sig) = .dma (rcvS 1).sem ∨ (SemLoc.dma (rcvS k).sem : SemLoc sig) = .dma (rcvS 2).sem) k⟩

theorem duties_bar : (a2aRd (F := F) m ρ).duties (barCell c) 0 = Finset.univ := by dsimp only [a2aRd]; exact if_pos ⟨rfl, rfl, rfl⟩
theorem duties_snd : (a2aRd (F := F) m ρ).duties (sndCell k c) 0 = {0} := by
  dsimp only [a2aRd]; rw [if_neg (fun h => not_bar_snd c k h.2)]; exact if_pos ⟨rfl, isXfer_snd c k⟩
theorem duties_rcv : (a2aRd (F := F) m ρ).duties (rcvCell k c) 0 = {0} := by
  dsimp only [a2aRd]; rw [if_neg (fun h => not_bar_rcv c k h.2)]; exact if_pos ⟨rfl, isXfer_rcv c k⟩
theorem duties_later (g : GSem nD τ sig) : ∀ r, 1 ≤ r → (a2aRd (F := F) m ρ).duties g r = ∅ :=
  fun r hr => by dsimp only [a2aRd]; rw [if_neg fun h => by omega, if_neg fun h => by omega]

theorem amount_bar (d : Fin 3) : (a2aRd (F := F) m ρ).amount (barCell c) 0 d = 1 := by dsimp only [a2aRd]; exact if_pos rfl
theorem amount_snd (d : Fin 3) : (a2aRd (F := F) m ρ).amount (sndCell k c) 0 d = N := by dsimp only [a2aRd]; exact if_neg (snd_ne_bar k)
theorem amount_rcv (d : Fin 3) : (a2aRd (F := F) m ρ).amount (rcvCell k c) 0 d = N := by dsimp only [a2aRd]; exact if_neg (rcv_ne_bar k)

theorem expect_bar : (a2aRd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_snd : (a2aRd (F := F) m ρ).expect (sndCell k c) 0 = N := by
  unfold Schedule.expect Schedule.amountOf; rw [duties_snd, Finset.sum_singleton, amount_snd]
theorem expect_rcv : (a2aRd (F := F) m ρ).expect (rcvCell k c) 0 = N := by
  unfold Schedule.expect Schedule.amountOf; rw [duties_rcv, Finset.sum_singleton, amount_rcv]

theorem payload_bar (d : Fin 3) : (a2aRd (F := F) m ρ).payload (barCell c) 0 d = barPay c d := by dsimp only [a2aRd]; rw [if_pos rfl]
theorem payload_rcv (d : Fin 3) : (a2aRd (F := F) m ρ).payload (rcvCell k c) 0 d = rcvPay m ρ k c := by
  dsimp only [a2aRd]; rw [if_neg (rcv_ne_bar k)]
  match k with
  | 0 => rw [if_pos rfl]
  | 1 => rw [if_neg (by decide), if_pos rfl]
  | 2 => rw [if_neg (by decide), if_neg (by decide), if_pos rfl]
theorem payload_snd (d : Fin 3) : (a2aRd (F := F) m ρ).payload (sndCell k c) 0 d = sndPay k c := by
  dsimp only [a2aRd]; rw [if_neg (snd_ne_bar k), if_neg (snd_ne_rcv k 0), if_neg (snd_ne_rcv k 1), if_neg (snd_ne_rcv k 2)]
  match k with
  | 0 => rw [if_pos rfl]
  | 1 => rw [if_neg (by decide), if_pos rfl]
  | 2 => rw [if_neg (by decide), if_neg (by decide), if_pos rfl]

theorem bigSep_fin3 (Φ : Fin 3 → sProp 𝕄) : bigSep Finset.univ Φ = iprop(Φ 0 ∗ Φ 1 ∗ Φ 2) := bigSep_univ_eq_bigSepL [0, 1, 2] (by decide) (by decide) Φ

/-- The whole of the barrier cell's round: the three peers' row blocks. -/
theorem rest_bar : bigSep ((a2aRd (F := F) m ρ).duties (barCell c) 0 \ ∅) (fun d => (a2aRd (F := F) m ρ).payload (barCell c) 0 d)
    = iprop(barPay c 0 ∗ barPay c 1 ∗ barPay c 2) := by
  rw [Finset.sdiff_empty, duties_bar, bigSep_fin3, payload_bar, payload_bar, payload_bar]
theorem rest_snd : bigSep ((a2aRd (F := F) m ρ).duties (sndCell k c) 0 \ ∅) (fun d => (a2aRd (F := F) m ρ).payload (sndCell k c) 0 d) = sndPay k c := by
  rw [Finset.sdiff_empty, duties_snd, bigSep_singleton, payload_snd]
theorem rest_rcv : bigSep ((a2aRd (F := F) m ρ).duties (rcvCell k c) 0 \ ∅) (fun d => (a2aRd (F := F) m ρ).payload (rcvCell k c) 0 d) = rcvPay m ρ k c := by
  rw [Finset.sdiff_empty, duties_rcv, bigSep_singleton, payload_rcv]

end Sched

end Cert.KernelIdeal.A2a

end
-- ==== Proof.Data.lean ====
import proofs.«900655_g7700000000000656_dist_a2a_v7x_xyz2x4x4_y_m512_n512_bf16_1_alg».proof.Proof.Mesh

/-!
# What a device owes, the levels, and the proof data of the one pallas_call

At launch a device owes each of its three peers one unit on the peer's barrier cell and one block's credit on the
peer's receive cell. Levels: barrier cells at 1, receive cells at 2, everything else at 0 — a device waits on its
barrier while it still owes receive credit, never the other way round.
-/

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes at launch; the levels -/

/-- The receive credit a device still owes after its three signals: summed so that transfer 0 peels the last summand. -/
def owedR (c : Dev nD) : CellTallies nD τ sig Unit :=
  tallyAt (rcvCell 2 (dst 2 c)) () N + tallyAt (rcvCell 1 (dst 1 c)) () N + tallyAt (rcvCell 0 (dst 0 c)) () N
/-- At launch it owes the three barrier units too: signal 0 peels the last summand, then signal 1, then signal 2. -/
def O₀ (c : Dev nD) : CellTallies nD τ sig Unit :=
  owedR c + tallyAt (barCell (dst 2 c)) () 1 + tallyAt (barCell (dst 1 c)) () 1 + tallyAt (barCell (dst 0 c)) () 1

def L (g : GSem nD τ sig) : Finset Unit := if g.1.2 = .tc then {()} else ∅
abbrev IsRcvSem (s : SemLoc sig) : Prop := s = .dma (rcvS 0).sem ∨ s = .dma (rcvS 1).sem ∨ s = .dma (rcvS 2).sem
/-- Barrier cells at 1, receive cells at 2, everything else (staging, send) at 0. -/
def lv (g : GSem nD τ sig) (_ : Unit) : ℕ := if g.2 = .reg barS then 1 else if IsRcvSem g.2 then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state of a device -/

/-- What every device knows of every cell: its invariant, under the name the launch allocated it at, and that its
    round 0 is reached. -/
def records (K : Dev nD × Fin 7 → ℕ) : sProp 𝕄 :=
  iprop((bigSep Finset.univ fun ck : Dev nD × Fin 7 => cellInv ER (a2aRd m ρ) (K ck) (kcell ck))
    ∗ bigSep Finset.univ fun ck : Dev nD × Fin 7 => reached ER (kcell ck) 0)

instance records_persistent (K : Dev nD × Fin 7 → ℕ) : BI.Persistent (records m ρ K) := by unfold records; infer_instance

/-- The tokens of the duties device `c` pays: per transfer `k`, the barrier duty of its target that is `c`'s to pay,
    the target's receive duty, its own send duty. -/
def payToks (c : Dev nD) : sProp 𝕄 :=
  iprop((dutyTok ER (barCell (dst 0 c)) 0 (rev 0) ∗ dutyTok ER (rcvCell 0 (dst 0 c)) 0 0 ∗ dutyTok ER (sndCell 0 c) 0 0)
    ∗ (dutyTok ER (barCell (dst 1 c)) 0 (rev 1) ∗ dutyTok ER (rcvCell 1 (dst 1 c)) 0 0 ∗ dutyTok ER (sndCell 1 c) 0 0)
    ∗ (dutyTok ER (barCell (dst 2 c)) 0 (rev 2) ∗ dutyTok ER (rcvCell 2 (dst 2 c)) 0 0 ∗ dutyTok ER (sndCell 2 c) 0 0))

/-- Its positions: at the start of round 0 of each of its seven cells. -/
def positions (c : Dev nD) : sProp 𝕄 :=
  iprop(atPos ER (barCell c) 0 ∅ 0
    ∗ (atPos ER (sndCell 0 c) 0 ∅ 0 ∗ atPos ER (sndCell 1 c) 0 ∅ 0 ∗ atPos ER (sndCell 2 c) 0 ∅ 0)
    ∗ (atPos ER (rcvCell 0 c) 0 ∅ 0 ∗ atPos ER (rcvCell 1 c) 0 ∅ 0 ∗ atPos ER (rcvCell 2 c) 0 ∅ 0))

def ghost (K : Dev nD × Fin 7 → ℕ) (c : Dev nD) : sProp 𝕄 := iprop(records m ρ K ∗ positions c ∗ payToks c)

/-- The credit dealt at launch for what the others owe its cells: three barrier units, a block on each receive cell. -/
def creds (c : Dev nD) : sProp 𝕄 :=
  iprop(cred (tallyAt (barCell c) () 3) ∗ cred (tallyAt (rcvCell 0 c) () N) ∗ cred (tallyAt (rcvCell 1 c) () N) ∗ cred (tallyAt (rcvCell 2 c) () N))

/-- What device `c`'s body starts from. -/
def start (c : Dev nD) : sProp 𝕄 := iprop((∃ K, ghost m ρ K c) ∗ creds c ∗ levAts L lv)

/-- The send buffer, whole. -/
def cPts (c : Dev nD) (f : Buf (Elt F) (cM.view.loc (c : Thread nD τ))) : sProp 𝕄 :=
  cM.view.loc (c : Thread nD τ) ↦[cM.view.set]{fullShare} f
omit [FloatOps F] in
theorem cPts_eq (c : Dev nD) (f : Buf (Elt F) ((c : Thread nD τ).loc cc0_scratch0)) :
    cPts c f = (((c : Thread nD τ).loc cc0_scratch0) ↦{fullShare} f : sProp 𝕄) := by unfold cPts; rw [View.set_whole]

/-- The own cells closed: their counters at zero are the device's again. -/
def ownZero (c : Dev nD) : sProp 𝕄 :=
  iprop(semVal (sndCell 0 c) 0 ∗ semVal (sndCell 1 c) 0 ∗ semVal (sndCell 2 c) 0 ∗ semVal (rcvCell 0 c) 0 ∗ semVal (rcvCell 1 c) 0 ∗ semVal (rcvCell 2 c) 0)

def Φ₀ (c : Dev nD) : sProp 𝕄 := iprop(start m ρ c ∗ ∃ f, cPts c f)
def Φ₁ (c : Dev nD) : sProp 𝕄 := iprop((∃ f, cPts (F := F) c f) ∗ ownZero c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => outF m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 7 → ℕ) (c : Dev nD) : sProp 𝕄 :=
  iprop((ghost m ρ K c ∗ creds c ∗ levAts L lv ∗ ∃ f, cPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xs m ρ c) ∗ stg c cc0_stg1_0 (outF m ρ c))

end Cert.KernelIdeal.A2a

end
-- ==== Proof.Levels.lean ====
import proofs.«900655_g7700000000000656_dist_a2a_v7x_xyz2x4x4_y_m512_n512_bf16_1_alg».proof.Proof.Data

/-!
# Waiting below what is owed

A wait is allowed at a level below everything the waiter still owes. A device waits on a staging cell (level 0)
owing at most its three barrier units (level 1) and its three receive credits (level 2); on its barrier cell
(level 1) owing the receive credits only.
-/

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A cell device `c` still owes receive credit is a peer's receive cell. -/
theorem owedR_pos {c : Dev nD} {g : GSem nD τ sig} {u : Unit} (h : 0 < owedR c g u) : ∃ k, g = rcvCell k (dst k c) := by
  unfold owedR at h
  simp only [Pi.add_apply, Finsupp.add_apply, tallyAt_apply] at h
  by_contra hn
  have h1 : ∀ k, g ≠ rcvCell k (dst k c) := fun k hk => hn ⟨k, hk⟩
  rw [if_neg (fun h' => h1 2 h'.1), if_neg (fun h' => h1 1 h'.1), if_neg (fun h' => h1 0 h'.1)] at h
  exact Nat.lt_irrefl 0 h

/-- A cell device `c` owes something at launch is a peer's barrier cell or a peer's receive cell. -/
theorem O₀_pos {c : Dev nD} {g : GSem nD τ sig} {u : Unit} (h : 0 < O₀ c g u) :
    (∃ k, g = rcvCell k (dst k c)) ∨ (∃ k, g = barCell (dst k c)) := by
  unfold O₀ owedR at h
  simp only [Pi.add_apply, Finsupp.add_apply, tallyAt_apply] at h
  by_contra hn
  rw [not_or] at hn
  have h1 : ∀ k, g ≠ rcvCell k (dst k c) := fun k hk => hn.1 ⟨k, hk⟩
  have h2 : ∀ k, g ≠ barCell (dst k c) := fun k hk => hn.2 ⟨k, hk⟩
  rw [if_neg (fun h' => h1 2 h'.1), if_neg (fun h' => h1 1 h'.1), if_neg (fun h' => h1 0 h'.1),
    if_neg (fun h' => h2 2 h'.1), if_neg (fun h' => h2 1 h'.1), if_neg (fun h' => h2 0 h'.1)] at h
  exact Nat.lt_irrefl 0 h

omit [FloatOps F] in
/-- The level of a receive cell. -/
theorem lv_rcv (k : Fin 3) (c : Dev nD) : lv (rcvCell k c) () = 2 := by
  dsimp only [lv]; rw [if_neg (rcv_ne_bar k), if_pos (by revert k; decide)]
omit [FloatOps F] in
/-- The level of a barrier cell. -/
theorem lv_bar (c : Dev nD) : lv (barCell c) () = 1 := by dsimp only [lv]; rw [if_pos rfl]

omit [FloatOps F] in
/-- A wait on a DMA semaphore that is no receive semaphore (a staging cell's, a send cell's), owing what is owed at launch or nothing. -/
theorem mayWait_stage (c : Dev nD) (q : DmaSem sig) (hq : ¬ IsRcvSem (SemLoc.dma q : SemLoc sig)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨k, rfl⟩ | ⟨k, rfl⟩ <;> exact Finset.mem_singleton_self _)
      (fun p hp => by rw [Finset.mem_singleton.mp hp]; dsimp only [lv]; rw [if_neg (fun h => by cases h), if_neg hq])
      (fun g u hg => by
        rcases O₀_pos hg with ⟨k, rfl⟩ | ⟨k, rfl⟩
        · rw [lv_rcv]; decide
        · rw [lv_bar]; decide)
  · rw [MayWait_zero]; iintro -; iempintro

omit [FloatOps F] in
/-- At its barrier wait a device owes its peers' receive credit only: receive cells sit above barrier cells. -/
theorem mayWait_bar (c : Dev nD) :
    (levAts L lv : sProp 𝕄) ⊢ MayWait (c : Thread nD τ) (.reg barS) () (owedR c) :=
  MayOwe.of_cut (L := L) (lev := lv) 1 (fun p hp => by rw [Finset.mem_singleton.mp hp, L_tc]; exact Finset.mem_singleton_self _)
    (fun g u hg => by obtain ⟨k, rfl⟩ := owedR_pos hg; exact Finset.mem_singleton_self _)
    (fun p hp => by rw [Finset.mem_singleton.mp hp]; dsimp only [lv]; rw [if_pos rfl])
    (fun g u hg => by obtain ⟨k, rfl⟩ := owedR_pos hg; rw [lv_rcv]; decide)

end Cert.KernelIdeal.A2a

end
-- ==== Proof.Blocks.lean ====
import proofs.«900655_g7700000000000656_dist_a2a_v7x_xyz2x4x4_y_m512_n512_bf16_1_alg».proof.Proof.Data
import Idealize.ShloMosaic.Lib.Pipeline.Value

/-!
# The row blocks of a result buffer and the slots of a send buffer, as sets and as values

The result buffer's index set is the disjoint union of four row blocks, one per position of the group; the send
buffer's of its three slots. A landing overwrites one row block with one slot; what it leaves there is what the
result holds there at the end.
-/

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The rows of a result buffer at position `y`: indices `(R, q)` with `R / 512 = y`. -/
def rowsAt (y : ℕ) : Finset S2048x512.Idx := Finset.univ.filter fun i => (i 0).val / 512 = y

theorem mem_rowsAt (y : ℕ) (i : S2048x512.Idx) : i ∈ rowsAt y ↔ (i 0).val / 512 = y := by
  unfold rowsAt; rw [Finset.mem_filter]; exact ⟨fun h => h.2, fun h => ⟨Finset.mem_univ _, h⟩⟩

/-- The unit-stride 512 × 512 rectangle at row offset `512 · y` is the row block at position `y`. -/
theorem unit_rows_set (off : Fin 2 → ℕ) (y : ℕ) (h : off = ![512 * y, 0])
    (inb : ∀ a, off a + S512x512.size a ≤ S2048x512.size a) :
    (Rect.unit (s := S2048x512) off S512x512.size inb).set = rowsAt y := by
  subst h
  ext i
  rw [Rect.mem_set_unit, mem_rowsAt]
  constructor
  · intro h
    have h0 := h 0
    have e0 : (![512 * y, 0] : Fin 2 → ℕ) 0 = 512 * y := rfl
    have s0 : S512x512.size 0 = 512 := rfl
    rw [e0, s0] at h0
    omega
  · intro h a
    have hi1 : (i 1).val < 512 := (i 1).isLt
    match a with
    | ⟨0, _⟩ =>
      show 512 * y ≤ (i 0).val ∧ (i 0).val < 512 * y + 512
      omega
    | ⟨1, _⟩ =>
      show 0 ≤ (i 1).val ∧ (i 1).val < 0 + 512
      omega

omit [FloatOps F] in
theorem oBlk_set (c : Dev nD) : ((oBlk c).view.set : Finset S2048x512.Idx) = rowsAt (yc c) := by
  show ((View.whole cc0_stg1_0 : View sig .tc _ _ _).slice _).set = _
  rw [View.set_slice_whole]
  exact unit_rows_set _ _ (off4_eq c) _
omit [FloatOps F] in
theorem oRect_set (c : Dev nD) : (((oM.access (oRect c) : View sig .tc _ _ _).set) : Finset S2048x512.Idx) = rowsAt (yc c) := by
  show ((View.whole cc0_stg1_0 : View sig .tc _ _ _).slice _).set = _
  rw [View.set_slice_whole]
  exact unit_rows_set _ _ (off3_eq c) _

omit [FloatOps F] in
/-- A points-to along two disjoint element sets, as an equation. -/
theorem pt_union_eq {ℓ : Loc nD τ sig} {I J : Finset (Idx ℓ)} {f : Buf (Elt F) ℓ} (h : Disjoint I J) :
    (ℓ ↦[I ∪ J]{fullShare} f : sProp 𝕄) = iprop((ℓ ↦[I]{fullShare} f) ∗ ℓ ↦[J]{fullShare} f) := by
  have hu : (ℓ ↦[I ∪ J]{fullShare} f : sProp 𝕄) ⊣⊢ iprop((ℓ ↦[I]{fullShare} f) ∗ ℓ ↦[J]{fullShare} f) := pointsTo_union h
  exact BI.equiv_iff.mp ⟨hu.1, hu.2⟩

/-- Row blocks at different positions share no index. -/
theorem rowsAt_disjoint {a b : ℕ} (h : a ≠ b) : Disjoint (rowsAt a) (rowsAt b) :=
  Finset.disjoint_left.mpr fun i ha hb => h (((mem_rowsAt a i).mp ha).symm.trans ((mem_rowsAt b i).mp hb))

/-- Four distinct positions below four exhaust the rows. -/
theorem rows4_univ (a b d e : ℕ) (ha : a < 4) (hb : b < 4) (hd : d < 4) (he : e < 4)
    (hab : a ≠ b) (had : a ≠ d) (hae : a ≠ e) (hbd : b ≠ d) (hbe : b ≠ e) (hde : d ≠ e) :
    (Finset.univ : Finset S2048x512.Idx) = rowsAt a ∪ (rowsAt b ∪ (rowsAt d ∪ rowsAt e)) := by
  ext i
  simp only [Finset.mem_univ, Finset.mem_union, mem_rowsAt, true_iff]
  have hi : (i 0).val < 2048 := (i 0).isLt
  omega

omit [FloatOps F] in
/-- The whole result buffer's points-to is the ∗ of the row blocks' at four distinct positions. -/
theorem rows4_eq (c : Dev nD) (f : Buf (Elt F) ((c : Thread nD τ).loc cc0_stg1_0)) (a b d e : ℕ)
    (ha : a < 4) (hb : b < 4) (hd : d < 4) (he : e < 4)
    (hab : a ≠ b) (had : a ≠ d) (hae : a ≠ e) (hbd : b ≠ d) (hbe : b ≠ e) (hde : d ≠ e) :
    (((c : Thread nD τ).loc cc0_stg1_0) ↦{fullShare} f : sProp 𝕄)
      = iprop((((c : Thread nD τ).loc cc0_stg1_0) ↦[rowsAt a]{fullShare} f)
          ∗ (((c : Thread nD τ).loc cc0_stg1_0) ↦[rowsAt b]{fullShare} f)
          ∗ (((c : Thread nD τ).loc cc0_stg1_0) ↦[rowsAt d]{fullShare} f)
          ∗ (((c : Thread nD τ).loc cc0_stg1_0) ↦[rowsAt e]{fullShare} f)) := by
  have h1 : Disjoint (rowsAt a) (rowsAt b ∪ (rowsAt d ∪ rowsAt e)) :=
    Finset.disjoint_union_right.mpr ⟨rowsAt_disjoint hab, Finset.disjoint_union_right.mpr ⟨rowsAt_disjoint had, rowsAt_disjoint hae⟩⟩
  have h2 : Disjoint (rowsAt b) (rowsAt d ∪ rowsAt e) :=
    Finset.disjoint_union_right.mpr ⟨rowsAt_disjoint hbd, rowsAt_disjoint hbe⟩
  have h3 : Disjoint (rowsAt d) (rowsAt e) := rowsAt_disjoint hde
  rw [show (((c : Thread nD τ).loc cc0_stg1_0) ↦{fullShare} f : sProp 𝕄)
      = (((c : Thread nD τ).loc cc0_stg1_0) ↦[rowsAt a ∪ (rowsAt b ∪ (rowsAt d ∪ rowsAt e))]{fullShare} f) from by
        rw [← rows4_univ a b d e ha hb hd he hab had hae hbd hbe hde]]
  rw [pt_union_eq h1, pt_union_eq h2, pt_union_eq h3]

omit [FloatOps F] in
/-- The whole result buffer of `c` cut into the block it keeps and the three it lends to its peers. -/
theorem out_split (c : Dev nD) (f : Buf (Elt F) ((c : Thread nD τ).loc cc0_stg1_0)) :
    (((c : Thread nD τ).loc cc0_stg1_0) ↦{fullShare} f : sProp 𝕄)
      ⊢ iprop((((c : Thread nD τ).loc cc0_stg1_0) ↦[(oM.access (oRect c) : View sig .tc _ _ _).set]{fullShare} f)
          ∗ (((c : Thread nD τ).loc cc0_stg1_0) ↦[(oBlk (dst 0 c)).view.set]{fullShare} f)
          ∗ (((c : Thread nD τ).loc cc0_stg1_0) ↦[(oBlk (dst 1 c)).view.set]{fullShare} f)
          ∗ (((c : Thread nD τ).loc cc0_stg1_0) ↦[(oBlk (dst 2 c)).view.set]{fullShare} f)) := by
  rw [oRect_set, oBlk_set, oBlk_set, oBlk_set]
  exact Entails.of_eq (rows4_eq c f _ _ _ _ (yc_lt _) (yc_lt _) (yc_lt _) (yc_lt _)
    (yc_dst_ne 0 c).symm (yc_dst_ne 1 c).symm (yc_dst_ne 2 c).symm
    (fun h => absurd (yc_dst_inj 0 1 c h) (by decide)) (fun h => absurd (yc_dst_inj 0 2 c h) (by decide))
    (fun h => absurd (yc_dst_inj 1 2 c h) (by decide)))

theorem yc_src_ne (k : Fin 3) (c : Dev nD) : yc (src k c) ≠ yc c := by revert k c; decide
theorem yc_src_inj (k k' : Fin 3) (c : Dev nD) (h : yc (src k c) = yc (src k' c)) : k = k' := by revert k k' c; decide

omit [FloatOps F] in
/-- The four blocks, the three lent ones come back from the peers whose transfers filled them, joined into the whole. -/
theorem out_join (c : Dev nD) (f : Buf (Elt F) ((c : Thread nD τ).loc cc0_stg1_0)) :
    iprop((((c : Thread nD τ).loc cc0_stg1_0) ↦[(oM.access (oRect c) : View sig .tc _ _ _).set]{fullShare} f)
          ∗ (((c : Thread nD τ).loc cc0_stg1_0) ↦[(oBlk (src 0 c)).view.set]{fullShare} f)
          ∗ (((c : Thread nD τ).loc cc0_stg1_0) ↦[(oBlk (src 1 c)).view.set]{fullShare} f)
          ∗ (((c : Thread nD τ).loc cc0_stg1_0) ↦[(oBlk (src 2 c)).view.set]{fullShare} f))
      ⊢ (((c : Thread nD τ).loc cc0_stg1_0) ↦{fullShare} f : sProp 𝕄) := by
  rw [oRect_set, oBlk_set, oBlk_set, oBlk_set]
  exact Entails.of_eq (rows4_eq c f _ _ _ _ (yc_lt _) (yc_lt _) (yc_lt _) (yc_lt _)
    (yc_src_ne 0 c).symm (yc_src_ne 1 c).symm (yc_src_ne 2 c).symm
    (fun h => absurd (yc_src_inj 0 1 c h) (by decide)) (fun h => absurd (yc_src_inj 0 2 c h) (by decide))
    (fun h => absurd (yc_src_inj 1 2 c h) (by decide))).symm

/-- Slot `k` of a send buffer: indices `(s, r, q)` with `s = k`. -/
def slotAt (k : ℕ) : Finset S3x512x512.Idx := Finset.univ.filter fun i => (i 0).val = k

theorem mem_slotAt (k : ℕ) (i : S3x512x512.Idx) : i ∈ slotAt k ↔ (i 0).val = k := by
  unfold slotAt; rw [Finset.mem_filter]; exact ⟨fun h => h.2, fun h => ⟨Finset.mem_univ _, h⟩⟩

/-- The unit-stride 1 × 512 × 512 rectangle at leading offset `k` is slot `k`. -/
theorem unit_slot_set (off : Fin 3 → ℕ) (k : ℕ) (h : off = ![k, 0, 0])
    (inb : ∀ a, off a + S1x512x512.size a ≤ S3x512x512.size a) :
    (Rect.unit (s := S3x512x512) off S1x512x512.size inb).set = slotAt k := by
  subst h
  ext i
  rw [Rect.mem_set_unit, mem_slotAt]
  constructor
  · intro h
    have h0 := h 0
    have e0 : (![k, 0, 0] : Fin 3 → ℕ) 0 = k := rfl
    have s0 : S1x512x512.size 0 = 1 := rfl
    rw [e0, s0] at h0
    omega
  · intro h a
    have hi1 : (i 1).val < 512 := (i 1).isLt
    have hi2 : (i 2).val < 512 := (i 2).isLt
    match a with
    | ⟨0, _⟩ =>
      show k ≤ (i 0).val ∧ (i 0).val < k + 1
      omega
    | ⟨1, _⟩ =>
      show 0 ≤ (i 1).val ∧ (i 1).val < 0 + 512
      omega
    | ⟨2, _⟩ =>
      show 0 ≤ (i 2).val ∧ (i 2).val < 0 + 512
      omega

omit [FloatOps F] in
theorem cSlot_set0 : ((cSlot 0).view.set : Finset S3x512x512.Idx) = slotAt 0 := by
  show (((View.whole cc0_scratch0 : View sig .tc _ _ _).slice _).reshape _ _).set = _
  rw [View.set_reshape, View.set_slice_whole]
  exact unit_slot_set _ 0 rfl _
omit [FloatOps F] in
theorem cSlot_set1 : ((cSlot 1).view.set : Finset S3x512x512.Idx) = slotAt 1 := by
  show (((View.whole cc0_scratch0 : View sig .tc _ _ _).slice _).reshape _ _).set = _
  rw [View.set_reshape, View.set_slice_whole]
  exact unit_slot_set _ 1 rfl _
omit [FloatOps F] in
theorem cSlot_set2 : ((cSlot 2).view.set : Finset S3x512x512.Idx) = slotAt 2 := by
  show (((View.whole cc0_scratch0 : View sig .tc _ _ _).slice _).reshape _ _).set = _
  rw [View.set_reshape, View.set_slice_whole]
  exact unit_slot_set _ 2 rfl _

theorem slotAt_disjoint {a b : ℕ} (h : a ≠ b) : Disjoint (slotAt a) (slotAt b) :=
  Finset.disjoint_left.mpr fun i ha hb => h (((mem_slotAt a i).mp ha).symm.trans ((mem_slotAt b i).mp hb))

theorem slots3_univ : (Finset.univ : Finset S3x512x512.Idx) = slotAt 0 ∪ (slotAt 1 ∪ slotAt 2) := by
  ext i
  simp only [Finset.mem_univ, Finset.mem_union, mem_slotAt, true_iff]
  have hi : (i 0).val < 3 := (i 0).isLt
  omega

omit [FloatOps F] in
/-- The send buffer cut into its three slots, and put together again. -/
theorem comm_split (c : Dev nD) (f : Buf (Elt F) ((c : Thread nD τ).loc cc0_scratch0)) :
    (((c : Thread nD τ).loc cc0_scratch0) ↦{fullShare} f : sProp 𝕄)
      ⊢ iprop((((c : Thread nD τ).loc cc0_scratch0) ↦[(cSlot 0).view.set]{fullShare} f)
          ∗ (((c : Thread nD τ).loc cc0_scratch0) ↦[(cSlot 1).view.set]{fullShare} f)
          ∗ (((c : Thread nD τ).loc cc0_scratch0) ↦[(cSlot 2).view.set]{fullShare} f)) := by
  rw [cSlot_set0, cSlot_set1, cSlot_set2]
  have h1 : Disjoint (slotAt 0) (slotAt 1 ∪ slotAt 2) :=
    Finset.disjoint_union_right.mpr ⟨slotAt_disjoint (by decide), slotAt_disjoint (by decide)⟩
  have h2 : Disjoint (slotAt 1) (slotAt 2) := slotAt_disjoint (by decide)
  rw [show (((c : Thread nD τ).loc cc0_scratch0) ↦{fullShare} f : sProp 𝕄)
      = (((c : Thread nD τ).loc cc0_scratch0) ↦[slotAt 0 ∪ (slotAt 1 ∪ slotAt 2)]{fullShare} f) from by rw [← slots3_univ]]
  rw [pt_union_eq h1, pt_union_eq h2]
omit [FloatOps F] in
theorem comm_join (c : Dev nD) (f0 f1 f2 : Buf (Elt F) ((c : Thread nD τ).loc cc0_scratch0)) :
    iprop((((c : Thread nD τ).loc cc0_scratch0) ↦[(cSlot 0).view.set]{fullShare} f0)
          ∗ (((c : Thread nD τ).loc cc0_scratch0) ↦[(cSlot 1).view.set]{fullShare} f1)
          ∗ (((c : Thread nD τ).loc cc0_scratch0) ↦[(cSlot 2).view.set]{fullShare} f2))
      ⊢ iprop(∃ f, (((c : Thread nD τ).loc cc0_scratch0) ↦{fullShare} f : sProp 𝕄)) := by
  rw [cSlot_set0, cSlot_set1, cSlot_set2]
  have h1 : Disjoint (slotAt 0) (slotAt 1 ∪ slotAt 2) :=
    Finset.disjoint_union_right.mpr ⟨slotAt_disjoint (by decide), slotAt_disjoint (by decide)⟩
  have h2 : Disjoint (slotAt 1) (slotAt 2) := slotAt_disjoint (by decide)
  refine (sep_mono_r (pointsTo_join h2)).trans ((pointsTo_join h1).trans ?_)
  rw [← slots3_univ]
  exact exists_intro (Φ := fun f => (((c : Thread nD τ).loc cc0_scratch0) ↦{fullShare} f : sProp 𝕄)) _

/-- Slot `k` of a send buffer's contents, read as a 512 × 512 block. -/
def slotRead (k : Fin 3) (f : (cc0_scratch0 : Ref sig .tc).ty.Contents (Elt F)) : S512x512.Idx → Elt F .bf16 :=
  match k with
  | 0 => (cSlot 0).view.read (Elt F) f
  | 1 => (cSlot 1).view.read (Elt F) f
  | 2 => (cSlot 2).view.read (Elt F) f

/-! ## Values -/

/-- The result at an index, from the coordinates of the element of the staged array it reads. -/
theorem outF_at (d c' : Dev nD) (i : S2048x512.Idx) (j : S512x2048.Idx)
    (hc : atY d ((i 0).val / 512) = c') (h0 : (j 0).val = (i 0).val % 512) (h1 : (j 1).val = 512 * yc d + (i 1).val) :
    outF m ρ d i = (FloatOps.truncf (F := F) .bf16 bitsLt_bf16_f32 ((xs m ρ c' : S512x2048.Idx → F .f32) j) : F .bf16) := by
  unfold outF
  rw [hc]
  refine congrArg _ (congrArg _ ?_)
  exact Shape.idx_ext₂ h0.symm h1.symm

/-- Entry `(y₀, y₁)` of the block at position `yc c` of device `d`'s result, `d` in `c`'s group: it reads entry
    `(y₀, 512 · yc d + y₁)` of `c`'s array. -/
theorem block_at (c d : Dev nD) (i : S2048x512.Idx) (j : S512x2048.Idx) (y : S512x512.Idx)
    (hd : atY d (yc c) = c)
    (hi0 : (i 0).val = 512 * yc c + (y 0).val) (hi1 : (i 1).val = (y 1).val)
    (hj0 : (j 0).val = (y 0).val) (hj1 : (j 1).val = 512 * yc d + (y 1).val) :
    outF m ρ d i = (FloatOps.truncf (F := F) .bf16 bitsLt_bf16_f32 ((xs m ρ c : S512x2048.Idx → F .f32) j) : F .bf16) := by
  have hy0 : (y 0).val < 512 := (y 0).isLt
  apply outF_at
  · rw [hi0, show (512 * yc c + (y 0).val) / 512 = yc c by omega, hd]
  · rw [hj0, hi0]; omega
  · rw [hj1, hi1]

/-- The narrowing store's payload at an index. -/
theorem pay4_at (v : Vec F S512x512 .f32) (y : S512x512.Idx) :
    (k0_pay4 v y : F .bf16) = FloatOps.truncf (F := F) .bf16 bitsLt_bf16_f32 (v y) := by
  show FloatOps.truncf (F := F) .bf16 _ (shapeCast S512x512 v shapeCasts_S512x512_S512x512 y) = _
  rw [shapeCast_self]

/-- What the device's own store leaves in its row block is what the result holds there. -/
theorem own_store_eq (c : Dev nD) (g0 : Buf (Elt F) ((c : Thread nD τ).loc cc0_stg1_0)) :
    ∀ i ∈ (oM.access (oRect c) : View sig .tc _ _ _).set,
      ((oM.access (oRect c) : View sig .tc _ _ _).write (Elt F) g0 (k0_pay4 (ldOwn m ρ c)) Finset.univ) i = outF m ρ c i := by
  intro i hi
  obtain ⟨y, rfl⟩ := View.exists_emb_of_mem_set _ hi
  rw [View.write_emb_of_mem _ _ (Finset.mem_univ y)]
  refine (cast_eq _ _).trans ?_
  rw [pay4_at]
  symm
  have e3 := off3_eq c
  have e2 := off2_eq c
  refine block_at m ρ c c _ ((Rect.unit (s := S512x2048) (k0_off2 c) S512x512.size (k0_off2_inb c)).toLoadRect.idx y) y (atY_yc c) ?_ ?_ ?_ ?_
  · show (k0_off3 c) 0 + 1 * (y 0).val = _
    rw [e3]; show 512 * yc c + 1 * (y 0).val = _; omega
  · show (k0_off3 c) 1 + 1 * (y 1).val = _
    rw [e3]; show 0 + 1 * (y 1).val = _; omega
  · show (k0_off2 c) 0 + 1 * (y 0).val = _
    rw [e2]; show 0 + 1 * (y 0).val = _; omega
  · show (k0_off2 c) 1 + 1 * (y 1).val = _
    rw [e2]; show 512 * yc c + 1 * (y 1).val = _; omega

omit [FloatOps F] in
theorem acc_set0 : ((cM.access cRect0 : View sig .tc _ _ _).set : Finset S3x512x512.Idx) = slotAt 0 := by
  show ((View.whole cc0_scratch0 : View sig .tc _ _ _).slice _).set = _
  rw [View.set_slice_whole]; exact unit_slot_set _ 0 rfl _
omit [FloatOps F] in
theorem acc_set1 : ((cM.access cRect1 : View sig .tc _ _ _).set : Finset S3x512x512.Idx) = slotAt 1 := by
  show ((View.whole cc0_scratch0 : View sig .tc _ _ _).slice _).set = _
  rw [View.set_slice_whole]; exact unit_slot_set _ 1 rfl _
omit [FloatOps F] in
theorem acc_set2 : ((cM.access cRect2 : View sig .tc _ _ _).set : Finset S3x512x512.Idx) = slotAt 2 := by
  show ((View.whole cc0_scratch0 : View sig .tc _ _ _).slice _).set = _
  rw [View.set_slice_whole]; exact unit_slot_set _ 2 rfl _

/-- A slot's payload read back as a 512 × 512 block: the narrowed load. -/
theorem pay_slot (p : Vec F S512x512 .f32) :
    shapeCast S512x512
        (shapeCast S1x512x512 (truncf .bf16 (shapeCast S512x512 p shapeCasts_S512x512_S512x512) bitsLt_bf16_f32 : FVec F S512x512 .bf16)
          shapeCasts_S512x512_S1x512x512) shapeCasts_S1x512x512_S512x512
      = (truncf .bf16 p bitsLt_bf16_f32 : FVec F S512x512 .bf16) := by
  rw [shapeCast_shapeCast, shapeCast_self]

/-- After the three stores, slot `k` of the send buffer reads as the narrowed column block for transfer `k`. -/
theorem slotRead_commAfter (c : Dev nD) (k : Fin 3) (f0 : (cc0_scratch0 : Ref sig .tc).ty.Contents (Elt F)) :
    slotRead k (commAfter m ρ c f0) = (truncf .bf16 (ld m ρ c k) bitsLt_bf16_f32 : FVec F S512x512 .bf16) := by
  have d01 : Disjoint ((cM.view.slice cRect0).set) ((cM.view.slice cRect1).setOn Finset.univ) := by
    show Disjoint (cM.access cRect0 : View sig .tc _ _ _).set (cM.access cRect1 : View sig .tc _ _ _).set
    rw [acc_set0, acc_set1]; exact slotAt_disjoint (by decide)
  have d02 : Disjoint ((cM.view.slice cRect0).set) ((cM.view.slice cRect2).setOn Finset.univ) := by
    show Disjoint (cM.access cRect0 : View sig .tc _ _ _).set (cM.access cRect2 : View sig .tc _ _ _).set
    rw [acc_set0, acc_set2]; exact slotAt_disjoint (by decide)
  have d12 : Disjoint ((cM.view.slice cRect1).set) ((cM.view.slice cRect2).setOn Finset.univ) := by
    show Disjoint (cM.access cRect1 : View sig .tc _ _ _).set (cM.access cRect2 : View sig .tc _ _ _).set
    rw [acc_set1, acc_set2]; exact slotAt_disjoint (by decide)
  match k with
  | 0 =>
    show shapeCast S512x512 ((cM.view.slice cRect0).read (Elt F) (commAfter m ρ c f0)) shapeCasts_S1x512x512_S512x512 = _
    unfold commAfter
    rw [View.read_slice_write_slice_of_disjoint cRect0 cRect2 _ _ _ d02,
      View.read_slice_write_slice_of_disjoint cRect0 cRect1 _ _ _ d01, View.read_write_univ]
    exact pay_slot _
  | 1 =>
    show shapeCast S512x512 ((cM.view.slice cRect1).read (Elt F) (commAfter m ρ c f0)) shapeCasts_S1x512x512_S512x512 = _
    unfold commAfter
    rw [View.read_slice_write_slice_of_disjoint cRect1 cRect2 _ _ _ d12, View.read_write_univ]
    exact pay_slot _
  | 2 =>
    show shapeCast S512x512 ((cM.view.slice cRect2).read (Elt F) (commAfter m ρ c f0)) shapeCasts_S1x512x512_S512x512 = _
    unfold commAfter
    rw [View.read_write_univ]
    exact pay_slot _

/-- What transfer `k` of device `c` leaves in the row block at `c`'s position of its target's result buffer is what
    that result holds there: slot `k` of `c`'s send buffer after the three stores. -/
theorem landing_eq (c : Dev nD) (k : Fin 3) (fd : Buf (Elt F) (((dst k c : Dev nD) : Thread nD τ).loc cc0_stg1_0))
    (f0 : Buf (Elt F) ((c : Thread nD τ).loc cc0_scratch0)) :
    ∀ i ∈ (oBlk c).view.set,
      ((oBlk c).view.write (Elt F) fd (slotRead k (commAfter m ρ c f0)) Finset.univ) i = outF m ρ (dst k c) i := by
  intro i hi
  obtain ⟨y, rfl⟩ := View.exists_emb_of_mem_set _ hi
  rw [View.write_emb_of_mem _ _ (Finset.mem_univ y)]
  refine (cast_eq _ _).trans ?_
  rw [slotRead_commAfter]
  show FloatOps.truncf (F := F) .bf16 bitsLt_bf16_f32 (ld m ρ c k y) = _
  symm
  have e4 := off4_eq c
  have e1 := off1_eq c k
  refine block_at m ρ c (dst k c) _
    ((Rect.unit (s := S512x2048) (k0_off1 c (BitVec.ofNat 32 (1 + k.val))) S512x512.size (k0_off1_inb c k)).toLoadRect.idx y) y
    ((atY_dst k c _).trans (atY_yc c)) ?_ ?_ ?_ ?_
  · show (k0_off4 c) 0 + 1 * (y 0).val = _
    rw [e4]; show 512 * yc c + 1 * (y 0).val = _; omega
  · show (k0_off4 c) 1 + 1 * (y 1).val = _
    rw [e4]; show 0 + 1 * (y 1).val = _; omega
  · show (k0_off1 c (BitVec.ofNat 32 (1 + k.val))) 0 + 1 * (y 0).val = _
    rw [e1]; show 0 + 1 * (y 0).val = _; omega
  · show (k0_off1 c (BitVec.ofNat 32 (1 + k.val))) 1 + 1 * (y 1).val = _
    rw [e1]; show 512 * yc (dst k c) + 1 * (y 1).val = _; omega

end Cert.KernelIdeal.A2a

end
-- ==== Proof.BodyRun.lean ====
import proofs.«900655_g7700000000000656_dist_a2a_v7x_xyz2x4x4_y_m512_n512_bf16_1_alg».proof.Proof.Levels
import proofs.«900655_g7700000000000656_dist_a2a_v7x_xyz2x4x4_y_m512_n512_bf16_1_alg».proof.Proof.Blocks
import Idealize.ShloMosaic.Lib.Exec

/-!
# One device's body, run

From what the launch deals a device — the invariants of every cell, its positions, the tokens of the nine duties
it pays, the credit for what its peers owe its cells, its staged array, its result buffer and its send buffer —
the body runs to the end: the three signals each lend a peer one row block of the result buffer; the narrowing
stores fill the send buffer and the kept row block; the barrier wait returns the peers' row blocks; the three
transfers pay the peers' receive duties with those blocks overwritten by the slots; the receive waits return the
lent row blocks filled; the send waits return the slots.
-/

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

section Body

variable (K : Dev nD × Fin 7 → ℕ)

theorem inv_at (ck : Dev nD × Fin 7) :
    (bigSep Finset.univ fun ck : Dev nD × Fin 7 => (cellInv ER (a2aRd m ρ) (K ck) (kcell ck) : sProp 𝕄)) ⊢ cellInv ER (a2aRd m ρ) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

theorem inv_bar (c' : Dev nD) :
    (bigSep Finset.univ fun ck : Dev nD × Fin 7 => (cellInv ER (a2aRd m ρ) (K ck) (kcell ck) : sProp 𝕄)) ⊢ cellInv ER (a2aRd m ρ) (K (c', 0)) (barCell c') :=
  inv_at m ρ K (c', 0)
theorem inv_snd (k : Fin 3) (c' : Dev nD) :
    (bigSep Finset.univ fun ck : Dev nD × Fin 7 => (cellInv ER (a2aRd m ρ) (K ck) (kcell ck) : sProp 𝕄)) ⊢ cellInv ER (a2aRd m ρ) (K (c', sndIx k)) (sndCell k c') := by
  have h := inv_at m ρ K (c', sndIx k); rwa [kcell_snd] at h
theorem inv_rcv (k : Fin 3) (c' : Dev nD) :
    (bigSep Finset.univ fun ck : Dev nD × Fin 7 => (cellInv ER (a2aRd m ρ) (K ck) (kcell ck) : sProp 𝕄)) ⊢ cellInv ER (a2aRd m ρ) (K (c', rcvIx k)) (rcvCell k c') := by
  have h := inv_at m ρ K (c', rcvIx k); rwa [kcell_rcv] at h
omit [FloatOps F] in
theorem reached_bar (c' : Dev nD) :
    (bigSep Finset.univ fun ck : Dev nD × Fin 7 => (reached ER (kcell ck) 0 : sProp 𝕄)) ⊢ reached ER (barCell c') 0 :=
  reached_at (c', 0)
omit [FloatOps F] in
theorem reached_snd (k : Fin 3) (c' : Dev nD) :
    (bigSep Finset.univ fun ck : Dev nD × Fin 7 => (reached ER (kcell ck) 0 : sProp 𝕄)) ⊢ reached ER (sndCell k c') 0 := by
  have h := reached_at (F := F) (c', sndIx k); rwa [kcell_snd] at h
omit [FloatOps F] in
theorem reached_rcv (k : Fin 3) (c' : Dev nD) :
    (bigSep Finset.univ fun ck : Dev nD × Fin 7 => (reached ER (kcell ck) 0 : sProp 𝕄)) ⊢ reached ER (rcvCell k c') 0 := by
  have h := reached_at (F := F) (c', rcvIx k); rwa [kcell_rcv] at h

omit [FloatOps F] in
/-- The result buffer cut in four, each lent block spelt through the view a peer's transfer writes it by. -/
theorem out_split' (c : Dev nD) (f : Buf (Elt F) ((c : Thread nD τ).loc cc0_stg1_0)) :
    (((c : Thread nD τ).loc cc0_stg1_0) ↦{fullShare} f : sProp 𝕄)
      ⊢ iprop((((c : Thread nD τ).loc cc0_stg1_0) ↦[(oM.access (oRect c) : View sig .tc _ _ _).set]{fullShare} f)
          ∗ ((oBlk (dst 0 c)).view.loc (c : Thread nD τ) ↦[(oBlk (dst 0 c)).view.set]{fullShare} f)
          ∗ ((oBlk (dst 1 c)).view.loc (c : Thread nD τ) ↦[(oBlk (dst 1 c)).view.set]{fullShare} f)
          ∗ ((oBlk (dst 2 c)).view.loc (c : Thread nD τ) ↦[(oBlk (dst 2 c)).view.set]{fullShare} f)) :=
  out_split c f

omit [FloatOps F] in
theorem xPts_eq (c : Dev nD) (f : Buf (Elt F) ((c : Thread nD τ).loc cc0_stg0_0)) :
    (xM.view.loc (c : Thread nD τ) ↦[xM.view.set]{fullShare} f : sProp 𝕄) = (((c : Thread nD τ).loc cc0_stg0_0) ↦{fullShare} f : sProp 𝕄) := by
  rw [View.set_whole]
/-- The kept row block, as a slice of the result buffer. -/
abbrev oOwn (c : Dev nD) : Memref sig .tc .vmem S512x512 .bf16 := oM.slice (oRect c) (fun _ => rfl)

/-- The duty a device pays with signal `k`, as the target's barrier cell states it: the row block at the target's
    position of the signaller's own result buffer. -/
theorem payload_bar_dst (k : Fin 3) (c : Dev nD) :
    (a2aRd m ρ).payload (barCell (dst k c)) 0 (rev k)
      = iprop(∃ f, (oBlk (dst k c)).view.loc (c : Thread nD τ) ↦[(oBlk (dst k c)).view.set]{fullShare} f) := by
  rw [payload_bar]; unfold barPay; rw [dst_rev]
/-- The duty its transfer `k` pays on the target's receive cell: the row block at its own position, holding what the
    target's result holds there. -/
theorem payload_rcv_dst (k : Fin 3) (c : Dev nD) (d : Fin 3) :
    (a2aRd m ρ).payload (rcvCell k (dst k c)) 0 d
      = ((oBlk c).view.loc ((dst k c : Dev nD) : Thread nD τ) ↦[(oBlk c).view.set]{fullShare} outF m ρ (dst k c) : sProp 𝕄) := by
  rw [payload_rcv]; unfold rcvPay; rw [src_dst]

/-- Transfer `k`, addressed to `n = dst k c`: slot `k` goes out, the target's row block at `c`'s position is overwritten
    with it, and what lands is what the target's result holds there. -/
theorem wp_send_a2a (k : Fin 3) (c n : Dev nD) (hn : n = dst k c)
    {hsc : ((oBlk c : Memref sig (Dev.tc n : Thread nD τ).2.kind .vmem S512x512 .bf16)).view.ref.isScScratch = false}
    {hsrc : (cSlot k).view.WordExact} {hdst : (oBlk c).view.WordExact}
    {hsem : DmaTarget.Typed .vmem (.dma (rcvS k).sem) (.remote (Dev.tc n : Thread nD τ) (oBlk c) (.dma (sndS k).sem) hsc)}
    {α : Type} {Q : α → sProp 𝕄} {kk : PUnit → Prog (TpuEff nD τ sig (Elt F) Λ₀ .tc) α}
    (fs : Buf (Elt F) ((cSlot k).view.loc (c : Thread nD τ))) (fn : Buf (Elt F) ((oBlk c).view.loc ((dst k c : Dev nD) : Thread nD τ)))
    (O : CellTallies nD τ sig Unit) (W : Waits sig Unit)
    (hval : ∀ i ∈ (oBlk c).view.set, ((oBlk c).view.write (Elt F) fn ((cSlot k).view.read (Elt F) fs) Finset.univ) i = outF m ρ (dst k c) i) :
    iprop(cellInv ER (a2aRd m ρ) (K (c, sndIx k)) (sndCell k c) ∗ cellInv ER (a2aRd m ρ) (K (dst k c, rcvIx k)) (rcvCell k (dst k c))
        ∗ ((cSlot k).view.loc (c : Thread nD τ) ↦[(cSlot k).view.set]{fullShare} fs)
        ∗ ((oBlk c).view.loc ((dst k c : Dev nD) : Thread nD τ) ↦[(oBlk c).view.set]{fullShare} fn)
        ∗ owes (c : Thread nD τ) (O + tallyAt (rcvCell k (dst k c)) () N) W
        ∗ dutyTok ER (sndCell k c) 0 0 ∗ reached ER (sndCell k c) 0
        ∗ dutyTok ER (rcvCell k (dst k c)) 0 0 ∗ reached ER (rcvCell k (dst k c)) 0)
      ⊢ iprop(((cred (tallyAt (sndCell k c) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (cSlot k) (.remote (Dev.tc n : Thread nD τ) (oBlk c) (.dma (sndS k).sem) hsc) (.dma (rcvS k).sem) hsrc hdst hsem) kk) Q) := by
  subst hn
  exact Rounds.wp_send_pointsTo 𝒱₀ ER (a2aRd m ρ) (c : Thread nD τ) none (κ₁ := K (c, sndIx k)) (κ₂ := K (dst k c, rcvIx k))
    (r₁ := 0) (r₂ := 0) (d₁ := 0) (d₂ := 0) (fd := fn)
    (by rw [duties_snd]; exact Finset.mem_singleton_self _) (by rw [duties_rcv]; exact Finset.mem_singleton_self _)
    () () N rfl (amount_snd m ρ c k 0) (amount_rcv m ρ (dst k c) k 0) O rfl (W := W)
    (by rw [payload_snd]; unfold sndPay; iintro H; iexists fs; iexact H)
    (by rw [payload_rcv_dst]; exact Entails.of_eq (pointsTo_congr hval))

omit [FloatOps F] in
/-- The send buffer cut into its three slots, each spelt through the view its transfer reads it by. -/
theorem comm_split' (c : Dev nD) (f : Buf (Elt F) ((c : Thread nD τ).loc cc0_scratch0)) :
    (cM.view.loc (c : Thread nD τ) ↦[cM.view.set]{fullShare} f : sProp 𝕄)
      ⊢ iprop(((cSlot 0).view.loc (c : Thread nD τ) ↦[(cSlot 0).view.set]{fullShare} f)
          ∗ ((cSlot 1).view.loc (c : Thread nD τ) ↦[(cSlot 1).view.set]{fullShare} f)
          ∗ ((cSlot 2).view.loc (c : Thread nD τ) ↦[(cSlot 2).view.set]{fullShare} f)) := by
  rw [View.set_whole]; exact comm_split c f

/-- The whole of a send cell's round: its slot. -/
theorem pay_snd (c : Dev nD) (k : Fin 3) :
    bigSep ((a2aRd (F := F) m ρ).duties (sndCell k c) 0) (fun d => (a2aRd (F := F) m ρ).payload (sndCell k c) 0 d) = sndPay k c := by
  rw [duties_snd, bigSep_singleton, payload_snd]

attribute [local sl_rounds] duties_bar duties_snd duties_rcv amount_bar amount_snd amount_rcv expect_bar expect_snd expect_rcv
  payload_bar_dst payload_rcv_dst payload_snd
attribute [local irreducible] k0_off1 k0_off2 k0_off3 k0_off4 k0_off5 k0_dev1 k0_dev2 k0_dev3 k0_dev4 k0_dev5 k0_dev6 dst src sh yc rev
attribute [local sl_canon] dev1_eq dev2_eq dev3_eq dev4_eq dev5_eq dev6_eq

set_option maxHeartbeats 1600000 in
/-- The body, symbolically executed from `bodyPre` to `bodyPost`. -/
theorem sound_body' (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  unfold bodyPre ghost records positions payToks creds
  iintro ⟨⟨⟨⟨⟨#HI, #HR⟩, ⟨HatB, ⟨HatS0, HatS1, HatS2⟩, ⟨HatV0, HatV1, HatV2⟩⟩, Ht0, Ht1, Ht2⟩,
    ⟨HcB, HcV0, HcV1, HcV2⟩, #Hlev, ⟨%f0, Hscr⟩⟩, Ho, ⟨%d0, %g0, %hg0, Hx⟩, ⟨%d1, %g1, %hg1, Hout⟩⟩, Hk⟩
  have hx : g0 = xs m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ owedR
  ihave #HIB0 := (inv_bar m ρ K (dst 0 c)) $$ HI
  ihave #HIB1 := (inv_bar m ρ K (dst 1 c)) $$ HI
  ihave #HIB2 := (inv_bar m ρ K (dst 2 c)) $$ HI
  ihave #HRB0 := (reached_bar (F := F) (dst 0 c)) $$ HR
  ihave #HRB1 := (reached_bar (F := F) (dst 1 c)) $$ HR
  ihave #HRB2 := (reached_bar (F := F) (dst 2 c)) $$ HR
  ihave Hout4 := (out_split (F := F) c g1) $$ Hout
  icases Hout4 with ⟨Hown, Hb0, Hb1, Hb2⟩
  ihave Hx := (Entails.of_eq (xPts_eq (F := F) c _).symm) $$ Hx
  unfold cPts
  ihave Hown : ((oOwn c).view.loc (c : Thread nD τ) ↦[(oOwn c).view.set]{fullShare} g1 : sProp 𝕄) $$ [Hown]
  · iexact Hown
  sl_unfold [cc0_body]
  set_option sl_exec.maxSteps 3 in sl_exec
  -- signal 0: lends the peer at transfer 0's target the row block at that peer's position
  icases Ht0 with ⟨HtB0, HtVS0⟩
  iapply (Rounds.wp_signal 𝒱₀ ER (a2aRd m ρ) (c : Thread nD τ) none (dst := ((dst 0 c : Dev nD) : Thread nD τ)) (κ := K (dst 0 c, 0))
      (d := rev 0) (by rw [duties_bar]; exact Finset.mem_univ _) ((amount_bar m ρ (dst 0 c) (rev 0)).trans (by decide)) ()
      (tallyAt (rcvCell 2 (dst 2 c)) () N + tallyAt (rcvCell 1 (dst 1 c)) () N + tallyAt (rcvCell 0 (dst 0 c)) () N +
          tallyAt (barCell (dst 2 c)) () 1 + tallyAt (barCell (dst 1 c)) () 1) rfl)
    $$ [HO HtB0 Hb0]
  · isplitr; · iexact HIB0
    isplitl [HO]; · iexact HO
    isplitl [HtB0]; · iexact HtB0
    isplitl [Hb0]; · rw [payload_bar_dst]; iexists g1; iexact Hb0
    iexact HRB0
  iintro HO
  sl_exec
  -- signal 1
  icases Ht1 with ⟨HtB1, HtVS1⟩
  iapply (Rounds.wp_signal 𝒱₀ ER (a2aRd m ρ) (c : Thread nD τ) none (dst := ((dst 1 c : Dev nD) : Thread nD τ)) (κ := K (dst 1 c, 0))
      (d := rev 1) (by rw [duties_bar]; exact Finset.mem_univ _) ((amount_bar m ρ (dst 1 c) (rev 1)).trans (by decide)) ()
      (tallyAt (rcvCell 2 (dst 2 c)) () N + tallyAt (rcvCell 1 (dst 1 c)) () N + tallyAt (rcvCell 0 (dst 0 c)) () N +
          tallyAt (barCell (dst 2 c)) () 1) rfl)
    $$ [HO HtB1 Hb1]
  · isplitr; · iexact HIB1
    isplitl [HO]; · iexact HO
    isplitl [HtB1]; · iexact HtB1
    isplitl [Hb1]; · rw [payload_bar_dst]; iexists g1; iexact Hb1
    iexact HRB1
  iintro HO
  sl_exec
  -- signal 2
  icases Ht2 with ⟨HtB2, HtVS2⟩
  iapply (Rounds.wp_signal 𝒱₀ ER (a2aRd m ρ) (c : Thread nD τ) none (dst := ((dst 2 c : Dev nD) : Thread nD τ)) (κ := K (dst 2 c, 0))
      (d := rev 2) (by rw [duties_bar]; exact Finset.mem_univ _) ((amount_bar m ρ (dst 2 c) (rev 2)).trans (by decide)) ()
      (tallyAt (rcvCell 2 (dst 2 c)) () N + tallyAt (rcvCell 1 (dst 1 c)) () N + tallyAt (rcvCell 0 (dst 0 c)) () N) rfl)
    $$ [HO HtB2 Hb2]
  · isplitr; · iexact HIB2
    isplitl [HO]; · iexact HO
    isplitl [HtB2]; · iexact HtB2
    isplitl [Hb2]; · rw [payload_bar_dst]; iexists g1; iexact Hb2
    iexact HRB2
  iintro HO
  sl_exec
  -- the wait for 3 on its own barrier cell, owing the receive credit: the peers' row blocks come with it
  ihave #HIBc := (inv_bar m ρ K c) $$ HI
  iapply (Rounds.wp_wait_rest_token 𝒱₀ ER (a2aRd m ρ) (c : Thread nD τ) none (κ := K (c, 0))
      (wpE_semWait_eq 𝒱₀ (c : Thread nD τ) none Set.univ) (Set.mem_univ _) () (O := owedR c) (W := W) (R := 0) (m := 0) (T := ∅)
      (by rw [expect_bar]; decide)) $$ [HcB HO HatB]
  · isplitr; · iexact HIBc
    isplitl [HcB]; · iexact HcB
    isplitl [HO]; · iexact HO
    isplitr; · iapply (mayWait_bar (F := F) c); iexact Hlev
    iexact HatB
  iintro ⟨HO, HatB, -, Hpay⟩
  ihave Hp := (Entails.of_eq (rest_bar m ρ c)) $$ Hpay
  unfold barPay
  icases Hp with ⟨⟨%fn0, Hn0⟩, ⟨%fn1, Hn1⟩, ⟨%fn2, Hn2⟩⟩
  sl_exec
  -- the send buffer after the three stores, cut into its slots
  ihave Hscr : (cM.view.loc (c : Thread nD τ) ↦[cM.view.set]{fullShare} commAfter m ρ c f0 : sProp 𝕄) $$ [Hscr]
  · iexact Hscr
  ihave Hsl := (comm_split' (F := F) c (commAfter m ρ c f0)) $$ Hscr
  icases Hsl with ⟨Hs0, Hs1, Hs2⟩
  unfold owedR
  -- transfer 0
  ihave #HIS0 := (inv_snd m ρ K 0 c) $$ HI
  ihave #HIV0 := (inv_rcv m ρ K 0 (dst 0 c)) $$ HI
  ihave #HRS0 := (reached_snd (F := F) 0 c) $$ HR
  ihave #HRV0 := (reached_rcv (F := F) 0 (dst 0 c)) $$ HR
  icases HtVS0 with ⟨HtV0, HtS0⟩
  iapply (wp_send_a2a m ρ K 0 c _ (dev4_eq c) (commAfter m ρ c f0) fn0
      (tallyAt (rcvCell 2 (dst 2 c)) () N + tallyAt (rcvCell 1 (dst 1 c)) () N) _ (landing_eq m ρ c 0 fn0 f0)) $$ [Hs0 Hn0 HO HtS0 HtV0]
  · isplitr; · iexact HIS0
    isplitr; · iexact HIV0
    isplitl [Hs0]; · iexact Hs0
    isplitl [Hn0]; · iexact Hn0
    isplitl [HO]; · iexact HO
    isplitl [HtS0]; · iexact HtS0
    isplitr; · iexact HRS0
    isplitl [HtV0]; · iexact HtV0
    iexact HRV0
  iintro ⟨HcS0, HO⟩
  sl_exec
  -- transfer 1
  ihave #HIS1 := (inv_snd m ρ K 1 c) $$ HI
  ihave #HIV1 := (inv_rcv m ρ K 1 (dst 1 c)) $$ HI
  ihave #HRS1 := (reached_snd (F := F) 1 c) $$ HR
  ihave #HRV1 := (reached_rcv (F := F) 1 (dst 1 c)) $$ HR
  icases HtVS1 with ⟨HtV1, HtS1⟩
  iapply (wp_send_a2a m ρ K 1 c _ (dev5_eq c) (commAfter m ρ c f0) fn1
      (tallyAt (rcvCell 2 (dst 2 c)) () N) _ (landing_eq m ρ c 1 fn1 f0)) $$ [Hs1 Hn1 HO HtS1 HtV1]
  · isplitr; · iexact HIS1
    isplitr; · iexact HIV1
    isplitl [Hs1]; · iexact Hs1
    isplitl [Hn1]; · iexact Hn1
    isplitl [HO]; · iexact HO
    isplitl [HtS1]; · iexact HtS1
    isplitr; · iexact HRS1
    isplitl [HtV1]; · iexact HtV1
    iexact HRV1
  iintro ⟨HcS1, HO⟩
  sl_exec
  rw [show tallyAt (rcvCell 2 (dst 2 c)) () N = (0 : CellTallies nD τ sig Unit) + tallyAt (rcvCell 2 (dst 2 c)) () N from (zero_add _).symm]
  -- transfer 2
  ihave #HIS2 := (inv_snd m ρ K 2 c) $$ HI
  ihave #HIV2 := (inv_rcv m ρ K 2 (dst 2 c)) $$ HI
  ihave #HRS2 := (reached_snd (F := F) 2 c) $$ HR
  ihave #HRV2 := (reached_rcv (F := F) 2 (dst 2 c)) $$ HR
  icases HtVS2 with ⟨HtV2, HtS2⟩
  iapply (wp_send_a2a m ρ K 2 c _ (dev6_eq c) (commAfter m ρ c f0) fn2
      0 _ (landing_eq m ρ c 2 fn2 f0)) $$ [Hs2 Hn2 HO HtS2 HtV2]
  · isplitr; · iexact HIS2
    isplitr; · iexact HIV2
    isplitl [Hs2]; · iexact Hs2
    isplitl [Hn2]; · iexact Hn2
    isplitl [HO]; · iexact HO
    isplitl [HtS2]; · iexact HtS2
    isplitr; · iexact HRS2
    isplitl [HtV2]; · iexact HtV2
    iexact HRV2
  iintro ⟨HcS2, HO⟩
  sl_exec
  -- the wait on receive cell 0: the row block lent to the device 1 places before comes back filled
  ihave #HIVc0 := (inv_rcv m ρ K 0 c) $$ HI
  iapply (Rounds.wp_wait_rest_token 𝒱₀ ER (a2aRd m ρ) (c : Thread nD τ) none (κ := K (c, rcvIx 0))
      (wpE_waitDma2_eq 𝒱₀ (c : Thread nD τ) none Set.univ) (Set.mem_univ _) () (O := 0) (R := 0) (m := 0) (T := ∅)
      (by rw [Nat.zero_add]; exact (expect_rcv m ρ c 0).symm)) $$ [HcV0 HO HatV0]
  · isplitr; · iexact HIVc0
    isplitl [HcV0]; · iexact HcV0
    isplitl [HO]; · iexact HO
    isplitr; · rw [MayWait_zero]; iempintro
    iexact HatV0
  iintro ⟨HO, HatV0, -, Hpay⟩
  ihave Hr0 := (Entails.of_eq (rest_rcv m ρ c 0)) $$ Hpay
  sl_exec
  -- the wait on receive cell 1: the row block lent to the device 2 places before comes back filled
  ihave #HIVc1 := (inv_rcv m ρ K 1 c) $$ HI
  iapply (Rounds.wp_wait_rest_token 𝒱₀ ER (a2aRd m ρ) (c : Thread nD τ) none (κ := K (c, rcvIx 1))
      (wpE_waitDma2_eq 𝒱₀ (c : Thread nD τ) none Set.univ) (Set.mem_univ _) () (O := 0) (R := 0) (m := 0) (T := ∅)
      (by rw [Nat.zero_add]; exact (expect_rcv m ρ c 1).symm)) $$ [HcV1 HO HatV1]
  · isplitr; · iexact HIVc1
    isplitl [HcV1]; · iexact HcV1
    isplitl [HO]; · iexact HO
    isplitr; · rw [MayWait_zero]; iempintro
    iexact HatV1
  iintro ⟨HO, HatV1, -, Hpay⟩
  ihave Hr1 := (Entails.of_eq (rest_rcv m ρ c 1)) $$ Hpay
  sl_exec
  -- the wait on receive cell 2: the row block lent to the device 3 places before comes back filled
  ihave #HIVc2 := (inv_rcv m ρ K 2 c) $$ HI
  iapply (Rounds.wp_wait_rest_token 𝒱₀ ER (a2aRd m ρ) (c : Thread nD τ) none (κ := K (c, rcvIx 2))
      (wpE_waitDma2_eq 𝒱₀ (c : Thread nD τ) none Set.univ) (Set.mem_univ _) () (O := 0) (R := 0) (m := 0) (T := ∅)
      (by rw [Nat.zero_add]; exact (expect_rcv m ρ c 2).symm)) $$ [HcV2 HO HatV2]
  · isplitr; · iexact HIVc2
    isplitl [HcV2]; · iexact HcV2
    isplitl [HO]; · iexact HO
    isplitr; · rw [MayWait_zero]; iempintro
    iexact HatV2
  iintro ⟨HO, HatV2, -, Hpay⟩
  ihave Hr2 := (Entails.of_eq (rest_rcv m ρ c 2)) $$ Hpay
  sl_exec
  -- the six own cells close: their counters at zero are the device's again
  imod (Rounds.cell_close ER (a2aRd m ρ) (Set.mem_univ (K (c, sndIx 0))) (fun h => h) (R := 1) (duties_later m ρ (sndCell 0 c))) $$ [HatS0] with HzS0
  · isplitr; · iexact HIS0
    iexact HatS0
  imod (Rounds.cell_close ER (a2aRd m ρ) (Set.mem_univ (K (c, sndIx 1))) (fun h => h) (R := 1) (duties_later m ρ (sndCell 1 c))) $$ [HatS1] with HzS1
  · isplitr; · iexact HIS1
    iexact HatS1
  imod (Rounds.cell_close ER (a2aRd m ρ) (Set.mem_univ (K (c, sndIx 2))) (fun h => h) (R := 1) (duties_later m ρ (sndCell 2 c))) $$ [HatS2] with HzS2
  · isplitr; · iexact HIS2
    iexact HatS2
  imod (Rounds.cell_close ER (a2aRd m ρ) (Set.mem_univ (K (c, rcvIx 0))) (fun h => h) (R := 0 + 1) (duties_later m ρ (rcvCell 0 c))) $$ [HatV0] with HzV0
  · isplitr; · iexact HIVc0
    iexact HatV0
  imod (Rounds.cell_close ER (a2aRd m ρ) (Set.mem_univ (K (c, rcvIx 1))) (fun h => h) (R := 0 + 1) (duties_later m ρ (rcvCell 1 c))) $$ [HatV1] with HzV1
  · isplitr; · iexact HIVc1
    iexact HatV1
  imod (Rounds.cell_close ER (a2aRd m ρ) (Set.mem_univ (K (c, rcvIx 2))) (fun h => h) (R := 0 + 1) (duties_later m ρ (rcvCell 2 c))) $$ [HatV2] with HzV2
  · isplitr; · iexact HIVc2
    iexact HatV2
  rw [wp_ret]; imodintro
  iapply Hk
  unfold bodyPost Φ₁ ownZero Dat.owesAt Pipeline.owesWithin
  rw [show (dats m ρ 0 c).owed t₀.succ = 0 from rfl]
  -- the send buffer's three slots back together
  ihave Hq0 := (Entails.of_eq (pay_snd m ρ c 0)) $$ HatS0_pay1
  ihave Hq1 := (Entails.of_eq (pay_snd m ρ c 1)) $$ HatS1_pay1
  ihave Hq2 := (Entails.of_eq (pay_snd m ρ c 2)) $$ HatS2_pay1
  unfold sndPay
  icases Hq0 with ⟨%q0, Hq0⟩
  icases Hq1 with ⟨%q1, Hq1⟩
  icases Hq2 with ⟨%q2, Hq2⟩
  ihave Hc := (comm_join (F := F) c q0 q1 q2) $$ [Hq0 Hq1 Hq2]
  · isplitl [Hq0]; · iexact Hq0
    isplitl [Hq1]; · iexact Hq1
    iexact Hq2
  icases Hc with ⟨%fc, Hc⟩
  -- the result buffer's four row blocks back together: the kept one as stored, the lent ones as the peers' transfers filled them
  ihave Hown : (((c : Thread nD τ).loc cc0_stg1_0) ↦[(oM.access (oRect c) : View sig .tc _ _ _).set]{fullShare}
      ((oM.access (oRect c) : View sig .tc _ _ _).write (Elt F) g1 (k0_pay4 (ldOwn m ρ c)) Finset.univ) : sProp 𝕄) $$ [Hown]
  · iexact Hown
  ihave Hown := (Entails.of_eq (pointsTo_congr (own_store_eq m ρ c g1))) $$ Hown
  unfold rcvPay
  ihave Hout := (out_join (F := F) c (outF m ρ c)) $$ [Hown Hr0 Hr1 Hr2]
  · isplitl [Hown]; · iexact Hown
    isplitl [Hr0]; · iexact Hr0
    isplitl [Hr1]; · iexact Hr1
    iexact Hr2
  ihave Hx := (Entails.of_eq (xPts_eq (F := F) c _)) $$ Hx
  isplitl [Hc HzS0 HzS1 HzS2 HzV0 HzV1 HzV2]
  · isplitl [Hc]; · iexists fc; rw [cPts_eq]; iexact Hc
    isplitl [HzS0]; · iexact HzS0
    isplitl [HzS1]; · iexact HzS1
    isplitl [HzS2]; · iexact HzS2
    isplitl [HzV0]; · iexact HzV0
    isplitl [HzV1]; · iexact HzV1
    iexact HzV2
  isplitl [HO]
  · iexists _
    isplitr
    rotate_left
    · iexact HO
    · ipureintro; exact fun _ _ => Or.inl trivial
  isplitl [Hx]
  · iexists _; isplitr; · (ipureintro; rfl)
    iexact Hx
  iexists _; isplitr; · (ipureintro; rfl)
  iexact Hout

/-- info: 'Cert.KernelIdeal.A2a.sound_body'' depends on axioms: [propext, Classical.choice, Quot.sound] -/
#guard_msgs in #print axioms sound_body'

end Body

end Cert.KernelIdeal.A2a

end
-- ==== Proof.Body.lean ====
import proofs.«900655_g7700000000000656_dist_a2a_v7x_xyz2x4x4_y_m512_n512_bf16_1_alg».proof.Proof.Levels
import proofs.«900655_g7700000000000656_dist_a2a_v7x_xyz2x4x4_y_m512_n512_bf16_1_alg».proof.Proof.Blocks
import proofs.«900655_g7700000000000656_dist_a2a_v7x_xyz2x4x4_y_m512_n512_bf16_1_alg».proof.Proof.BodyRun
import Idealize.ShloMosaic.Lib.Exec

/-!
# One device's body

From what the launch deals a device — the invariants of every cell, its positions, the tokens of the nine duties
it pays, the credit for what its peers owe its cells, its staged array, its result buffer and its send buffer —
the body runs to the end: the three signals each lend a peer one row block of the result buffer; the narrowing
stores fill the send buffer and the kept row block; the barrier wait returns the peers' row blocks; the three
transfers pay the peers' receive duties with those blocks overwritten by the slots; the receive waits return the
lent row blocks filled; the send waits return the slots.
-/

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 7 → ℕ)

/-- The body run, as the obligation below takes it. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt :=
  sound_body' m ρ K c Kt

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

end Body

end Cert.KernelIdeal.A2a

end
-- ==== Proof.Launch.lean ====
import proofs.«900655_g7700000000000656_dist_a2a_v7x_xyz2x4x4_y_m512_n512_bf16_1_alg».proof.Proof.Body

/-!
# The launch

From the launch element to every device's start. The round states, positions and duty tokens of a device's seven
cells are minted per device; every cell's invariant is allocated in one step for all devices, since a barrier cell
is shared by the four devices of a group; the duty tokens are then dealt around each group — a device pays the
barrier duty and the receive duty of each of its three peers and keeps its own send duties —; and the credit a
device is dealt at launch is what its three peers owe its barrier cell and its three receive cells.
-/

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores, the cells, the tokens -/

theorem ownSemFacts : Pipeline.OwnSemFacts cfg0.spec osem := by decide

theorem share_eq (c : Dev nD) (w : Fin cfg0.W) : (dats m ρ 0 c).share w = fullShare := by unfold Dat.share; split <;> rfl

theorem csem_inj : ∀ k k' : Fin 7, (csem k : SemLoc sig) = csem k' → k = k' := by decide

theorem kcell_injective : Function.Injective (kcell : Dev nD × Fin 7 → GSem nD τ sig) := by
  rintro ⟨c, k⟩ ⟨c', k'⟩ h
  have h1 : c = c' := congrArg (fun g : GSem nD τ sig => g.1.1) h
  subst h1
  rw [csem_inj k k' (congrArg Prod.snd h)]

/-- The seven cells of every device. -/
def a2aCells : Finset (GSem nD τ sig) := Finset.univ.map ⟨kcell, kcell_injective⟩

/-- A device's own cells' duties, nine of them: the three of its barrier cell, the one of each send cell, the one of
    each receive cell. -/
abbrev tokSem (ik : Fin 3 × Fin 3) : SemLoc sig × Fin 3 := match ik.1 with
  | 0 => (.reg barS, ik.2) | 1 => (.dma (sndS ik.2).sem, 0) | 2 => (.dma (rcvS ik.2).sem, 0)
theorem tokSem_inj : ∀ a b : Fin 3 × Fin 3, tokSem a = tokSem b → a = b := by decide
abbrev tokOf (x : Dev nD × Fin 3 × Fin 3) : GSem nD τ sig × ℕ × Fin 3 := (((x.1 : Thread nD τ), (tokSem x.2).1), 0, (tokSem x.2).2)
theorem tokOf_injective : Function.Injective (tokOf : Dev nD × Fin 3 × Fin 3 → GSem nD τ sig × ℕ × Fin 3) := by
  rintro ⟨c, a⟩ ⟨c', b⟩ h
  have h1 : c = c' := congrArg (fun x : GSem nD τ sig × ℕ × Fin 3 => x.1.1.1) h
  subst h1
  have h2 : tokSem a = tokSem b :=
    Prod.ext (congrArg (fun x : GSem nD τ sig × ℕ × Fin 3 => x.1.2) h) (congrArg (fun x : GSem nD τ sig × ℕ × Fin 3 => x.2.2) h)
  rw [tokSem_inj a b h2]
def a2aToks : Finset (GSem nD τ sig × ℕ × Fin 3) := Finset.univ.map ⟨tokOf, tokOf_injective⟩

def u₀ : UU :=
  (initOf (Pipeline.cells cfgs cellOf_inj) (Pipeline.launchToks cfgs cellOf_inj), initOf a2aCells a2aToks)

/-- The duty tokens of device `c`'s own cells. -/
def toks (c : Dev nD) : sProp 𝕄 :=
  iprop((bigSep Finset.univ fun d : Fin 3 => dutyTok ER (barCell c) 0 d)
    ∗ (bigSep Finset.univ fun k : Fin 3 => dutyTok ER (sndCell k c) 0 0)
    ∗ (bigSep Finset.univ fun k : Fin 3 => dutyTok ER (rcvCell k c) 0 0))

/-- What the launch element deals device `c`. -/
def G (c : Dev nD) : sProp 𝕄 :=
  iprop((bigSep Finset.univ fun k : Fin 7 => roundState ER (a2aRd m ρ) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem fund_a2a : BI.own (ER (initOf a2aCells a2aToks)) ⊢ (|==> bigSep Finset.univ (G m ρ) : sProp 𝕄) := by
  have hX (Φ : GSem nD τ sig → sProp 𝕄) : bigSep a2aCells Φ = bigSep Finset.univ fun c : Dev nD => bigSep Finset.univ fun k : Fin 7 => Φ (kcell (c, k)) := by
    unfold a2aCells; rw [bigSep_map, bigSep_univ_prod]; rfl
  have hT : bigSep a2aToks (fun x => (dutyTok ER x.1 x.2.1 x.2.2 : sProp 𝕄)) = bigSep Finset.univ fun c : Dev nD => toks c := by
    unfold a2aToks; rw [bigSep_map, bigSep_univ_prod]
    exact bigSep_congr fun c _ => by unfold toks; rw [bigSep_univ_prod, bigSep_fin3]; rfl
  iintro HX
  imod (Rounds.fund ER (a2aRd m ρ) a2aCells a2aToks) $$ HX with ⟨Hst, Hr, Hat, Htok⟩
  imodintro
  ihave Hst' := (Entails.of_eq (hX fun g => roundState ER (a2aRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The three send and the three receive semaphores are the kernel's own six; -/
theorem ownSems0_eq (c : Dev nD) : (Pipeline.ownSems0 (Ix := Unit) (Name := ℕ) (U := UU) (Lvl := ℕ) (Val := Elt F) (τ := τ) osem c : sProp 𝕄)
    = ownZero c := by
  rw [Pipeline.ownSems0_eq_of_list c osem [0, 1, 2, 3, 4, 5] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  unfold ownZero
  iintro ⟨⟨S0, S1, S2, R0, R1, R2⟩, HB⟩
  isplitl [HB]; · iexact HB
  isplitl [S0]; · iexact S0
  isplitl [S1]; · iexact S1
  isplitl [S2]; · iexact S2
  isplitl [R0]; · iexact R0
  isplitl [R1]; · iexact R1
  iexact R2

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (a2aRd m ρ) κ (kcell (c, k))))
          ∗ (bigSep Finset.univ fun k : Fin 7 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (a2aRd m ρ) (kcell (c, k)) 0)
      ⊢ (|={Set.univ}=> bigSep Finset.univ fun k => iprop(∃ κ : ℕ, cellInv ER (a2aRd m ρ) κ (kcell (c, k))) : sProp 𝕄) from by
        rw [← bigSep_sep']
        exact (bigSep_mono fun k _ => (Rounds.body_intro ER (a2aRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around each group -/

/-- What stays with device `c`: its positions and the tokens of the duties it pays. -/
def linear (c : Dev nD) : sProp 𝕄 := iprop(positions c ∗ payToks c)

theorem ghost_intro (K : Dev nD × Fin 7 → ℕ) (c : Dev nD) : iprop(records m ρ K ∗ linear c) ⊢ G' m ρ c := by
  unfold linear G' ghost
  iintro ⟨#HR, HP⟩
  iexists K
  isplitr; · iexact HR
  iexact HP

theorem positions_intro (c : Dev nD) : (bigSep Finset.univ fun k : Fin 7 => (atPos ER (kcell (c, k)) 0 ∅ 0 : sProp 𝕄)) ⊢ positions c := by
  rw [bigSep_fin7]; unfold positions
  iintro ⟨H0, H1, H2, H3, H4, H5, H6⟩
  isplitl [H0]; · iexact H0
  isplitl [H1 H2 H3]
  · isplitl [H1]; · iexact H1
    isplitl [H2]; · iexact H2
    iexact H3
  isplitl [H4]; · iexact H4
  isplitl [H5]; · iexact H5
  iexact H6

/-- Transfer `k` as a permutation of the devices: each to its target. -/
def dstE (k : Fin 3) : Dev nD ≃ Dev nD := ⟨dst k, src k, src_dst k, dst_src k⟩

/-- Barrier duty `rev k` of every device, listed by the device that pays it: the one whose transfer `k` reaches it. -/
theorem tok_bar (k : Fin 3) : (bigSep Finset.univ fun c : Dev nD => (dutyTok ER (barCell (dst k c)) 0 (rev k) : sProp 𝕄))
    = bigSep Finset.univ fun c : Dev nD => dutyTok ER (barCell c) 0 (rev k) :=
  (bigSep_univ_equiv (dstE k) (fun c' : Dev nD => (dutyTok ER (barCell c') 0 (rev k) : sProp 𝕄))).symm
/-- The duty of receive cell `k` of every device, listed by the device that pays it. -/
theorem tok_rcv (k : Fin 3) : (bigSep Finset.univ fun c : Dev nD => (dutyTok ER (rcvCell k (dst k c)) 0 0 : sProp 𝕄))
    = bigSep Finset.univ fun c : Dev nD => dutyTok ER (rcvCell k c) 0 0 :=
  (bigSep_univ_equiv (dstE k) (fun c' : Dev nD => (dutyTok ER (rcvCell k c') 0 0 : sProp 𝕄))).symm

/-- The own tokens dealt around the groups: barrier duty `rev k` and receive duty `k` of a device go to the device whose
    transfer `k` reaches it; the send duties stay. -/
theorem toks_around : (bigSep Finset.univ fun c : Dev nD => (toks c : sProp 𝕄)) ⊢ bigSep Finset.univ fun c : Dev nD => payToks c := by
  unfold toks payToks
  simp only [bigSep_fin3, bigSep_sep']
  rw [tok_bar 0, tok_bar 1, tok_bar 2, tok_rcv 0, tok_rcv 1, tok_rcv 2]
  iintro ⟨⟨B0, B1, B2⟩, ⟨S0, S1, S2⟩, R0, R1, R2⟩
  isplitl [B2 R0 S0]
  · isplitl [B2]; · iexact B2
    isplitl [R0] <;> iassumption
  isplitl [B1 R1 S1]
  · isplitl [B1]; · iexact B1
    isplitl [R1] <;> iassumption
  isplitl [B0]; · iexact B0
  isplitl [R2] <;> iassumption

theorem regroup :
    (bigSep Finset.univ fun c : Dev nD => iprop((bigSep Finset.univ fun k => iprop(∃ κ : ℕ, cellInv ER (a2aRd m ρ) κ (kcell (c, k))))
          ∗ (bigSep Finset.univ fun k : Fin 7 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (a2aRd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (a2aRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from sep_mono_left (positions_intro c)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem O₀_eq : (O₀ : Dev nD → CellTallies nD τ sig Unit) = fun d =>
    tallyAt (rcvCell 2 (dst 2 d)) () N + tallyAt (rcvCell 1 (dst 1 d)) () N + tallyAt (rcvCell 0 (dst 0 d)) () N
      + tallyAt (barCell (dst 2 d)) () 1 + tallyAt (barCell (dst 1 d)) () 1 + tallyAt (barCell (dst 0 d)) () 1 := rfl

/-- What the others owe a device's cells: each of its three peers one unit on its barrier cell, and the peer whose
    transfer `k` reaches it a block's credit on its receive cell `k`. -/
theorem creds_intro (c : Dev nD) : (Pipeline.launchCred O₀ c : sProp 𝕄) ⊢ creds c := by
  have h3 : (tallyAt (barCell c) () 3 : CellTallies nD τ sig Unit) = tallyAt (barCell c) () 1 + tallyAt (barCell c) () 1 + tallyAt (barCell c) () 1 := by
    rw [tallyAt_add, tallyAt_add]
  rw [O₀_eq, Pipeline.launchCred_add, Pipeline.launchCred_add, Pipeline.launchCred_add, Pipeline.launchCred_add, Pipeline.launchCred_add]
  iintro ⟨⟨⟨⟨⟨R2, R1⟩, R0⟩, B2⟩, B1⟩, B0⟩
  ihave C0 := (Pipeline.launchCred_tallyAt (SemLoc.reg barS) (dst 0) (src 0) (dst_src 0) (src_dst 0) () 1 c) $$ B0
  ihave C1 := (Pipeline.launchCred_tallyAt (SemLoc.reg barS) (dst 1) (src 1) (dst_src 1) (src_dst 1) () 1 c) $$ B1
  ihave C2 := (Pipeline.launchCred_tallyAt (SemLoc.reg barS) (dst 2) (src 2) (dst_src 2) (src_dst 2) () 1 c) $$ B2
  ihave D0 := (Pipeline.launchCred_tallyAt (SemLoc.dma (rcvS 0).sem) (dst 0) (src 0) (dst_src 0) (src_dst 0) () N c) $$ R0
  ihave D1 := (Pipeline.launchCred_tallyAt (SemLoc.dma (rcvS 1).sem) (dst 1) (src 1) (dst_src 1) (src_dst 1) () N c) $$ R1
  ihave D2 := (Pipeline.launchCred_tallyAt (SemLoc.dma (rcvS 2).sem) (dst 2) (src 2) (dst_src 2) (src_dst 2) () N c) $$ R2
  unfold creds
  rw [h3]
  isplitl [C0 C1 C2]
  · iapply (cred_add _ _).2
    isplitl [C0 C1]
    · iapply (cred_add _ _).2
      isplitl [C0] <;> iassumption
    · iexact C2
  isplitl [D0]; · iexact D0
  isplitl [D1]; · iexact D1
  iexact D2

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [cPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨⟨%f, Hr⟩, Hz⟩
  isplitr; · iempintro
  isplitl [Hz]; · iexact Hz
  iexists f; rw [← cPts_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of thirty-two devices, for any float values, from any memory with zero counters: every weakly
    fair execution of @main — the devices of each group handshaking on the barrier semaphore, then exchanging their
    blocks — terminates, and every final state has each device's result array at the exchanged contents and its own
    array unchanged. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_a2a m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.A2a.run_main' depends on axioms: [propext, Classical.choice, Quot.sound] -/
#guard_msgs in #print axioms run_main

end Cert.KernelIdeal.A2a

end
-- ==== Proof.Final.lean ====
import proofs.«900655_g7700000000000656_dist_a2a_v7x_xyz2x4x4_y_m512_n512_bf16_1_alg».proof.Proof.Data
import Idealize.ShloMosaic.Lib.Pipeline.Cells
import Idealize.ShloMosaic.Lib.Pipeline.Value

/-!
# The two arrays after the run

The pallas_call has one grid point and two windows, each the whole of its array. The staged input is never written
back, so its array ends holding what it held at launch. The result's one block is the whole array and is written back
at the one point, so the array ends holding exactly what the body left in the staging buffer: device `c`'s assembled
2048 × 512 result.
-/

noncomputable section

namespace Cert.KernelIdeal.A2a

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The input array is never written back: after the run it holds what it held at launch. -/
theorem arrAt_x (c : Dev nD) :
    (dats m ρ 0 c).arrAt (0 : Fin 2) cfg0.N = (s₀ m ρ).mem (win0_0.arr.view.loc (c : Thread nD τ)) :=
  (dats (F := F) m ρ 0 c).arrAt_in (0 : Fin 2) rfl _

/-- The result array after the run: its one block, the whole array, was written back at the one point with what the
    body left, whatever the array held before. -/
theorem arrAt_out (c : Dev nD) : (dats m ρ 0 c).arrAt (1 : Fin 2) cfg0.N = outF m ρ c := by
  have h := (dats (F := F) m ρ 0 c).arrAt_succ (1 : Fin 2) t₀
  rw [if_pos (flush0_1 t₀)] at h
  refine (show (dats m ρ 0 c).arrAt (1 : Fin 2) cfg0.N = (dats m ρ 0 c).arrAt (1 : Fin 2) (t₀.val + 1) from
    congrArg ((dats m ρ 0 c).arrAt (1 : Fin 2)) cfg0_N).trans (h.trans ?_)
  exact Memref.write_access_unit_zero_univ (Elt F) main_v1
    (off := fun a => (cfg0.win (1 : Fin 2)).index t₀ a * (cfg0.win (1 : Fin 2)).size a)
    (funext fun a => Nat.zero_mul _) _ _ _

/-- info: 'Cert.KernelIdeal.A2a.arrAt_x' depends on axioms: [propext, Classical.choice, Quot.sound] -/
#guard_msgs in #print axioms arrAt_x
/-- info: 'Cert.KernelIdeal.A2a.arrAt_out' depends on axioms: [propext, Classical.choice, Quot.sound] -/
#guard_msgs in #print axioms arrAt_out

end Cert.KernelIdeal.A2a

end
-- ==== Proof.RefValue.lean ====
import proofs.«900655_g7700000000000656_dist_a2a_v7x_xyz2x4x4_y_m512_n512_bf16_1_alg».proof.Proof.Final
import proofs.«900655_g7700000000000656_dist_a2a_v7x_xyz2x4x4_y_m512_n512_bf16_1_alg».proof.Proof.Gen.ReferenceIdeal.Run
import proofs.«900655_g7700000000000656_dist_a2a_v7x_xyz2x4x4_y_m512_n512_bf16_1_alg».proof.Proof.Gen.Pre_finite_inputs_ReferenceIdeal
import proofs.«900655_g7700000000000656_dist_a2a_v7x_xyz2x4x4_y_m512_n512_bf16_1_alg».proof.Defs
import Idealize.ShloMosaic.Lib.Layout

/-!
# The result of a device is its block of the reference's result

The reference narrows a 2048 × 2048 array entry by entry. Device `c` starts with the row block of that array at
its position in its group and ends with the 2048 × 512 array whose row block `s` is the column block at `c`'s
position of the array of the device at position `s`: entry `(R, q)` is the narrowed entry
`(512 · (R / 512) + R mod 512, 512 · (position of c) + q) = (R, 512 · (position of c) + q)` of the whole array,
which is entry `(R, q)` of the column block at `c`'s position of the reference's result.
-/

noncomputable section

namespace Cert.KernelIdeal.A2a

open Cert.KernelIdeal Cert.KernelIdeal.Gen

open Idealize.ShloMosaic
open Idealize.ShloMosaic.TcCoe
open Idealize.SL.Sem

/-- A device's block coordinate along a dimension cut by the middle mesh axis is its position in its group. -/
theorem meshLin_mid : ∀ d : Dev nD, Layout.meshLin [2, 4, 4] d.val [1] = yc d := by decide

/-- A dimension that is not cut has the one block 0. -/
theorem meshLin_nil (d : ℕ) : Layout.meshLin [2, 4, 4] d [] = 0 := rfl

section Generic
variable {F : FTy → Type} [FloatOps F]
variable (m : (ℓ : Loc nD τ sig) → Buf (Elt F) ℓ) (ρ : Dev nD → PrngReg)

/-- The staged array of a device is the launch contents of its argument: the window's one block is the whole array. -/
theorem xs_eq (d : Dev nD) : xs m ρ d = m ((d.tc : Thread nD τ).loc main_arg0) :=
  Memref.read_access_unit_zero (Elt F) main_arg0
    (off := fun a => win0_0.index (0 : Fin 1) a * win0_0.size a) (funext fun a => Nat.zero_mul _) _ _

end Generic

theorem outF_block (m : (ℓ : Loc Cert.KernelIdeal.nD Cert.KernelIdeal.τ Cert.KernelIdeal.sig) → Buf (Elt Ideal) ℓ) (ρ : Dev Cert.KernelIdeal.nD → PrngReg)
    (X : Buf (Elt Ideal) (((0 : Dev Cert.ReferenceIdeal.nD).tc : Thread Cert.ReferenceIdeal.nD Cert.ReferenceIdeal.τ).loc Cert.ReferenceIdeal.main_arg0))
    (hagree : ∀ c : Dev Cert.KernelIdeal.nD, m ((c.tc : Thread Cert.KernelIdeal.nD Cert.KernelIdeal.τ).loc Cert.KernelIdeal.main_arg0) = Layout.blockN ⟨2, ![512, 2048]⟩ ⟨2, ![2048, 2048]⟩ (Layout.meshBlock [2, 4, 4] ![[1], []] c) X)
    (c : Dev Cert.KernelIdeal.nD) :
    outF (F := Ideal) m ρ c = Layout.blockN ⟨2, ![2048, 512]⟩ ⟨2, ![2048, 2048]⟩ (Layout.meshBlock [2, 4, 4] ![[], [1]] c) (truncf (F := Ideal) .bf16 X Cert.ReferenceIdeal.Gen.bitsLt_bf16_f32 : Buf (Elt Ideal) (((0 : Dev Cert.ReferenceIdeal.nD).tc : Thread Cert.ReferenceIdeal.nD Cert.ReferenceIdeal.τ).loc Cert.ReferenceIdeal.main_v0)) := by
  funext i
  have hi0 : (i 0).val < 2048 := (i 0).isLt
  have hy : (i 0).val / 512 < 4 := by omega
  unfold outF
  rw [xs_eq, hagree]
  show FloatOps.truncf (F := Ideal) FTy.bf16 _ (X _ : Ideal .f32) = FloatOps.truncf (F := Ideal) FTy.bf16 _ (X _ : Ideal .f32)
  congr 2
  funext b
  apply Fin.ext
  match b with
  | ⟨0, _⟩ =>
    show Layout.meshLin [2, 4, 4] (atY c ((i 0).val / 512)).val [1] * 512 + (i 0).val % 512
      = Layout.meshLin [2, 4, 4] c.val [] * 2048 + (i 0).val
    rw [meshLin_mid, yc_atY c _ hy, meshLin_nil]; omega
  | ⟨1, _⟩ =>
    show Layout.meshLin [2, 4, 4] (atY c ((i 0).val / 512)).val [] * 2048 + (512 * yc c + (i 1).val)
      = Layout.meshLin [2, 4, 4] c.val [1] * 512 + (i 1).val
    rw [meshLin_mid, meshLin_nil]; omega

/-! ## The reference's run -/

/-- The one-device reference terminates from any memory with zero counters, its result at the narrowed argument and
    the argument unchanged: its generated run, read at its one device. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread Cert.ReferenceIdeal.nD Cert.ReferenceIdeal.τ).loc Cert.ReferenceIdeal.main_v0)
          = (truncf (F := Ideal) .bf16 (m' (((0 : Dev Cert.ReferenceIdeal.nD).tc : Thread Cert.ReferenceIdeal.nD Cert.ReferenceIdeal.τ).loc Cert.ReferenceIdeal.main_arg0)) Cert.ReferenceIdeal.Gen.bitsLt_bf16_f32
              : Buf (Elt Ideal) (((0 : Dev Cert.ReferenceIdeal.nD).tc : Thread Cert.ReferenceIdeal.nD Cert.ReferenceIdeal.τ).loc Cert.ReferenceIdeal.main_v0))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run Cert.ReferenceIdeal.defs _ _).mono (fun _ h => h 0) (Cert.ReferenceIdeal.Value.run (F := Ideal) m' ρ')

/-- The reference's frame: it runs, and its argument ends unchanged. -/
theorem frame_ri : Cert.frame_ReferenceIdeal :=
  fun m ρ _ => (θ_run Cert.ReferenceIdeal.defs _ _).mono (fun _ h c => (h c).2) (Cert.ReferenceIdeal.Value.run (F := Ideal) m ρ)

/-- info: 'Cert.KernelIdeal.A2a.outF_block' depends on axioms: [propext, Classical.choice, Quot.sound] -/
#guard_msgs in #print axioms outF_block
/-- info: 'Cert.KernelIdeal.A2a.ref_run' depends on axioms: [propext, Classical.choice, Quot.sound] -/
#guard_msgs in #print axioms ref_run
/-- info: 'Cert.KernelIdeal.A2a.frame_ri' depends on axioms: [propext, Classical.choice, Quot.sound] -/
#guard_msgs in #print axioms frame_ri

end Cert.KernelIdeal.A2a

end
-- ==== Proof.Claims.lean ====
import proofs.«900655_g7700000000000656_dist_a2a_v7x_xyz2x4x4_y_m512_n512_bf16_1_alg».proof.Proof.Launch
import proofs.«900655_g7700000000000656_dist_a2a_v7x_xyz2x4x4_y_m512_n512_bf16_1_alg».proof.Proof.Final
import proofs.«900655_g7700000000000656_dist_a2a_v7x_xyz2x4x4_y_m512_n512_bf16_1_alg».proof.Proof.RefValue
import proofs.«900655_g7700000000000656_dist_a2a_v7x_xyz2x4x4_y_m512_n512_bf16_1_alg».proof.Proof.Gen.Pre_finite_inputs_Kernel
import proofs.«900655_g7700000000000656_dist_a2a_v7x_xyz2x4x4_y_m512_n512_bf16_1_alg».proof.Defs

/-!
# The claims about the exchange at the ideal instance

Every fair execution of the thirty-two devices ends with each device's result array at the assembled exchange and its
own array unchanged. The frame keeps the second fact. The algebraic claim reads the first against the one-device
reference, which narrows the whole 2048 × 2048 array entry by entry: a device's assembled result is its column block
of that narrowed array.
-/

noncomputable section

namespace Cert.Proof.A2aClaims

open Idealize.ShloMosaic Idealize.SL.Sem

/-- The exchange runs and every device's own array ends unchanged. -/
theorem frame_pi : Cert.frame_KernelIdeal :=
  fun m ρ _ => (θ_run Cert.KernelIdeal.defs _ _).mono
    (fun _ h c => (h c (0 : Fin 2)).trans (Cert.KernelIdeal.A2a.arrAt_x (F := Ideal) m ρ c))
    (Cert.KernelIdeal.A2a.run_main (F := Ideal) m ρ)

/-- Both programs run; the reference's result is the narrowed whole array, of which every device's result is its
    column block; the arguments of both end unchanged. -/
theorem algebraic : Cert.algebraic_KernelIdeal_ReferenceIdeal := by
  intro m g m' g' _ hagree
  refine ⟨(truncf (F := Ideal) .bf16 (m' (((0 : Dev Cert.ReferenceIdeal.nD).tc : Thread Cert.ReferenceIdeal.nD Cert.ReferenceIdeal.τ).loc Cert.ReferenceIdeal.main_arg0)) Cert.ReferenceIdeal.Gen.bitsLt_bf16_f32
      : Buf (Elt Ideal) (((0 : Dev Cert.ReferenceIdeal.nD).tc : Thread Cert.ReferenceIdeal.nD Cert.ReferenceIdeal.τ).loc Cert.ReferenceIdeal.main_v0)),
    ?_, Cert.KernelIdeal.A2a.ref_run m' g'⟩
  refine (θ_run Cert.KernelIdeal.defs _ _).mono (fun _ h c => ⟨?_, ?_⟩) (Cert.KernelIdeal.A2a.run_main (F := Ideal) m g)
  · exact ((h c (1 : Fin 2)).trans (Cert.KernelIdeal.A2a.arrAt_out (F := Ideal) m g c)).trans
      (Cert.KernelIdeal.A2a.outF_block m g _ hagree c)
  · exact (h c (0 : Fin 2)).trans (Cert.KernelIdeal.A2a.arrAt_x (F := Ideal) m g c)

end Cert.Proof.A2aClaims

end
-- ==== Proof.Bits.Mesh.lean ====
import proofs.«900655_g7700000000000656_dist_a2a_v7x_xyz2x4x4_y_m512_n512_bf16_1_alg».proof.Proof.Gen.Kernel
import proofs.«900655_g7700000000000656_dist_a2a_v7x_xyz2x4x4_y_m512_n512_bf16_1_alg».proof.Proof.Gen.Kernel.Skeleton
import proofs.«900655_g7700000000000656_dist_a2a_v7x_xyz2x4x4_y_m512_n512_bf16_1_alg».proof.Proof.Gen.Kernel.Launch
import proofs.«900655_g7700000000000656_dist_a2a_v7x_xyz2x4x4_y_m512_n512_bf16_1_alg».proof.Proof.Gen.Kernel.Points
import Idealize.ShloMosaic.Lib.Pipeline.Launch
import Idealize.ShloMosaic.Lib.Pipeline.Kit
import Idealize.ShloMosaic.Lib.Tactic
import Idealize.ShloMosaic.Lib.ValueIdx

/-!
# The exchange along one mesh axis: devices, blocks, cells

Thirty-two devices on a 2 × 4 × 4 mesh. The four devices that share their first and last coordinate form a group;
inside a group every device sends each of the three others one 512 × 512 block of its 512 × 2048 array, and keeps
the fourth. Device `c` at position `y` of its group ends with a 2048 × 512 array whose row block `s` is the
column block `y` of the array of the device at position `s`.

This module fixes the vocabulary: the position of a device in its group, the device `j` places further along the
group, the row blocks of the result buffer, the three slots of the send buffer, the seven semaphore cells of a
device, and the block a device at position `s` contributes to the device at position `y`.
-/

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside one whose rounds have three duties -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The group of a device -/

/-- The position of device `c` in its group (its coordinate on the middle mesh axis). -/
def yc (c : Dev nD) : ℕ := c.val / 4 % 4

/-- The device `j` places after `c` in its group, cyclically: the other two coordinates are kept. -/
def sh (j : ℕ) (c : Dev nD) : Dev nD :=
  ⟨c.val / 16 * 16 + (c.val / 4 % 4 + j) % 4 * 4 + c.val % 4, by have : c.val < 32 := c.isLt; show _ < 32; omega⟩

/-- The device that `c`'s transfer number `k` goes to: `k + 1` places after it. -/
def dst (k : Fin 3) (c : Dev nD) : Dev nD := sh (k.val + 1) c
/-- The device whose transfer number `k` comes to `c`: `k + 1` places before it. -/
def src (k : Fin 3) (c : Dev nD) : Dev nD := sh (3 - k.val) c

theorem src_dst (k : Fin 3) (c : Dev nD) : src k (dst k c) = c := by revert k c; decide
theorem dst_src (k : Fin 3) (c : Dev nD) : dst k (src k c) = c := by revert k c; decide
theorem dst_ne (k : Fin 3) (c : Dev nD) : dst k c ≠ c := by revert k c; decide
theorem src_ne (k : Fin 3) (c : Dev nD) : src k c ≠ c := by revert k c; decide
theorem dst_inj (k k' : Fin 3) (c : Dev nD) (h : dst k c = dst k' c) : k = k' := by revert k k' c; decide
theorem src_inj (k k' : Fin 3) (c : Dev nD) (h : src k c = src k' c) : k = k' := by revert k k' c; decide
theorem yc_lt (c : Dev nD) : yc c < 4 := Nat.mod_lt _ (by decide)
theorem yc_dst (k : Fin 3) (c : Dev nD) : yc (dst k c) = (yc c + k.val + 1) % 4 := by revert k c; decide
theorem yc_src (k : Fin 3) (c : Dev nD) : yc (src k c) = (yc c + 3 - k.val) % 4 := by revert k c; decide
theorem yc_dst_ne (k : Fin 3) (c : Dev nD) : yc (dst k c) ≠ yc c := by revert k c; decide
theorem yc_dst_inj (k k' : Fin 3) (c : Dev nD) (h : yc (dst k c) = yc (dst k' c)) : k = k' := by revert k k' c; decide
/-- The reverse numbering: `c` is the target of transfer `2 - k` of the device it reaches with transfer `k`. -/
def rev (k : Fin 3) : Fin 3 := ⟨2 - k.val, by omega⟩
theorem dst_rev (k : Fin 3) (c : Dev nD) : dst (rev k) (dst k c) = c := by revert k c; decide
theorem src_eq_dst_rev (k : Fin 3) (c : Dev nD) : src k c = dst (rev k) c := by revert k c; decide

/-! ## The kernel's device chains and offsets, in closed form -/

theorem dev1_val : ∀ c : Dev nD, k0_dev1 c = (dst 0 c).val := by decide +kernel
theorem dev2_val : ∀ c : Dev nD, k0_dev2 c = (dst 1 c).val := by decide +kernel
theorem dev3_val : ∀ c : Dev nD, k0_dev3 c = (dst 2 c).val := by decide +kernel
theorem dev4_val : ∀ c : Dev nD, k0_dev4 c = (dst 0 c).val := by decide +kernel
theorem dev5_val : ∀ c : Dev nD, k0_dev5 c = (dst 1 c).val := by decide +kernel
theorem dev6_val : ∀ c : Dev nD, k0_dev6 c = (dst 2 c).val := by decide +kernel

theorem dev1_eq (c : Dev nD) : (⟨k0_dev1 c, k0_dev1_lt c⟩ : Dev nD) = dst 0 c := Fin.ext (dev1_val c)
theorem dev2_eq (c : Dev nD) : (⟨k0_dev2 c, k0_dev2_lt c⟩ : Dev nD) = dst 1 c := Fin.ext (dev2_val c)
theorem dev3_eq (c : Dev nD) : (⟨k0_dev3 c, k0_dev3_lt c⟩ : Dev nD) = dst 2 c := Fin.ext (dev3_val c)
theorem dev4_eq (c : Dev nD) : (⟨k0_dev4 c, k0_dev4_lt c⟩ : Dev nD) = dst 0 c := Fin.ext (dev4_val c)
theorem dev5_eq (c : Dev nD) : (⟨k0_dev5 c, k0_dev5_lt c⟩ : Dev nD) = dst 1 c := Fin.ext (dev5_val c)
theorem dev6_eq (c : Dev nD) : (⟨k0_dev6 c, k0_dev6_lt c⟩ : Dev nD) = dst 2 c := Fin.ext (dev6_val c)

/-- The column block of its own array a device reads for transfer `k`: the one at the target's position. -/
theorem off1_eq : ∀ (c : Dev nD) (k : Fin 3), k0_off1 c (BitVec.ofNat 32 (1 + k.val)) = ![0, 512 * yc (dst k c)] := by decide +kernel
/-- The column block it keeps: the one at its own position. -/
theorem off2_eq (c : Dev nD) : k0_off2 c = ![0, 512 * yc c] := k0_off2_eq c
/-- The row block of the result it writes itself, and the row block of a peer's result its transfers write: its own position. -/
theorem off3_eq (c : Dev nD) : k0_off3 c = ![512 * yc c, 0] := k0_off3_eq c
theorem off4_eq (c : Dev nD) : k0_off4 c = ![512 * yc c, 0] := k0_off4_eq c
/-- The row block transfer `k` of another device lands in: that device's position. -/
theorem off5_eq : ∀ (c : Dev nD) (k : Fin 3), k0_off5 c (BitVec.ofNat 32 (1 + k.val)) = ![512 * yc (src k c), 0] := by decide +kernel

/-! ## Buffers, views and cells -/

abbrev xM : Memref sig .tc .vmem S512x2048 .f32 := Memref.whole cc0_stg0_0
abbrev oM : Memref sig .tc .vmem S2048x512 .bf16 := Memref.whole cc0_stg1_0
abbrev cM : Memref sig .tc .vmem S3x512x512 .bf16 := Memref.whole cc0_scratch0

/-- The row block of a result buffer at device `c`'s position: the rows `c` stores in its own buffer, and the rows its
    transfers write in its peers' buffers. -/
abbrev oBlk (c : Dev nD) : Memref sig .tc .vmem S512x512 .bf16 :=
  oM.slice (Rect.unit (s := S2048x512) (k0_off4 c) S512x512.size (k0_off4_inb c)) (fun _ => rfl)

/-- Slot `k` of the send buffer, as a 512 × 512 view. -/
abbrev cSlot : Fin 3 → Memref sig .tc .vmem S512x512 .bf16
  | 0 => (cM.slice (Rect.unit (s := S3x512x512) ![0, 0, 0] S1x512x512.size inb_S3x512x512_S1x512x512_0_0_0) (fun _ => rfl)).squeeze S512x512 squeezes_S1x512x512_S512x512
  | 1 => (cM.slice (Rect.unit (s := S3x512x512) ![1, 0, 0] S1x512x512.size inb_S3x512x512_S1x512x512_1_0_0) (fun _ => rfl)).squeeze S512x512 squeezes_S1x512x512_S512x512
  | 2 => (cM.slice (Rect.unit (s := S3x512x512) ![2, 0, 0] S1x512x512.size inb_S3x512x512_S1x512x512_2_0_0) (fun _ => rfl)).squeeze S512x512 squeezes_S1x512x512_S512x512

/-- The runtime's barrier semaphore (unscoped); the three send and the three receive DMA semaphores (scoped scratch). -/
abbrev barS : Sem sig := (SemArray.scalar (sig.barrier 0 rfl) : Sems sig S_).sem
abbrev sndS : Fin 3 → DmaSems sig S_
  | 0 => (cc0_scratch1.slice (Rect.unit (s := S3) ![0] S1.size inb_S3_S1_0)).squeeze S_ squeezes_S1_S_
  | 1 => (cc0_scratch1.slice (Rect.unit (s := S3) ![1] S1.size inb_S3_S1_1)).squeeze S_ squeezes_S1_S_
  | 2 => (cc0_scratch1.slice (Rect.unit (s := S3) ![2] S1.size inb_S3_S1_2)).squeeze S_ squeezes_S1_S_
abbrev rcvS : Fin 3 → DmaSems sig S_
  | 0 => (cc0_scratch2.slice (Rect.unit (s := S3) ![0] S1.size inb_S3_S1_0)).squeeze S_ squeezes_S1_S_
  | 1 => (cc0_scratch2.slice (Rect.unit (s := S3) ![1] S1.size inb_S3_S1_1)).squeeze S_ squeezes_S1_S_
  | 2 => (cc0_scratch2.slice (Rect.unit (s := S3) ![2] S1.size inb_S3_S1_2)).squeeze S_ squeezes_S1_S_

abbrev barCell (c : Dev nD) : GSem nD τ sig := ((c : Thread nD τ), .reg barS)
abbrev sndCell (k : Fin 3) (c : Dev nD) : GSem nD τ sig := ((c : Thread nD τ), .dma (sndS k).sem)
abbrev rcvCell (k : Fin 3) (c : Dev nD) : GSem nD τ sig := ((c : Thread nD τ), .dma (rcvS k).sem)

/-- The kernel's OWN (scoped) semaphores, as the launch indexes them: the three send ones, then the three receive ones; -/
abbrev osem : Fin 6 → SemLoc sig := fun
  | 0 => .dma (sndS 0).sem | 1 => .dma (sndS 1).sem | 2 => .dma (sndS 2).sem
  | 3 => .dma (rcvS 0).sem | 4 => .dma (rcvS 1).sem | 5 => .dma (rcvS 2).sem
/-- all seven of a device: the barrier first. -/
abbrev csem : Fin 7 → SemLoc sig := fun
  | 0 => .reg barS
  | 1 => .dma (sndS 0).sem | 2 => .dma (sndS 1).sem | 3 => .dma (sndS 2).sem
  | 4 => .dma (rcvS 0).sem | 5 => .dma (rcvS 1).sem | 6 => .dma (rcvS 2).sem
abbrev kcell (ck : Dev nD × Fin 7) : GSem nD τ sig := ((ck.1 : Thread nD τ), csem ck.2)
/-- Where a send and a receive cell sit among the seven. -/
def sndIx (k : Fin 3) : Fin 7 := ⟨1 + k.val, by omega⟩
def rcvIx (k : Fin 3) : Fin 7 := ⟨4 + k.val, by omega⟩
theorem kcell_bar (c : Dev nD) : kcell (c, 0) = barCell c := rfl
theorem kcell_snd (k : Fin 3) (c : Dev nD) : kcell (c, sndIx k) = sndCell k c := by fin_cases k <;> rfl
theorem kcell_rcv (k : Fin 3) (c : Dev nD) : kcell (c, rcvIx k) = rcvCell k c := by fin_cases k <;> rfl

/-- The units one 512 × 512 block credits a DMA semaphore. -/
abbrev N : ℕ := (cSlot 0).view.dmaCredit
theorem N_pos : 0 < N := View.dmaCredit_pos _ (by decide)
theorem amount_oBlk (c : Dev nD) (sm : DmaSem sig) : (oBlk c).view.amount (.dma sm) = N := rfl
theorem amount_cSlot (k : Fin 3) (sm : DmaSem sig) : (cSlot k).view.amount (.dma sm) = N := by fin_cases k <;> rfl

/-! ## Contents -/

/-- Device `c`'s own 512 × 2048 array, as the kernel finds it staged. -/
def xs (c : Dev nD) : (cc0_stg0_0 : Ref sig .tc).ty.Contents (Elt F) :=
  (win0_0.blk (0 : Fin 1)).view.read (Elt F) ((s₀ m ρ).mem ((c : Thread nD τ).loc main_arg0))

/-- The device of `c`'s group at position `y`. -/
def atY (c : Dev nD) (y : ℕ) : Dev nD :=
  ⟨c.val / 16 * 16 + y % 4 * 4 + c.val % 4, by have : c.val < 32 := c.isLt; show _ < 32; omega⟩
theorem atY_yc (c : Dev nD) : atY c (yc c) = c := by revert c; decide
theorem atY_dst (k : Fin 3) (c : Dev nD) (y : ℕ) : atY (dst k c) y = atY c y := by
  have h : ∀ (k : Fin 3) (c : Dev nD) (y : Fin 4), atY (dst k c) y.val = atY c y.val := by decide
  have : atY (dst k c) y = atY (dst k c) (y % 4) := Fin.ext (by simp only [atY, Nat.mod_mod])
  rw [this, show atY c y = atY c (y % 4) from Fin.ext (by simp only [atY, Nat.mod_mod])]
  exact h k c ⟨y % 4, Nat.mod_lt _ (by decide)⟩
theorem yc_atY (c : Dev nD) (y : ℕ) (hy : y < 4) : yc (atY c y) = y := by
  have h : ∀ (c : Dev nD) (y : Fin 4), yc (atY c y.val) = y.val := by decide
  exact h c ⟨y, hy⟩
theorem atY_yc_dst (k : Fin 3) (c : Dev nD) : atY c (yc (dst k c)) = dst k c := by revert k c; decide
theorem atY_yc_src (k : Fin 3) (c : Dev nD) : atY c (yc (src k c)) = src k c := by revert k c; decide

/-- The result buffer of device `c` at the end: entry `(R, q)` is, narrowed to the result's format, entry
    `(R mod 512, 512 · (position of c) + q)` of the array of the device at position `R / 512` of `c`'s group. -/
def outF (c : Dev nD) : (cc0_stg1_0 : Ref sig .tc).ty.Contents (Elt F) :=
  fun (i : S2048x512.Idx) =>
    (FloatOps.truncf (F := F) .bf16 bitsLt_bf16_f32
      ((xs m ρ (atY c ((i 0).val / 512)) : S512x2048.Idx → F .f32)
        (ValueIdx.ix2 (⟨(i 0).val % 512, Nat.mod_lt _ (by decide)⟩ : Fin 512)
          (⟨512 * yc c + (i 1).val, by have := yc_lt c; have : (i 1).val < 512 := (i 1).isLt; show _ < 2048; omega⟩ : Fin 2048))) : F .bf16)

/-- What the three narrowing stores leave in the send buffer, whatever it held: slot `k` holds the column block of
    the device's own array at the position of the device transfer `k` goes to. -/
def ld (c : Dev nD) (k : Fin 3) : Vec F S512x512 .f32 :=
  xM.view.readAt (Elt F) (Rect.unit (s := S512x2048) (k0_off1 c (BitVec.ofNat 32 (1 + k.val))) S512x512.size (k0_off1_inb c k)).toLoadRect (xs m ρ c)
def ldOwn (c : Dev nD) : Vec F S512x512 .f32 :=
  xM.view.readAt (Elt F) (Rect.unit (s := S512x2048) (k0_off2 c) S512x512.size (k0_off2_inb c)).toLoadRect (xs m ρ c)
abbrev cRect0 : Rect S3x512x512 := Rect.unit (s := S3x512x512) ![0, 0, 0] S1x512x512.size inb_S3x512x512_S1x512x512_0_0_0
abbrev cRect1 : Rect S3x512x512 := Rect.unit (s := S3x512x512) ![1, 0, 0] S1x512x512.size inb_S3x512x512_S1x512x512_1_0_0
abbrev cRect2 : Rect S3x512x512 := Rect.unit (s := S3x512x512) ![2, 0, 0] S1x512x512.size inb_S3x512x512_S1x512x512_2_0_0
abbrev oRect (c : Dev nD) : Rect S2048x512 := Rect.unit (s := S2048x512) (k0_off3 c) S512x512.size (k0_off3_inb c)
def commAfter (c : Dev nD) (f0 : (cc0_scratch0 : Ref sig .tc).ty.Contents (Elt F)) : (cc0_scratch0 : Ref sig .tc).ty.Contents (Elt F) :=
  (cM.access cRect2 : View sig .tc _ _ _).write (Elt F)
    ((cM.access cRect1 : View sig .tc _ _ _).write (Elt F)
      ((cM.access cRect0 : View sig .tc _ _ _).write (Elt F) f0 (k0_pay1 (ld m ρ c 0)) Finset.univ)
      (k0_pay2 (ld m ρ c 1)) Finset.univ)
    (k0_pay3 (ld m ρ c 2)) Finset.univ

/-! ## What a landing hands over -/

/-- Duty `k` of device `c`'s barrier cell is paid by the device `c`'s transfer `k` goes to; its signal hands `c` the
    row block at `c`'s position of that device's result buffer, whatever it holds. -/
def barPay (c : Dev nD) (k : Fin 3) : sProp 𝕄 :=
  iprop(∃ f, (oBlk c).view.loc ((dst k c : Dev nD) : Thread nD τ) ↦[(oBlk c).view.set]{fullShare} f)
/-- The transfer number `k` that comes to `c` hands it the row block at the sender's position of its own result
    buffer, holding what the result holds there at the end. -/
def rcvPay (k : Fin 3) (c : Dev nD) : sProp 𝕄 :=
  (oBlk (src k c)).view.loc (c : Thread nD τ) ↦[(oBlk (src k c)).view.set]{fullShare} outF m ρ c
/-- A transfer's source fully read hands its slot of the send buffer back. -/
def sndPay (k : Fin 3) (c : Dev nD) : sProp 𝕄 :=
  iprop(∃ f, (cSlot k).view.loc (c : Thread nD τ) ↦[(cSlot k).view.set]{fullShare} f)

/-! ## The schedule: one round -/

abbrev IsBar (g : GSem nD τ sig) : Prop := g.1.2 = .tc ∧ g.2 = .reg barS
abbrev IsXfer (g : GSem nD τ sig) : Prop := g.1.2 = .tc ∧
  (g.2 = .dma (sndS 0).sem ∨ g.2 = .dma (sndS 1).sem ∨ g.2 = .dma (sndS 2).sem
    ∨ g.2 = .dma (rcvS 0).sem ∨ g.2 = .dma (rcvS 1).sem ∨ g.2 = .dma (rcvS 2).sem)

/-- Round 0 only. A barrier cell has three duties of one unit, one per peer; a send or a receive cell the one duty
    `0` of a block's credit. -/
def a2aRd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma (rcvS 0).sem then rcvPay m ρ 0 g.1.1
    else if g.2 = .dma (rcvS 1).sem then rcvPay m ρ 1 g.1.1
    else if g.2 = .dma (rcvS 2).sem then rcvPay m ρ 2 g.1.1
    else if g.2 = .dma (sndS 0).sem then sndPay 0 g.1.1
    else if g.2 = .dma (sndS 1).sem then sndPay 1 g.1.1
    else if g.2 = .dma (sndS 2).sem then sndPay 2 g.1.1
    else iprop(emp)
  amount_pos g _ _ _ := by
    by_cases h : g.2 = .reg barS
    · rw [if_pos h]; exact Nat.one_pos
    · rw [if_neg h]; exact N_pos

instance a2aRd_payload_storable (g : GSem nD τ sig) (r : ℕ) (d : Fin 3) :
    BI.Storable (upEmb : UEmb _ 𝕄) ((a2aRd (F := F) m ρ).payload g r d) := by
  show BI.Storable upEmb (if g.2 = .reg barS then barPay g.1.1 d
    else if g.2 = .dma (rcvS 0).sem then rcvPay m ρ 0 g.1.1
    else if g.2 = .dma (rcvS 1).sem then rcvPay m ρ 1 g.1.1
    else if g.2 = .dma (rcvS 2).sem then rcvPay m ρ 2 g.1.1
    else if g.2 = .dma (sndS 0).sem then sndPay 0 g.1.1
    else if g.2 = .dma (sndS 1).sem then sndPay 1 g.1.1
    else if g.2 = .dma (sndS 2).sem then sndPay 2 g.1.1
    else iprop(emp))
  unfold barPay rcvPay sndPay
  (repeat' split) <;> infer_instance

section Sched
variable (c : Dev nD) (k : Fin 3)

theorem snd_ne_bar : (SemLoc.dma (sndS k).sem : SemLoc sig) ≠ .reg barS := fun h => by cases h
theorem rcv_ne_bar : (SemLoc.dma (rcvS k).sem : SemLoc sig) ≠ .reg barS := fun h => by cases h
theorem snd_ne_rcv (k k' : Fin 3) : (SemLoc.dma (sndS k).sem : SemLoc sig) ≠ .dma (rcvS k').sem := by revert k k'; decide
theorem rcv_ne_snd (k k' : Fin 3) : (SemLoc.dma (rcvS k).sem : SemLoc sig) ≠ .dma (sndS k').sem := by revert k k'; decide
theorem snd_inj (k k' : Fin 3) (h : (SemLoc.dma (sndS k).sem : SemLoc sig) = .dma (sndS k').sem) : k = k' := by revert k k'; decide
theorem rcv_inj (k k' : Fin 3) (h : (SemLoc.dma (rcvS k).sem : SemLoc sig) = .dma (rcvS k').sem) : k = k' := by revert k k'; decide
theorem not_bar_snd : ¬ IsBar (sndCell k c) := fun h => snd_ne_bar k h.2
theorem not_bar_rcv : ¬ IsBar (rcvCell k c) := fun h => rcv_ne_bar k h.2
theorem isXfer_snd : IsXfer (sndCell k c) := ⟨rfl, (by decide : ∀ k : Fin 3, (SemLoc.dma (sndS k).sem : SemLoc sig) = .dma (sndS 0).sem ∨ (SemLoc.dma (sndS k).sem : SemLoc sig) = .dma (sndS 1).sem ∨ (SemLoc.dma (sndS k).sem : SemLoc sig) = .dma (sndS 2).sem
    ∨ (SemLoc.dma (sndS k).sem : SemLoc sig) = .dma (rcvS 0).sem ∨ (SemLoc.dma (sndS k).sem : SemLoc sig) = .dma (rcvS 1).sem ∨ (SemLoc.dma (sndS k).sem : SemLoc sig) = .dma (rcvS 2).sem) k⟩
theorem isXfer_rcv : IsXfer (rcvCell k c) := ⟨rfl, (by decide : ∀ k : Fin 3, (SemLoc.dma (rcvS k).sem : SemLoc sig) = .dma (sndS 0).sem ∨ (SemLoc.dma (rcvS k).sem : SemLoc sig) = .dma (sndS 1).sem ∨ (SemLoc.dma (rcvS k).sem : SemLoc sig) = .dma (sndS 2).sem
    ∨ (SemLoc.dma (rcvS k).sem : SemLoc sig) = .dma (rcvS 0).sem ∨ (SemLoc.dma (rcvS k).sem : SemLoc sig) = .dma (rcvS 1).sem ∨ (SemLoc.dma (rcvS k).sem : SemLoc sig) = .dma (rcvS 2).sem) k⟩

theorem duties_bar : (a2aRd (F := F) m ρ).duties (barCell c) 0 = Finset.univ := by dsimp only [a2aRd]; exact if_pos ⟨rfl, rfl, rfl⟩
theorem duties_snd : (a2aRd (F := F) m ρ).duties (sndCell k c) 0 = {0} := by
  dsimp only [a2aRd]; rw [if_neg (fun h => not_bar_snd c k h.2)]; exact if_pos ⟨rfl, isXfer_snd c k⟩
theorem duties_rcv : (a2aRd (F := F) m ρ).duties (rcvCell k c) 0 = {0} := by
  dsimp only [a2aRd]; rw [if_neg (fun h => not_bar_rcv c k h.2)]; exact if_pos ⟨rfl, isXfer_rcv c k⟩
theorem duties_later (g : GSem nD τ sig) : ∀ r, 1 ≤ r → (a2aRd (F := F) m ρ).duties g r = ∅ :=
  fun r hr => by dsimp only [a2aRd]; rw [if_neg fun h => by omega, if_neg fun h => by omega]

theorem amount_bar (d : Fin 3) : (a2aRd (F := F) m ρ).amount (barCell c) 0 d = 1 := by dsimp only [a2aRd]; exact if_pos rfl
theorem amount_snd (d : Fin 3) : (a2aRd (F := F) m ρ).amount (sndCell k c) 0 d = N := by dsimp only [a2aRd]; exact if_neg (snd_ne_bar k)
theorem amount_rcv (d : Fin 3) : (a2aRd (F := F) m ρ).amount (rcvCell k c) 0 d = N := by dsimp only [a2aRd]; exact if_neg (rcv_ne_bar k)

theorem expect_bar : (a2aRd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_snd : (a2aRd (F := F) m ρ).expect (sndCell k c) 0 = N := by
  unfold Schedule.expect Schedule.amountOf; rw [duties_snd, Finset.sum_singleton, amount_snd]
theorem expect_rcv : (a2aRd (F := F) m ρ).expect (rcvCell k c) 0 = N := by
  unfold Schedule.expect Schedule.amountOf; rw [duties_rcv, Finset.sum_singleton, amount_rcv]

theorem payload_bar (d : Fin 3) : (a2aRd (F := F) m ρ).payload (barCell c) 0 d = barPay c d := by dsimp only [a2aRd]; rw [if_pos rfl]
theorem payload_rcv (d : Fin 3) : (a2aRd (F := F) m ρ).payload (rcvCell k c) 0 d = rcvPay m ρ k c := by
  dsimp only [a2aRd]; rw [if_neg (rcv_ne_bar k)]
  match k with
  | 0 => rw [if_pos rfl]
  | 1 => rw [if_neg (by decide), if_pos rfl]
  | 2 => rw [if_neg (by decide), if_neg (by decide), if_pos rfl]
theorem payload_snd (d : Fin 3) : (a2aRd (F := F) m ρ).payload (sndCell k c) 0 d = sndPay k c := by
  dsimp only [a2aRd]; rw [if_neg (snd_ne_bar k), if_neg (snd_ne_rcv k 0), if_neg (snd_ne_rcv k 1), if_neg (snd_ne_rcv k 2)]
  match k with
  | 0 => rw [if_pos rfl]
  | 1 => rw [if_neg (by decide), if_pos rfl]
  | 2 => rw [if_neg (by decide), if_neg (by decide), if_pos rfl]

theorem bigSep_fin3 (Φ : Fin 3 → sProp 𝕄) : bigSep Finset.univ Φ = iprop(Φ 0 ∗ Φ 1 ∗ Φ 2) := bigSep_univ_eq_bigSepL [0, 1, 2] (by decide) (by decide) Φ

/-- The whole of the barrier cell's round: the three peers' row blocks. -/
theorem rest_bar : bigSep ((a2aRd (F := F) m ρ).duties (barCell c) 0 \ ∅) (fun d => (a2aRd (F := F) m ρ).payload (barCell c) 0 d)
    = iprop(barPay c 0 ∗ barPay c 1 ∗ barPay c 2) := by
  rw [Finset.sdiff_empty, duties_bar, bigSep_fin3, payload_bar, payload_bar, payload_bar]
theorem rest_snd : bigSep ((a2aRd (F := F) m ρ).duties (sndCell k c) 0 \ ∅) (fun d => (a2aRd (F := F) m ρ).payload (sndCell k c) 0 d) = sndPay k c := by
  rw [Finset.sdiff_empty, duties_snd, bigSep_singleton, payload_snd]
theorem rest_rcv : bigSep ((a2aRd (F := F) m ρ).duties (rcvCell k c) 0 \ ∅) (fun d => (a2aRd (F := F) m ρ).payload (rcvCell k c) 0 d) = rcvPay m ρ k c := by
  rw [Finset.sdiff_empty, duties_rcv, bigSep_singleton, payload_rcv]

end Sched

end Cert.Kernel.A2a

end
-- ==== Proof.Bits.Data.lean ====
import proofs.«900655_g7700000000000656_dist_a2a_v7x_xyz2x4x4_y_m512_n512_bf16_1_alg».proof.Proof.Bits.Mesh

/-!
# What a device owes, the levels, and the proof data of the one pallas_call

At launch a device owes each of its three peers one unit on the peer's barrier cell and one block's credit on the
peer's receive cell. Levels: barrier cells at 1, receive cells at 2, everything else at 0 — a device waits on its
barrier while it still owes receive credit, never the other way round.
-/

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes at launch; the levels -/

/-- The receive credit a device still owes after its three signals: summed so that transfer 0 peels the last summand. -/
def owedR (c : Dev nD) : CellTallies nD τ sig Unit :=
  tallyAt (rcvCell 2 (dst 2 c)) () N + tallyAt (rcvCell 1 (dst 1 c)) () N + tallyAt (rcvCell 0 (dst 0 c)) () N
/-- At launch it owes the three barrier units too: signal 0 peels the last summand, then signal 1, then signal 2. -/
def O₀ (c : Dev nD) : CellTallies nD τ sig Unit :=
  owedR c + tallyAt (barCell (dst 2 c)) () 1 + tallyAt (barCell (dst 1 c)) () 1 + tallyAt (barCell (dst 0 c)) () 1

def L (g : GSem nD τ sig) : Finset Unit := if g.1.2 = .tc then {()} else ∅
abbrev IsRcvSem (s : SemLoc sig) : Prop := s = .dma (rcvS 0).sem ∨ s = .dma (rcvS 1).sem ∨ s = .dma (rcvS 2).sem
/-- Barrier cells at 1, receive cells at 2, everything else (staging, send) at 0. -/
def lv (g : GSem nD τ sig) (_ : Unit) : ℕ := if g.2 = .reg barS then 1 else if IsRcvSem g.2 then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state of a device -/

/-- What every device knows of every cell: its invariant, under the name the launch allocated it at, and that its
    round 0 is reached. -/
def records (K : Dev nD × Fin 7 → ℕ) : sProp 𝕄 :=
  iprop((bigSep Finset.univ fun ck : Dev nD × Fin 7 => cellInv ER (a2aRd m ρ) (K ck) (kcell ck))
    ∗ bigSep Finset.univ fun ck : Dev nD × Fin 7 => reached ER (kcell ck) 0)

instance records_persistent (K : Dev nD × Fin 7 → ℕ) : BI.Persistent (records m ρ K) := by unfold records; infer_instance

/-- The tokens of the duties device `c` pays: per transfer `k`, the barrier duty of its target that is `c`'s to pay,
    the target's receive duty, its own send duty. -/
def payToks (c : Dev nD) : sProp 𝕄 :=
  iprop((dutyTok ER (barCell (dst 0 c)) 0 (rev 0) ∗ dutyTok ER (rcvCell 0 (dst 0 c)) 0 0 ∗ dutyTok ER (sndCell 0 c) 0 0)
    ∗ (dutyTok ER (barCell (dst 1 c)) 0 (rev 1) ∗ dutyTok ER (rcvCell 1 (dst 1 c)) 0 0 ∗ dutyTok ER (sndCell 1 c) 0 0)
    ∗ (dutyTok ER (barCell (dst 2 c)) 0 (rev 2) ∗ dutyTok ER (rcvCell 2 (dst 2 c)) 0 0 ∗ dutyTok ER (sndCell 2 c) 0 0))

/-- Its positions: at the start of round 0 of each of its seven cells. -/
def positions (c : Dev nD) : sProp 𝕄 :=
  iprop(atPos ER (barCell c) 0 ∅ 0
    ∗ (atPos ER (sndCell 0 c) 0 ∅ 0 ∗ atPos ER (sndCell 1 c) 0 ∅ 0 ∗ atPos ER (sndCell 2 c) 0 ∅ 0)
    ∗ (atPos ER (rcvCell 0 c) 0 ∅ 0 ∗ atPos ER (rcvCell 1 c) 0 ∅ 0 ∗ atPos ER (rcvCell 2 c) 0 ∅ 0))

def ghost (K : Dev nD × Fin 7 → ℕ) (c : Dev nD) : sProp 𝕄 := iprop(records m ρ K ∗ positions c ∗ payToks c)

/-- The credit dealt at launch for what the others owe its cells: three barrier units, a block on each receive cell. -/
def creds (c : Dev nD) : sProp 𝕄 :=
  iprop(cred (tallyAt (barCell c) () 3) ∗ cred (tallyAt (rcvCell 0 c) () N) ∗ cred (tallyAt (rcvCell 1 c) () N) ∗ cred (tallyAt (rcvCell 2 c) () N))

/-- What device `c`'s body starts from. -/
def start (c : Dev nD) : sProp 𝕄 := iprop((∃ K, ghost m ρ K c) ∗ creds c ∗ levAts L lv)

/-- The send buffer, whole. -/
def cPts (c : Dev nD) (f : Buf (Elt F) (cM.view.loc (c : Thread nD τ))) : sProp 𝕄 :=
  cM.view.loc (c : Thread nD τ) ↦[cM.view.set]{fullShare} f
omit [FloatOps F] in
theorem cPts_eq (c : Dev nD) (f : Buf (Elt F) ((c : Thread nD τ).loc cc0_scratch0)) :
    cPts c f = (((c : Thread nD τ).loc cc0_scratch0) ↦{fullShare} f : sProp 𝕄) := by unfold cPts; rw [View.set_whole]

/-- The own cells closed: their counters at zero are the device's again. -/
def ownZero (c : Dev nD) : sProp 𝕄 :=
  iprop(semVal (sndCell 0 c) 0 ∗ semVal (sndCell 1 c) 0 ∗ semVal (sndCell 2 c) 0 ∗ semVal (rcvCell 0 c) 0 ∗ semVal (rcvCell 1 c) 0 ∗ semVal (rcvCell 2 c) 0)

def Φ₀ (c : Dev nD) : sProp 𝕄 := iprop(start m ρ c ∗ ∃ f, cPts c f)
def Φ₁ (c : Dev nD) : sProp 𝕄 := iprop((∃ f, cPts (F := F) c f) ∗ ownZero c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => outF m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 7 → ℕ) (c : Dev nD) : sProp 𝕄 :=
  iprop((ghost m ρ K c ∗ creds c ∗ levAts L lv ∗ ∃ f, cPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xs m ρ c) ∗ stg c cc0_stg1_0 (outF m ρ c))

end Cert.Kernel.A2a

end
-- ==== Proof.Bits.Levels.lean ====
import proofs.«900655_g7700000000000656_dist_a2a_v7x_xyz2x4x4_y_m512_n512_bf16_1_alg».proof.Proof.Bits.Data

/-!
# Waiting below what is owed

A wait is allowed at a level below everything the waiter still owes. A device waits on a staging cell (level 0)
owing at most its three barrier units (level 1) and its three receive credits (level 2); on its barrier cell
(level 1) owing the receive credits only.
-/

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A cell device `c` still owes receive credit is a peer's receive cell. -/
theorem owedR_pos {c : Dev nD} {g : GSem nD τ sig} {u : Unit} (h : 0 < owedR c g u) : ∃ k, g = rcvCell k (dst k c) := by
  unfold owedR at h
  simp only [Pi.add_apply, Finsupp.add_apply, tallyAt_apply] at h
  by_contra hn
  have h1 : ∀ k, g ≠ rcvCell k (dst k c) := fun k hk => hn ⟨k, hk⟩
  rw [if_neg (fun h' => h1 2 h'.1), if_neg (fun h' => h1 1 h'.1), if_neg (fun h' => h1 0 h'.1)] at h
  exact Nat.lt_irrefl 0 h

/-- A cell device `c` owes something at launch is a peer's barrier cell or a peer's receive cell. -/
theorem O₀_pos {c : Dev nD} {g : GSem nD τ sig} {u : Unit} (h : 0 < O₀ c g u) :
    (∃ k, g = rcvCell k (dst k c)) ∨ (∃ k, g = barCell (dst k c)) := by
  unfold O₀ owedR at h
  simp only [Pi.add_apply, Finsupp.add_apply, tallyAt_apply] at h
  by_contra hn
  rw [not_or] at hn
  have h1 : ∀ k, g ≠ rcvCell k (dst k c) := fun k hk => hn.1 ⟨k, hk⟩
  have h2 : ∀ k, g ≠ barCell (dst k c) := fun k hk => hn.2 ⟨k, hk⟩
  rw [if_neg (fun h' => h1 2 h'.1), if_neg (fun h' => h1 1 h'.1), if_neg (fun h' => h1 0 h'.1),
    if_neg (fun h' => h2 2 h'.1), if_neg (fun h' => h2 1 h'.1), if_neg (fun h' => h2 0 h'.1)] at h
  exact Nat.lt_irrefl 0 h

omit [FloatOps F] in
/-- The level of a receive cell. -/
theorem lv_rcv (k : Fin 3) (c : Dev nD) : lv (rcvCell k c) () = 2 := by
  dsimp only [lv]; rw [if_neg (rcv_ne_bar k), if_pos (by revert k; decide)]
omit [FloatOps F] in
/-- The level of a barrier cell. -/
theorem lv_bar (c : Dev nD) : lv (barCell c) () = 1 := by dsimp only [lv]; rw [if_pos rfl]

omit [FloatOps F] in
/-- A wait on a DMA semaphore that is no receive semaphore (a staging cell's, a send cell's), owing what is owed at launch or nothing. -/
theorem mayWait_stage (c : Dev nD) (q : DmaSem sig) (hq : ¬ IsRcvSem (SemLoc.dma q : SemLoc sig)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨k, rfl⟩ | ⟨k, rfl⟩ <;> exact Finset.mem_singleton_self _)
      (fun p hp => by rw [Finset.mem_singleton.mp hp]; dsimp only [lv]; rw [if_neg (fun h => by cases h), if_neg hq])
      (fun g u hg => by
        rcases O₀_pos hg with ⟨k, rfl⟩ | ⟨k, rfl⟩
        · rw [lv_rcv]; decide
        · rw [lv_bar]; decide)
  · rw [MayWait_zero]; iintro -; iempintro

omit [FloatOps F] in
/-- At its barrier wait a device owes its peers' receive credit only: receive cells sit above barrier cells. -/
theorem mayWait_bar (c : Dev nD) :
    (levAts L lv : sProp 𝕄) ⊢ MayWait (c : Thread nD τ) (.reg barS) () (owedR c) :=
  MayOwe.of_cut (L := L) (lev := lv) 1 (fun p hp => by rw [Finset.mem_singleton.mp hp, L_tc]; exact Finset.mem_singleton_self _)
    (fun g u hg => by obtain ⟨k, rfl⟩ := owedR_pos hg; exact Finset.mem_singleton_self _)
    (fun p hp => by rw [Finset.mem_singleton.mp hp]; dsimp only [lv]; rw [if_pos rfl])
    (fun g u hg => by obtain ⟨k, rfl⟩ := owedR_pos hg; rw [lv_rcv]; decide)

end Cert.Kernel.A2a

end
-- ==== Proof.Bits.Blocks.lean ====
import proofs.«900655_g7700000000000656_dist_a2a_v7x_xyz2x4x4_y_m512_n512_bf16_1_alg».proof.Proof.Bits.Data
import Idealize.ShloMosaic.Lib.Pipeline.Value

/-!
# The row blocks of a result buffer and the slots of a send buffer, as sets and as values

The result buffer's index set is the disjoint union of four row blocks, one per position of the group; the send
buffer's of its three slots. A landing overwrites one row block with one slot; what it leaves there is what the
result holds there at the end.
-/

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The rows of a result buffer at position `y`: indices `(R, q)` with `R / 512 = y`. -/
def rowsAt (y : ℕ) : Finset S2048x512.Idx := Finset.univ.filter fun i => (i 0).val / 512 = y

theorem mem_rowsAt (y : ℕ) (i : S2048x512.Idx) : i ∈ rowsAt y ↔ (i 0).val / 512 = y := by
  unfold rowsAt; rw [Finset.mem_filter]; exact ⟨fun h => h.2, fun h => ⟨Finset.mem_univ _, h⟩⟩

/-- The unit-stride 512 × 512 rectangle at row offset `512 · y` is the row block at position `y`. -/
theorem unit_rows_set (off : Fin 2 → ℕ) (y : ℕ) (h : off = ![512 * y, 0])
    (inb : ∀ a, off a + S512x512.size a ≤ S2048x512.size a) :
    (Rect.unit (s := S2048x512) off S512x512.size inb).set = rowsAt y := by
  subst h
  ext i
  rw [Rect.mem_set_unit, mem_rowsAt]
  constructor
  · intro h
    have h0 := h 0
    have e0 : (![512 * y, 0] : Fin 2 → ℕ) 0 = 512 * y := rfl
    have s0 : S512x512.size 0 = 512 := rfl
    rw [e0, s0] at h0
    omega
  · intro h a
    have hi1 : (i 1).val < 512 := (i 1).isLt
    match a with
    | ⟨0, _⟩ =>
      show 512 * y ≤ (i 0).val ∧ (i 0).val < 512 * y + 512
      omega
    | ⟨1, _⟩ =>
      show 0 ≤ (i 1).val ∧ (i 1).val < 0 + 512
      omega

omit [FloatOps F] in
theorem oBlk_set (c : Dev nD) : ((oBlk c).view.set : Finset S2048x512.Idx) = rowsAt (yc c) := by
  show ((View.whole cc0_stg1_0 : View sig .tc _ _ _).slice _).set = _
  rw [View.set_slice_whole]
  exact unit_rows_set _ _ (off4_eq c) _
omit [FloatOps F] in
theorem oRect_set (c : Dev nD) : (((oM.access (oRect c) : View sig .tc _ _ _).set) : Finset S2048x512.Idx) = rowsAt (yc c) := by
  show ((View.whole cc0_stg1_0 : View sig .tc _ _ _).slice _).set = _
  rw [View.set_slice_whole]
  exact unit_rows_set _ _ (off3_eq c) _

omit [FloatOps F] in
/-- A points-to along two disjoint element sets, as an equation. -/
theorem pt_union_eq {ℓ : Loc nD τ sig} {I J : Finset (Idx ℓ)} {f : Buf (Elt F) ℓ} (h : Disjoint I J) :
    (ℓ ↦[I ∪ J]{fullShare} f : sProp 𝕄) = iprop((ℓ ↦[I]{fullShare} f) ∗ ℓ ↦[J]{fullShare} f) := by
  have hu : (ℓ ↦[I ∪ J]{fullShare} f : sProp 𝕄) ⊣⊢ iprop((ℓ ↦[I]{fullShare} f) ∗ ℓ ↦[J]{fullShare} f) := pointsTo_union h
  exact BI.equiv_iff.mp ⟨hu.1, hu.2⟩

/-- Row blocks at different positions share no index. -/
theorem rowsAt_disjoint {a b : ℕ} (h : a ≠ b) : Disjoint (rowsAt a) (rowsAt b) :=
  Finset.disjoint_left.mpr fun i ha hb => h (((mem_rowsAt a i).mp ha).symm.trans ((mem_rowsAt b i).mp hb))

/-- Four distinct positions below four exhaust the rows. -/
theorem rows4_univ (a b d e : ℕ) (ha : a < 4) (hb : b < 4) (hd : d < 4) (he : e < 4)
    (hab : a ≠ b) (had : a ≠ d) (hae : a ≠ e) (hbd : b ≠ d) (hbe : b ≠ e) (hde : d ≠ e) :
    (Finset.univ : Finset S2048x512.Idx) = rowsAt a ∪ (rowsAt b ∪ (rowsAt d ∪ rowsAt e)) := by
  ext i
  simp only [Finset.mem_univ, Finset.mem_union, mem_rowsAt, true_iff]
  have hi : (i 0).val < 2048 := (i 0).isLt
  omega

omit [FloatOps F] in
/-- The whole result buffer's points-to is the ∗ of the row blocks' at four distinct positions. -/
theorem rows4_eq (c : Dev nD) (f : Buf (Elt F) ((c : Thread nD τ).loc cc0_stg1_0)) (a b d e : ℕ)
    (ha : a < 4) (hb : b < 4) (hd : d < 4) (he : e < 4)
    (hab : a ≠ b) (had : a ≠ d) (hae : a ≠ e) (hbd : b ≠ d) (hbe : b ≠ e) (hde : d ≠ e) :
    (((c : Thread nD τ).loc cc0_stg1_0) ↦{fullShare} f : sProp 𝕄)
      = iprop((((c : Thread nD τ).loc cc0_stg1_0) ↦[rowsAt a]{fullShare} f)
          ∗ (((c : Thread nD τ).loc cc0_stg1_0) ↦[rowsAt b]{fullShare} f)
          ∗ (((c : Thread nD τ).loc cc0_stg1_0) ↦[rowsAt d]{fullShare} f)
          ∗ (((c : Thread nD τ).loc cc0_stg1_0) ↦[rowsAt e]{fullShare} f)) := by
  have h1 : Disjoint (rowsAt a) (rowsAt b ∪ (rowsAt d ∪ rowsAt e)) :=
    Finset.disjoint_union_right.mpr ⟨rowsAt_disjoint hab, Finset.disjoint_union_right.mpr ⟨rowsAt_disjoint had, rowsAt_disjoint hae⟩⟩
  have h2 : Disjoint (rowsAt b) (rowsAt d ∪ rowsAt e) :=
    Finset.disjoint_union_right.mpr ⟨rowsAt_disjoint hbd, rowsAt_disjoint hbe⟩
  have h3 : Disjoint (rowsAt d) (rowsAt e) := rowsAt_disjoint hde
  rw [show (((c : Thread nD τ).loc cc0_stg1_0) ↦{fullShare} f : sProp 𝕄)
      = (((c : Thread nD τ).loc cc0_stg1_0) ↦[rowsAt a ∪ (rowsAt b ∪ (rowsAt d ∪ rowsAt e))]{fullShare} f) from by
        rw [← rows4_univ a b d e ha hb hd he hab had hae hbd hbe hde]]
  rw [pt_union_eq h1, pt_union_eq h2, pt_union_eq h3]

omit [FloatOps F] in
/-- The whole result buffer of `c` cut into the block it keeps and the three it lends to its peers. -/
theorem out_split (c : Dev nD) (f : Buf (Elt F) ((c : Thread nD τ).loc cc0_stg1_0)) :
    (((c : Thread nD τ).loc cc0_stg1_0) ↦{fullShare} f : sProp 𝕄)
      ⊢ iprop((((c : Thread nD τ).loc cc0_stg1_0) ↦[(oM.access (oRect c) : View sig .tc _ _ _).set]{fullShare} f)
          ∗ (((c : Thread nD τ).loc cc0_stg1_0) ↦[(oBlk (dst 0 c)).view.set]{fullShare} f)
          ∗ (((c : Thread nD τ).loc cc0_stg1_0) ↦[(oBlk (dst 1 c)).view.set]{fullShare} f)
          ∗ (((c : Thread nD τ).loc cc0_stg1_0) ↦[(oBlk (dst 2 c)).view.set]{fullShare} f)) := by
  rw [oRect_set, oBlk_set, oBlk_set, oBlk_set]
  exact Entails.of_eq (rows4_eq c f _ _ _ _ (yc_lt _) (yc_lt _) (yc_lt _) (yc_lt _)
    (yc_dst_ne 0 c).symm (yc_dst_ne 1 c).symm (yc_dst_ne 2 c).symm
    (fun h => absurd (yc_dst_inj 0 1 c h) (by decide)) (fun h => absurd (yc_dst_inj 0 2 c h) (by decide))
    (fun h => absurd (yc_dst_inj 1 2 c h) (by decide)))

theorem yc_src_ne (k : Fin 3) (c : Dev nD) : yc (src k c) ≠ yc c := by revert k c; decide
theorem yc_src_inj (k k' : Fin 3) (c : Dev nD) (h : yc (src k c) = yc (src k' c)) : k = k' := by revert k k' c; decide

omit [FloatOps F] in
/-- The four blocks, the three lent ones come back from the peers whose transfers filled them, joined into the whole. -/
theorem out_join (c : Dev nD) (f : Buf (Elt F) ((c : Thread nD τ).loc cc0_stg1_0)) :
    iprop((((c : Thread nD τ).loc cc0_stg1_0) ↦[(oM.access (oRect c) : View sig .tc _ _ _).set]{fullShare} f)
          ∗ (((c : Thread nD τ).loc cc0_stg1_0) ↦[(oBlk (src 0 c)).view.set]{fullShare} f)
          ∗ (((c : Thread nD τ).loc cc0_stg1_0) ↦[(oBlk (src 1 c)).view.set]{fullShare} f)
          ∗ (((c : Thread nD τ).loc cc0_stg1_0) ↦[(oBlk (src 2 c)).view.set]{fullShare} f))
      ⊢ (((c : Thread nD τ).loc cc0_stg1_0) ↦{fullShare} f : sProp 𝕄) := by
  rw [oRect_set, oBlk_set, oBlk_set, oBlk_set]
  exact Entails.of_eq (rows4_eq c f _ _ _ _ (yc_lt _) (yc_lt _) (yc_lt _) (yc_lt _)
    (yc_src_ne 0 c).symm (yc_src_ne 1 c).symm (yc_src_ne 2 c).symm
    (fun h => absurd (yc_src_inj 0 1 c h) (by decide)) (fun h => absurd (yc_src_inj 0 2 c h) (by decide))
    (fun h => absurd (yc_src_inj 1 2 c h) (by decide))).symm

/-- Slot `k` of a send buffer: indices `(s, r, q)` with `s = k`. -/
def slotAt (k : ℕ) : Finset S3x512x512.Idx := Finset.univ.filter fun i => (i 0).val = k

theorem mem_slotAt (k : ℕ) (i : S3x512x512.Idx) : i ∈ slotAt k ↔ (i 0).val = k := by
  unfold slotAt; rw [Finset.mem_filter]; exact ⟨fun h => h.2, fun h => ⟨Finset.mem_univ _, h⟩⟩

/-- The unit-stride 1 × 512 × 512 rectangle at leading offset `k` is slot `k`. -/
theorem unit_slot_set (off : Fin 3 → ℕ) (k : ℕ) (h : off = ![k, 0, 0])
    (inb : ∀ a, off a + S1x512x512.size a ≤ S3x512x512.size a) :
    (Rect.unit (s := S3x512x512) off S1x512x512.size inb).set = slotAt k := by
  subst h
  ext i
  rw [Rect.mem_set_unit, mem_slotAt]
  constructor
  · intro h
    have h0 := h 0
    have e0 : (![k, 0, 0] : Fin 3 → ℕ) 0 = k := rfl
    have s0 : S1x512x512.size 0 = 1 := rfl
    rw [e0, s0] at h0
    omega
  · intro h a
    have hi1 : (i 1).val < 512 := (i 1).isLt
    have hi2 : (i 2).val < 512 := (i 2).isLt
    match a with
    | ⟨0, _⟩ =>
      show k ≤ (i 0).val ∧ (i 0).val < k + 1
      omega
    | ⟨1, _⟩ =>
      show 0 ≤ (i 1).val ∧ (i 1).val < 0 + 512
      omega
    | ⟨2, _⟩ =>
      show 0 ≤ (i 2).val ∧ (i 2).val < 0 + 512
      omega

omit [FloatOps F] in
theorem cSlot_set0 : ((cSlot 0).view.set : Finset S3x512x512.Idx) = slotAt 0 := by
  show (((View.whole cc0_scratch0 : View sig .tc _ _ _).slice _).reshape _ _).set = _
  rw [View.set_reshape, View.set_slice_whole]
  exact unit_slot_set _ 0 rfl _
omit [FloatOps F] in
theorem cSlot_set1 : ((cSlot 1).view.set : Finset S3x512x512.Idx) = slotAt 1 := by
  show (((View.whole cc0_scratch0 : View sig .tc _ _ _).slice _).reshape _ _).set = _
  rw [View.set_reshape, View.set_slice_whole]
  exact unit_slot_set _ 1 rfl _
omit [FloatOps F] in
theorem cSlot_set2 : ((cSlot 2).view.set : Finset S3x512x512.Idx) = slotAt 2 := by
  show (((View.whole cc0_scratch0 : View sig .tc _ _ _).slice _).reshape _ _).set = _
  rw [View.set_reshape, View.set_slice_whole]
  exact unit_slot_set _ 2 rfl _

theorem slotAt_disjoint {a b : ℕ} (h : a ≠ b) : Disjoint (slotAt a) (slotAt b) :=
  Finset.disjoint_left.mpr fun i ha hb => h (((mem_slotAt a i).mp ha).symm.trans ((mem_slotAt b i).mp hb))

theorem slots3_univ : (Finset.univ : Finset S3x512x512.Idx) = slotAt 0 ∪ (slotAt 1 ∪ slotAt 2) := by
  ext i
  simp only [Finset.mem_univ, Finset.mem_union, mem_slotAt, true_iff]
  have hi : (i 0).val < 3 := (i 0).isLt
  omega

omit [FloatOps F] in
/-- The send buffer cut into its three slots, and put together again. -/
theorem comm_split (c : Dev nD) (f : Buf (Elt F) ((c : Thread nD τ).loc cc0_scratch0)) :
    (((c : Thread nD τ).loc cc0_scratch0) ↦{fullShare} f : sProp 𝕄)
      ⊢ iprop((((c : Thread nD τ).loc cc0_scratch0) ↦[(cSlot 0).view.set]{fullShare} f)
          ∗ (((c : Thread nD τ).loc cc0_scratch0) ↦[(cSlot 1).view.set]{fullShare} f)
          ∗ (((c : Thread nD τ).loc cc0_scratch0) ↦[(cSlot 2).view.set]{fullShare} f)) := by
  rw [cSlot_set0, cSlot_set1, cSlot_set2]
  have h1 : Disjoint (slotAt 0) (slotAt 1 ∪ slotAt 2) :=
    Finset.disjoint_union_right.mpr ⟨slotAt_disjoint (by decide), slotAt_disjoint (by decide)⟩
  have h2 : Disjoint (slotAt 1) (slotAt 2) := slotAt_disjoint (by decide)
  rw [show (((c : Thread nD τ).loc cc0_scratch0) ↦{fullShare} f : sProp 𝕄)
      = (((c : Thread nD τ).loc cc0_scratch0) ↦[slotAt 0 ∪ (slotAt 1 ∪ slotAt 2)]{fullShare} f) from by rw [← slots3_univ]]
  rw [pt_union_eq h1, pt_union_eq h2]
omit [FloatOps F] in
theorem comm_join (c : Dev nD) (f0 f1 f2 : Buf (Elt F) ((c : Thread nD τ).loc cc0_scratch0)) :
    iprop((((c : Thread nD τ).loc cc0_scratch0) ↦[(cSlot 0).view.set]{fullShare} f0)
          ∗ (((c : Thread nD τ).loc cc0_scratch0) ↦[(cSlot 1).view.set]{fullShare} f1)
          ∗ (((c : Thread nD τ).loc cc0_scratch0) ↦[(cSlot 2).view.set]{fullShare} f2))
      ⊢ iprop(∃ f, (((c : Thread nD τ).loc cc0_scratch0) ↦{fullShare} f : sProp 𝕄)) := by
  rw [cSlot_set0, cSlot_set1, cSlot_set2]
  have h1 : Disjoint (slotAt 0) (slotAt 1 ∪ slotAt 2) :=
    Finset.disjoint_union_right.mpr ⟨slotAt_disjoint (by decide), slotAt_disjoint (by decide)⟩
  have h2 : Disjoint (slotAt 1) (slotAt 2) := slotAt_disjoint (by decide)
  refine (sep_mono_r (pointsTo_join h2)).trans ((pointsTo_join h1).trans ?_)
  rw [← slots3_univ]
  exact exists_intro (Φ := fun f => (((c : Thread nD τ).loc cc0_scratch0) ↦{fullShare} f : sProp 𝕄)) _

/-- Slot `k` of a send buffer's contents, read as a 512 × 512 block. -/
def slotRead (k : Fin 3) (f : (cc0_scratch0 : Ref sig .tc).ty.Contents (Elt F)) : S512x512.Idx → Elt F .bf16 :=
  match k with
  | 0 => (cSlot 0).view.read (Elt F) f
  | 1 => (cSlot 1).view.read (Elt F) f
  | 2 => (cSlot 2).view.read (Elt F) f

/-! ## Values -/

/-- The result at an index, from the coordinates of the element of the staged array it reads. -/
theorem outF_at (d c' : Dev nD) (i : S2048x512.Idx) (j : S512x2048.Idx)
    (hc : atY d ((i 0).val / 512) = c') (h0 : (j 0).val = (i 0).val % 512) (h1 : (j 1).val = 512 * yc d + (i 1).val) :
    outF m ρ d i = (FloatOps.truncf (F := F) .bf16 bitsLt_bf16_f32 ((xs m ρ c' : S512x2048.Idx → F .f32) j) : F .bf16) := by
  unfold outF
  rw [hc]
  refine congrArg _ (congrArg _ ?_)
  exact Shape.idx_ext₂ h0.symm h1.symm

/-- Entry `(y₀, y₁)` of the block at position `yc c` of device `d`'s result, `d` in `c`'s group: it reads entry
    `(y₀, 512 · yc d + y₁)` of `c`'s array. -/
theorem block_at (c d : Dev nD) (i : S2048x512.Idx) (j : S512x2048.Idx) (y : S512x512.Idx)
    (hd : atY d (yc c) = c)
    (hi0 : (i 0).val = 512 * yc c + (y 0).val) (hi1 : (i 1).val = (y 1).val)
    (hj0 : (j 0).val = (y 0).val) (hj1 : (j 1).val = 512 * yc d + (y 1).val) :
    outF m ρ d i = (FloatOps.truncf (F := F) .bf16 bitsLt_bf16_f32 ((xs m ρ c : S512x2048.Idx → F .f32) j) : F .bf16) := by
  have hy0 : (y 0).val < 512 := (y 0).isLt
  apply outF_at
  · rw [hi0, show (512 * yc c + (y 0).val) / 512 = yc c by omega, hd]
  · rw [hj0, hi0]; omega
  · rw [hj1, hi1]

/-- The narrowing store's payload at an index. -/
theorem pay4_at (v : Vec F S512x512 .f32) (y : S512x512.Idx) :
    (k0_pay4 v y : F .bf16) = FloatOps.truncf (F := F) .bf16 bitsLt_bf16_f32 (v y) := by
  show FloatOps.truncf (F := F) .bf16 _ (shapeCast S512x512 v shapeCasts_S512x512_S512x512 y) = _
  rw [shapeCast_self]

/-- What the device's own store leaves in its row block is what the result holds there. -/
theorem own_store_eq (c : Dev nD) (g0 : Buf (Elt F) ((c : Thread nD τ).loc cc0_stg1_0)) :
    ∀ i ∈ (oM.access (oRect c) : View sig .tc _ _ _).set,
      ((oM.access (oRect c) : View sig .tc _ _ _).write (Elt F) g0 (k0_pay4 (ldOwn m ρ c)) Finset.univ) i = outF m ρ c i := by
  intro i hi
  obtain ⟨y, rfl⟩ := View.exists_emb_of_mem_set _ hi
  rw [View.write_emb_of_mem _ _ (Finset.mem_univ y)]
  refine (cast_eq _ _).trans ?_
  rw [pay4_at]
  symm
  have e3 := off3_eq c
  have e2 := off2_eq c
  refine block_at m ρ c c _ ((Rect.unit (s := S512x2048) (k0_off2 c) S512x512.size (k0_off2_inb c)).toLoadRect.idx y) y (atY_yc c) ?_ ?_ ?_ ?_
  · show (k0_off3 c) 0 + 1 * (y 0).val = _
    rw [e3]; show 512 * yc c + 1 * (y 0).val = _; omega
  · show (k0_off3 c) 1 + 1 * (y 1).val = _
    rw [e3]; show 0 + 1 * (y 1).val = _; omega
  · show (k0_off2 c) 0 + 1 * (y 0).val = _
    rw [e2]; show 0 + 1 * (y 0).val = _; omega
  · show (k0_off2 c) 1 + 1 * (y 1).val = _
    rw [e2]; show 512 * yc c + 1 * (y 1).val = _; omega

omit [FloatOps F] in
theorem acc_set0 : ((cM.access cRect0 : View sig .tc _ _ _).set : Finset S3x512x512.Idx) = slotAt 0 := by
  show ((View.whole cc0_scratch0 : View sig .tc _ _ _).slice _).set = _
  rw [View.set_slice_whole]; exact unit_slot_set _ 0 rfl _
omit [FloatOps F] in
theorem acc_set1 : ((cM.access cRect1 : View sig .tc _ _ _).set : Finset S3x512x512.Idx) = slotAt 1 := by
  show ((View.whole cc0_scratch0 : View sig .tc _ _ _).slice _).set = _
  rw [View.set_slice_whole]; exact unit_slot_set _ 1 rfl _
omit [FloatOps F] in
theorem acc_set2 : ((cM.access cRect2 : View sig .tc _ _ _).set : Finset S3x512x512.Idx) = slotAt 2 := by
  show ((View.whole cc0_scratch0 : View sig .tc _ _ _).slice _).set = _
  rw [View.set_slice_whole]; exact unit_slot_set _ 2 rfl _

/-- A slot's payload read back as a 512 × 512 block: the narrowed load. -/
theorem pay_slot (p : Vec F S512x512 .f32) :
    shapeCast S512x512
        (shapeCast S1x512x512 (truncf .bf16 (shapeCast S512x512 p shapeCasts_S512x512_S512x512) bitsLt_bf16_f32 : FVec F S512x512 .bf16)
          shapeCasts_S512x512_S1x512x512) shapeCasts_S1x512x512_S512x512
      = (truncf .bf16 p bitsLt_bf16_f32 : FVec F S512x512 .bf16) := by
  rw [shapeCast_shapeCast, shapeCast_self]

/-- After the three stores, slot `k` of the send buffer reads as the narrowed column block for transfer `k`. -/
theorem slotRead_commAfter (c : Dev nD) (k : Fin 3) (f0 : (cc0_scratch0 : Ref sig .tc).ty.Contents (Elt F)) :
    slotRead k (commAfter m ρ c f0) = (truncf .bf16 (ld m ρ c k) bitsLt_bf16_f32 : FVec F S512x512 .bf16) := by
  have d01 : Disjoint ((cM.view.slice cRect0).set) ((cM.view.slice cRect1).setOn Finset.univ) := by
    show Disjoint (cM.access cRect0 : View sig .tc _ _ _).set (cM.access cRect1 : View sig .tc _ _ _).set
    rw [acc_set0, acc_set1]; exact slotAt_disjoint (by decide)
  have d02 : Disjoint ((cM.view.slice cRect0).set) ((cM.view.slice cRect2).setOn Finset.univ) := by
    show Disjoint (cM.access cRect0 : View sig .tc _ _ _).set (cM.access cRect2 : View sig .tc _ _ _).set
    rw [acc_set0, acc_set2]; exact slotAt_disjoint (by decide)
  have d12 : Disjoint ((cM.view.slice cRect1).set) ((cM.view.slice cRect2).setOn Finset.univ) := by
    show Disjoint (cM.access cRect1 : View sig .tc _ _ _).set (cM.access cRect2 : View sig .tc _ _ _).set
    rw [acc_set1, acc_set2]; exact slotAt_disjoint (by decide)
  match k with
  | 0 =>
    show shapeCast S512x512 ((cM.view.slice cRect0).read (Elt F) (commAfter m ρ c f0)) shapeCasts_S1x512x512_S512x512 = _
    unfold commAfter
    rw [View.read_slice_write_slice_of_disjoint cRect0 cRect2 _ _ _ d02,
      View.read_slice_write_slice_of_disjoint cRect0 cRect1 _ _ _ d01, View.read_write_univ]
    exact pay_slot _
  | 1 =>
    show shapeCast S512x512 ((cM.view.slice cRect1).read (Elt F) (commAfter m ρ c f0)) shapeCasts_S1x512x512_S512x512 = _
    unfold commAfter
    rw [View.read_slice_write_slice_of_disjoint cRect1 cRect2 _ _ _ d12, View.read_write_univ]
    exact pay_slot _
  | 2 =>
    show shapeCast S512x512 ((cM.view.slice cRect2).read (Elt F) (commAfter m ρ c f0)) shapeCasts_S1x512x512_S512x512 = _
    unfold commAfter
    rw [View.read_write_univ]
    exact pay_slot _

/-- What transfer `k` of device `c` leaves in the row block at `c`'s position of its target's result buffer is what
    that result holds there: slot `k` of `c`'s send buffer after the three stores. -/
theorem landing_eq (c : Dev nD) (k : Fin 3) (fd : Buf (Elt F) (((dst k c : Dev nD) : Thread nD τ).loc cc0_stg1_0))
    (f0 : Buf (Elt F) ((c : Thread nD τ).loc cc0_scratch0)) :
    ∀ i ∈ (oBlk c).view.set,
      ((oBlk c).view.write (Elt F) fd (slotRead k (commAfter m ρ c f0)) Finset.univ) i = outF m ρ (dst k c) i := by
  intro i hi
  obtain ⟨y, rfl⟩ := View.exists_emb_of_mem_set _ hi
  rw [View.write_emb_of_mem _ _ (Finset.mem_univ y)]
  refine (cast_eq _ _).trans ?_
  rw [slotRead_commAfter]
  show FloatOps.truncf (F := F) .bf16 bitsLt_bf16_f32 (ld m ρ c k y) = _
  symm
  have e4 := off4_eq c
  have e1 := off1_eq c k
  refine block_at m ρ c (dst k c) _
    ((Rect.unit (s := S512x2048) (k0_off1 c (BitVec.ofNat 32 (1 + k.val))) S512x512.size (k0_off1_inb c k)).toLoadRect.idx y) y
    ((atY_dst k c _).trans (atY_yc c)) ?_ ?_ ?_ ?_
  · show (k0_off4 c) 0 + 1 * (y 0).val = _
    rw [e4]; show 512 * yc c + 1 * (y 0).val = _; omega
  · show (k0_off4 c) 1 + 1 * (y 1).val = _
    rw [e4]; show 0 + 1 * (y 1).val = _; omega
  · show (k0_off1 c (BitVec.ofNat 32 (1 + k.val))) 0 + 1 * (y 0).val = _
    rw [e1]; show 0 + 1 * (y 0).val = _; omega
  · show (k0_off1 c (BitVec.ofNat 32 (1 + k.val))) 1 + 1 * (y 1).val = _
    rw [e1]; show 512 * yc (dst k c) + 1 * (y 1).val = _; omega

end Cert.Kernel.A2a

end
-- ==== Proof.Bits.BodyRun.lean ====
import proofs.«900655_g7700000000000656_dist_a2a_v7x_xyz2x4x4_y_m512_n512_bf16_1_alg».proof.Proof.Bits.Levels
import proofs.«900655_g7700000000000656_dist_a2a_v7x_xyz2x4x4_y_m512_n512_bf16_1_alg».proof.Proof.Bits.Blocks
import Idealize.ShloMosaic.Lib.Exec

/-!
# One device's body, run

From what the launch deals a device — the invariants of every cell, its positions, the tokens of the nine duties
it pays, the credit for what its peers owe its cells, its staged array, its result buffer and its send buffer —
the body runs to the end: the three signals each lend a peer one row block of the result buffer; the narrowing
stores fill the send buffer and the kept row block; the barrier wait returns the peers' row blocks; the three
transfers pay the peers' receive duties with those blocks overwritten by the slots; the receive waits return the
lent row blocks filled; the send waits return the slots.
-/

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

section Body

variable (K : Dev nD × Fin 7 → ℕ)

theorem inv_at (ck : Dev nD × Fin 7) :
    (bigSep Finset.univ fun ck : Dev nD × Fin 7 => (cellInv ER (a2aRd m ρ) (K ck) (kcell ck) : sProp 𝕄)) ⊢ cellInv ER (a2aRd m ρ) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

theorem inv_bar (c' : Dev nD) :
    (bigSep Finset.univ fun ck : Dev nD × Fin 7 => (cellInv ER (a2aRd m ρ) (K ck) (kcell ck) : sProp 𝕄)) ⊢ cellInv ER (a2aRd m ρ) (K (c', 0)) (barCell c') :=
  inv_at m ρ K (c', 0)
theorem inv_snd (k : Fin 3) (c' : Dev nD) :
    (bigSep Finset.univ fun ck : Dev nD × Fin 7 => (cellInv ER (a2aRd m ρ) (K ck) (kcell ck) : sProp 𝕄)) ⊢ cellInv ER (a2aRd m ρ) (K (c', sndIx k)) (sndCell k c') := by
  have h := inv_at m ρ K (c', sndIx k); rwa [kcell_snd] at h
theorem inv_rcv (k : Fin 3) (c' : Dev nD) :
    (bigSep Finset.univ fun ck : Dev nD × Fin 7 => (cellInv ER (a2aRd m ρ) (K ck) (kcell ck) : sProp 𝕄)) ⊢ cellInv ER (a2aRd m ρ) (K (c', rcvIx k)) (rcvCell k c') := by
  have h := inv_at m ρ K (c', rcvIx k); rwa [kcell_rcv] at h
omit [FloatOps F] in
theorem reached_bar (c' : Dev nD) :
    (bigSep Finset.univ fun ck : Dev nD × Fin 7 => (reached ER (kcell ck) 0 : sProp 𝕄)) ⊢ reached ER (barCell c') 0 :=
  reached_at (c', 0)
omit [FloatOps F] in
theorem reached_snd (k : Fin 3) (c' : Dev nD) :
    (bigSep Finset.univ fun ck : Dev nD × Fin 7 => (reached ER (kcell ck) 0 : sProp 𝕄)) ⊢ reached ER (sndCell k c') 0 := by
  have h := reached_at (F := F) (c', sndIx k); rwa [kcell_snd] at h
omit [FloatOps F] in
theorem reached_rcv (k : Fin 3) (c' : Dev nD) :
    (bigSep Finset.univ fun ck : Dev nD × Fin 7 => (reached ER (kcell ck) 0 : sProp 𝕄)) ⊢ reached ER (rcvCell k c') 0 := by
  have h := reached_at (F := F) (c', rcvIx k); rwa [kcell_rcv] at h

omit [FloatOps F] in
/-- The result buffer cut in four, each lent block spelt through the view a peer's transfer writes it by. -/
theorem out_split' (c : Dev nD) (f : Buf (Elt F) ((c : Thread nD τ).loc cc0_stg1_0)) :
    (((c : Thread nD τ).loc cc0_stg1_0) ↦{fullShare} f : sProp 𝕄)
      ⊢ iprop((((c : Thread nD τ).loc cc0_stg1_0) ↦[(oM.access (oRect c) : View sig .tc _ _ _).set]{fullShare} f)
          ∗ ((oBlk (dst 0 c)).view.loc (c : Thread nD τ) ↦[(oBlk (dst 0 c)).view.set]{fullShare} f)
          ∗ ((oBlk (dst 1 c)).view.loc (c : Thread nD τ) ↦[(oBlk (dst 1 c)).view.set]{fullShare} f)
          ∗ ((oBlk (dst 2 c)).view.loc (c : Thread nD τ) ↦[(oBlk (dst 2 c)).view.set]{fullShare} f)) :=
  out_split c f

omit [FloatOps F] in
theorem xPts_eq (c : Dev nD) (f : Buf (Elt F) ((c : Thread nD τ).loc cc0_stg0_0)) :
    (xM.view.loc (c : Thread nD τ) ↦[xM.view.set]{fullShare} f : sProp 𝕄) = (((c : Thread nD τ).loc cc0_stg0_0) ↦{fullShare} f : sProp 𝕄) := by
  rw [View.set_whole]
/-- The kept row block, as a slice of the result buffer. -/
abbrev oOwn (c : Dev nD) : Memref sig .tc .vmem S512x512 .bf16 := oM.slice (oRect c) (fun _ => rfl)

/-- The duty a device pays with signal `k`, as the target's barrier cell states it: the row block at the target's
    position of the signaller's own result buffer. -/
theorem payload_bar_dst (k : Fin 3) (c : Dev nD) :
    (a2aRd m ρ).payload (barCell (dst k c)) 0 (rev k)
      = iprop(∃ f, (oBlk (dst k c)).view.loc (c : Thread nD τ) ↦[(oBlk (dst k c)).view.set]{fullShare} f) := by
  rw [payload_bar]; unfold barPay; rw [dst_rev]
/-- The duty its transfer `k` pays on the target's receive cell: the row block at its own position, holding what the
    target's result holds there. -/
theorem payload_rcv_dst (k : Fin 3) (c : Dev nD) (d : Fin 3) :
    (a2aRd m ρ).payload (rcvCell k (dst k c)) 0 d
      = ((oBlk c).view.loc ((dst k c : Dev nD) : Thread nD τ) ↦[(oBlk c).view.set]{fullShare} outF m ρ (dst k c) : sProp 𝕄) := by
  rw [payload_rcv]; unfold rcvPay; rw [src_dst]

/-- Transfer `k`, addressed to `n = dst k c`: slot `k` goes out, the target's row block at `c`'s position is overwritten
    with it, and what lands is what the target's result holds there. -/
theorem wp_send_a2a (k : Fin 3) (c n : Dev nD) (hn : n = dst k c)
    {hsc : ((oBlk c : Memref sig (Dev.tc n : Thread nD τ).2.kind .vmem S512x512 .bf16)).view.ref.isScScratch = false}
    {hsrc : (cSlot k).view.WordExact} {hdst : (oBlk c).view.WordExact}
    {hsem : DmaTarget.Typed .vmem (.dma (rcvS k).sem) (.remote (Dev.tc n : Thread nD τ) (oBlk c) (.dma (sndS k).sem) hsc)}
    {α : Type} {Q : α → sProp 𝕄} {kk : PUnit → Prog (TpuEff nD τ sig (Elt F) Λ₀ .tc) α}
    (fs : Buf (Elt F) ((cSlot k).view.loc (c : Thread nD τ))) (fn : Buf (Elt F) ((oBlk c).view.loc ((dst k c : Dev nD) : Thread nD τ)))
    (O : CellTallies nD τ sig Unit) (W : Waits sig Unit)
    (hval : ∀ i ∈ (oBlk c).view.set, ((oBlk c).view.write (Elt F) fn ((cSlot k).view.read (Elt F) fs) Finset.univ) i = outF m ρ (dst k c) i) :
    iprop(cellInv ER (a2aRd m ρ) (K (c, sndIx k)) (sndCell k c) ∗ cellInv ER (a2aRd m ρ) (K (dst k c, rcvIx k)) (rcvCell k (dst k c))
        ∗ ((cSlot k).view.loc (c : Thread nD τ) ↦[(cSlot k).view.set]{fullShare} fs)
        ∗ ((oBlk c).view.loc ((dst k c : Dev nD) : Thread nD τ) ↦[(oBlk c).view.set]{fullShare} fn)
        ∗ owes (c : Thread nD τ) (O + tallyAt (rcvCell k (dst k c)) () N) W
        ∗ dutyTok ER (sndCell k c) 0 0 ∗ reached ER (sndCell k c) 0
        ∗ dutyTok ER (rcvCell k (dst k c)) 0 0 ∗ reached ER (rcvCell k (dst k c)) 0)
      ⊢ iprop(((cred (tallyAt (sndCell k c) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (cSlot k) (.remote (Dev.tc n : Thread nD τ) (oBlk c) (.dma (sndS k).sem) hsc) (.dma (rcvS k).sem) hsrc hdst hsem) kk) Q) := by
  subst hn
  exact Rounds.wp_send_pointsTo 𝒱₀ ER (a2aRd m ρ) (c : Thread nD τ) none (κ₁ := K (c, sndIx k)) (κ₂ := K (dst k c, rcvIx k))
    (r₁ := 0) (r₂ := 0) (d₁ := 0) (d₂ := 0) (fd := fn)
    (by rw [duties_snd]; exact Finset.mem_singleton_self _) (by rw [duties_rcv]; exact Finset.mem_singleton_self _)
    () () N rfl (amount_snd m ρ c k 0) (amount_rcv m ρ (dst k c) k 0) O rfl (W := W)
    (by rw [payload_snd]; unfold sndPay; iintro H; iexists fs; iexact H)
    (by rw [payload_rcv_dst]; exact Entails.of_eq (pointsTo_congr hval))

omit [FloatOps F] in
/-- The send buffer cut into its three slots, each spelt through the view its transfer reads it by. -/
theorem comm_split' (c : Dev nD) (f : Buf (Elt F) ((c : Thread nD τ).loc cc0_scratch0)) :
    (cM.view.loc (c : Thread nD τ) ↦[cM.view.set]{fullShare} f : sProp 𝕄)
      ⊢ iprop(((cSlot 0).view.loc (c : Thread nD τ) ↦[(cSlot 0).view.set]{fullShare} f)
          ∗ ((cSlot 1).view.loc (c : Thread nD τ) ↦[(cSlot 1).view.set]{fullShare} f)
          ∗ ((cSlot 2).view.loc (c : Thread nD τ) ↦[(cSlot 2).view.set]{fullShare} f)) := by
  rw [View.set_whole]; exact comm_split c f

/-- The whole of a send cell's round: its slot. -/
theorem pay_snd (c : Dev nD) (k : Fin 3) :
    bigSep ((a2aRd (F := F) m ρ).duties (sndCell k c) 0) (fun d => (a2aRd (F := F) m ρ).payload (sndCell k c) 0 d) = sndPay k c := by
  rw [duties_snd, bigSep_singleton, payload_snd]

attribute [local sl_rounds] duties_bar duties_snd duties_rcv amount_bar amount_snd amount_rcv expect_bar expect_snd expect_rcv
  payload_bar_dst payload_rcv_dst payload_snd
attribute [local irreducible] k0_off1 k0_off2 k0_off3 k0_off4 k0_off5 k0_dev1 k0_dev2 k0_dev3 k0_dev4 k0_dev5 k0_dev6 dst src sh yc rev
attribute [local sl_canon] dev1_eq dev2_eq dev3_eq dev4_eq dev5_eq dev6_eq

set_option maxHeartbeats 1600000 in
/-- The body, symbolically executed from `bodyPre` to `bodyPost`. -/
theorem sound_body' (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  unfold bodyPre ghost records positions payToks creds
  iintro ⟨⟨⟨⟨⟨#HI, #HR⟩, ⟨HatB, ⟨HatS0, HatS1, HatS2⟩, ⟨HatV0, HatV1, HatV2⟩⟩, Ht0, Ht1, Ht2⟩,
    ⟨HcB, HcV0, HcV1, HcV2⟩, #Hlev, ⟨%f0, Hscr⟩⟩, Ho, ⟨%d0, %g0, %hg0, Hx⟩, ⟨%d1, %g1, %hg1, Hout⟩⟩, Hk⟩
  have hx : g0 = xs m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ owedR
  ihave #HIB0 := (inv_bar m ρ K (dst 0 c)) $$ HI
  ihave #HIB1 := (inv_bar m ρ K (dst 1 c)) $$ HI
  ihave #HIB2 := (inv_bar m ρ K (dst 2 c)) $$ HI
  ihave #HRB0 := (reached_bar (F := F) (dst 0 c)) $$ HR
  ihave #HRB1 := (reached_bar (F := F) (dst 1 c)) $$ HR
  ihave #HRB2 := (reached_bar (F := F) (dst 2 c)) $$ HR
  ihave Hout4 := (out_split (F := F) c g1) $$ Hout
  icases Hout4 with ⟨Hown, Hb0, Hb1, Hb2⟩
  ihave Hx := (Entails.of_eq (xPts_eq (F := F) c _).symm) $$ Hx
  unfold cPts
  ihave Hown : ((oOwn c).view.loc (c : Thread nD τ) ↦[(oOwn c).view.set]{fullShare} g1 : sProp 𝕄) $$ [Hown]
  · iexact Hown
  sl_unfold [cc0_body]
  set_option sl_exec.maxSteps 3 in sl_exec
  -- signal 0: lends the peer at transfer 0's target the row block at that peer's position
  icases Ht0 with ⟨HtB0, HtVS0⟩
  iapply (Rounds.wp_signal 𝒱₀ ER (a2aRd m ρ) (c : Thread nD τ) none (dst := ((dst 0 c : Dev nD) : Thread nD τ)) (κ := K (dst 0 c, 0))
      (d := rev 0) (by rw [duties_bar]; exact Finset.mem_univ _) ((amount_bar m ρ (dst 0 c) (rev 0)).trans (by decide)) ()
      (tallyAt (rcvCell 2 (dst 2 c)) () N + tallyAt (rcvCell 1 (dst 1 c)) () N + tallyAt (rcvCell 0 (dst 0 c)) () N +
          tallyAt (barCell (dst 2 c)) () 1 + tallyAt (barCell (dst 1 c)) () 1) rfl)
    $$ [HO HtB0 Hb0]
  · isplitr; · iexact HIB0
    isplitl [HO]; · iexact HO
    isplitl [HtB0]; · iexact HtB0
    isplitl [Hb0]; · rw [payload_bar_dst]; iexists g1; iexact Hb0
    iexact HRB0
  iintro HO
  sl_exec
  -- signal 1
  icases Ht1 with ⟨HtB1, HtVS1⟩
  iapply (Rounds.wp_signal 𝒱₀ ER (a2aRd m ρ) (c : Thread nD τ) none (dst := ((dst 1 c : Dev nD) : Thread nD τ)) (κ := K (dst 1 c, 0))
      (d := rev 1) (by rw [duties_bar]; exact Finset.mem_univ _) ((amount_bar m ρ (dst 1 c) (rev 1)).trans (by decide)) ()
      (tallyAt (rcvCell 2 (dst 2 c)) () N + tallyAt (rcvCell 1 (dst 1 c)) () N + tallyAt (rcvCell 0 (dst 0 c)) () N +
          tallyAt (barCell (dst 2 c)) () 1) rfl)
    $$ [HO HtB1 Hb1]
  · isplitr; · iexact HIB1
    isplitl [HO]; · iexact HO
    isplitl [HtB1]; · iexact HtB1
    isplitl [Hb1]; · rw [payload_bar_dst]; iexists g1; iexact Hb1
    iexact HRB1
  iintro HO
  sl_exec
  -- signal 2
  icases Ht2 with ⟨HtB2, HtVS2⟩
  iapply (Rounds.wp_signal 𝒱₀ ER (a2aRd m ρ) (c : Thread nD τ) none (dst := ((dst 2 c : Dev nD) : Thread nD τ)) (κ := K (dst 2 c, 0))
      (d := rev 2) (by rw [duties_bar]; exact Finset.mem_univ _) ((amount_bar m ρ (dst 2 c) (rev 2)).trans (by decide)) ()
      (tallyAt (rcvCell 2 (dst 2 c)) () N + tallyAt (rcvCell 1 (dst 1 c)) () N + tallyAt (rcvCell 0 (dst 0 c)) () N) rfl)
    $$ [HO HtB2 Hb2]
  · isplitr; · iexact HIB2
    isplitl [HO]; · iexact HO
    isplitl [HtB2]; · iexact HtB2
    isplitl [Hb2]; · rw [payload_bar_dst]; iexists g1; iexact Hb2
    iexact HRB2
  iintro HO
  sl_exec
  -- the wait for 3 on its own barrier cell, owing the receive credit: the peers' row blocks come with it
  ihave #HIBc := (inv_bar m ρ K c) $$ HI
  iapply (Rounds.wp_wait_rest_token 𝒱₀ ER (a2aRd m ρ) (c : Thread nD τ) none (κ := K (c, 0))
      (wpE_semWait_eq 𝒱₀ (c : Thread nD τ) none Set.univ) (Set.mem_univ _) () (O := owedR c) (W := W) (R := 0) (m := 0) (T := ∅)
      (by rw [expect_bar]; decide)) $$ [HcB HO HatB]
  · isplitr; · iexact HIBc
    isplitl [HcB]; · iexact HcB
    isplitl [HO]; · iexact HO
    isplitr; · iapply (mayWait_bar (F := F) c); iexact Hlev
    iexact HatB
  iintro ⟨HO, HatB, -, Hpay⟩
  ihave Hp := (Entails.of_eq (rest_bar m ρ c)) $$ Hpay
  unfold barPay
  icases Hp with ⟨⟨%fn0, Hn0⟩, ⟨%fn1, Hn1⟩, ⟨%fn2, Hn2⟩⟩
  sl_exec
  -- the send buffer after the three stores, cut into its slots
  ihave Hscr : (cM.view.loc (c : Thread nD τ) ↦[cM.view.set]{fullShare} commAfter m ρ c f0 : sProp 𝕄) $$ [Hscr]
  · iexact Hscr
  ihave Hsl := (comm_split' (F := F) c (commAfter m ρ c f0)) $$ Hscr
  icases Hsl with ⟨Hs0, Hs1, Hs2⟩
  unfold owedR
  -- transfer 0
  ihave #HIS0 := (inv_snd m ρ K 0 c) $$ HI
  ihave #HIV0 := (inv_rcv m ρ K 0 (dst 0 c)) $$ HI
  ihave #HRS0 := (reached_snd (F := F) 0 c) $$ HR
  ihave #HRV0 := (reached_rcv (F := F) 0 (dst 0 c)) $$ HR
  icases HtVS0 with ⟨HtV0, HtS0⟩
  iapply (wp_send_a2a m ρ K 0 c _ (dev4_eq c) (commAfter m ρ c f0) fn0
      (tallyAt (rcvCell 2 (dst 2 c)) () N + tallyAt (rcvCell 1 (dst 1 c)) () N) _ (landing_eq m ρ c 0 fn0 f0)) $$ [Hs0 Hn0 HO HtS0 HtV0]
  · isplitr; · iexact HIS0
    isplitr; · iexact HIV0
    isplitl [Hs0]; · iexact Hs0
    isplitl [Hn0]; · iexact Hn0
    isplitl [HO]; · iexact HO
    isplitl [HtS0]; · iexact HtS0
    isplitr; · iexact HRS0
    isplitl [HtV0]; · iexact HtV0
    iexact HRV0
  iintro ⟨HcS0, HO⟩
  sl_exec
  -- transfer 1
  ihave #HIS1 := (inv_snd m ρ K 1 c) $$ HI
  ihave #HIV1 := (inv_rcv m ρ K 1 (dst 1 c)) $$ HI
  ihave #HRS1 := (reached_snd (F := F) 1 c) $$ HR
  ihave #HRV1 := (reached_rcv (F := F) 1 (dst 1 c)) $$ HR
  icases HtVS1 with ⟨HtV1, HtS1⟩
  iapply (wp_send_a2a m ρ K 1 c _ (dev5_eq c) (commAfter m ρ c f0) fn1
      (tallyAt (rcvCell 2 (dst 2 c)) () N) _ (landing_eq m ρ c 1 fn1 f0)) $$ [Hs1 Hn1 HO HtS1 HtV1]
  · isplitr; · iexact HIS1
    isplitr; · iexact HIV1
    isplitl [Hs1]; · iexact Hs1
    isplitl [Hn1]; · iexact Hn1
    isplitl [HO]; · iexact HO
    isplitl [HtS1]; · iexact HtS1
    isplitr; · iexact HRS1
    isplitl [HtV1]; · iexact HtV1
    iexact HRV1
  iintro ⟨HcS1, HO⟩
  sl_exec
  rw [show tallyAt (rcvCell 2 (dst 2 c)) () N = (0 : CellTallies nD τ sig Unit) + tallyAt (rcvCell 2 (dst 2 c)) () N from (zero_add _).symm]
  -- transfer 2
  ihave #HIS2 := (inv_snd m ρ K 2 c) $$ HI
  ihave #HIV2 := (inv_rcv m ρ K 2 (dst 2 c)) $$ HI
  ihave #HRS2 := (reached_snd (F := F) 2 c) $$ HR
  ihave #HRV2 := (reached_rcv (F := F) 2 (dst 2 c)) $$ HR
  icases HtVS2 with ⟨HtV2, HtS2⟩
  iapply (wp_send_a2a m ρ K 2 c _ (dev6_eq c) (commAfter m ρ c f0) fn2
      0 _ (landing_eq m ρ c 2 fn2 f0)) $$ [Hs2 Hn2 HO HtS2 HtV2]
  · isplitr; · iexact HIS2
    isplitr; · iexact HIV2
    isplitl [Hs2]; · iexact Hs2
    isplitl [Hn2]; · iexact Hn2
    isplitl [HO]; · iexact HO
    isplitl [HtS2]; · iexact HtS2
    isplitr; · iexact HRS2
    isplitl [HtV2]; · iexact HtV2
    iexact HRV2
  iintro ⟨HcS2, HO⟩
  sl_exec
  -- the wait on receive cell 0: the row block lent to the device 1 places before comes back filled
  ihave #HIVc0 := (inv_rcv m ρ K 0 c) $$ HI
  iapply (Rounds.wp_wait_rest_token 𝒱₀ ER (a2aRd m ρ) (c : Thread nD τ) none (κ := K (c, rcvIx 0))
      (wpE_waitDma2_eq 𝒱₀ (c : Thread nD τ) none Set.univ) (Set.mem_univ _) () (O := 0) (R := 0) (m := 0) (T := ∅)
      (by rw [Nat.zero_add]; exact (expect_rcv m ρ c 0).symm)) $$ [HcV0 HO HatV0]
  · isplitr; · iexact HIVc0
    isplitl [HcV0]; · iexact HcV0
    isplitl [HO]; · iexact HO
    isplitr; · rw [MayWait_zero]; iempintro
    iexact HatV0
  iintro ⟨HO, HatV0, -, Hpay⟩
  ihave Hr0 := (Entails.of_eq (rest_rcv m ρ c 0)) $$ Hpay
  sl_exec
  -- the wait on receive cell 1: the row block lent to the device 2 places before comes back filled
  ihave #HIVc1 := (inv_rcv m ρ K 1 c) $$ HI
  iapply (Rounds.wp_wait_rest_token 𝒱₀ ER (a2aRd m ρ) (c : Thread nD τ) none (κ := K (c, rcvIx 1))
      (wpE_waitDma2_eq 𝒱₀ (c : Thread nD τ) none Set.univ) (Set.mem_univ _) () (O := 0) (R := 0) (m := 0) (T := ∅)
      (by rw [Nat.zero_add]; exact (expect_rcv m ρ c 1).symm)) $$ [HcV1 HO HatV1]
  · isplitr; · iexact HIVc1
    isplitl [HcV1]; · iexact HcV1
    isplitl [HO]; · iexact HO
    isplitr; · rw [MayWait_zero]; iempintro
    iexact HatV1
  iintro ⟨HO, HatV1, -, Hpay⟩
  ihave Hr1 := (Entails.of_eq (rest_rcv m ρ c 1)) $$ Hpay
  sl_exec
  -- the wait on receive cell 2: the row block lent to the device 3 places before comes back filled
  ihave #HIVc2 := (inv_rcv m ρ K 2 c) $$ HI
  iapply (Rounds.wp_wait_rest_token 𝒱₀ ER (a2aRd m ρ) (c : Thread nD τ) none (κ := K (c, rcvIx 2))
      (wpE_waitDma2_eq 𝒱₀ (c : Thread nD τ) none Set.univ) (Set.mem_univ _) () (O := 0) (R := 0) (m := 0) (T := ∅)
      (by rw [Nat.zero_add]; exact (expect_rcv m ρ c 2).symm)) $$ [HcV2 HO HatV2]
  · isplitr; · iexact HIVc2
    isplitl [HcV2]; · iexact HcV2
    isplitl [HO]; · iexact HO
    isplitr; · rw [MayWait_zero]; iempintro
    iexact HatV2
  iintro ⟨HO, HatV2, -, Hpay⟩
  ihave Hr2 := (Entails.of_eq (rest_rcv m ρ c 2)) $$ Hpay
  sl_exec
  -- the six own cells close: their counters at zero are the device's again
  imod (Rounds.cell_close ER (a2aRd m ρ) (Set.mem_univ (K (c, sndIx 0))) (fun h => h) (R := 1) (duties_later m ρ (sndCell 0 c))) $$ [HatS0] with HzS0
  · isplitr; · iexact HIS0
    iexact HatS0
  imod (Rounds.cell_close ER (a2aRd m ρ) (Set.mem_univ (K (c, sndIx 1))) (fun h => h) (R := 1) (duties_later m ρ (sndCell 1 c))) $$ [HatS1] with HzS1
  · isplitr; · iexact HIS1
    iexact HatS1
  imod (Rounds.cell_close ER (a2aRd m ρ) (Set.mem_univ (K (c, sndIx 2))) (fun h => h) (R := 1) (duties_later m ρ (sndCell 2 c))) $$ [HatS2] with HzS2
  · isplitr; · iexact HIS2
    iexact HatS2
  imod (Rounds.cell_close ER (a2aRd m ρ) (Set.mem_univ (K (c, rcvIx 0))) (fun h => h) (R := 0 + 1) (duties_later m ρ (rcvCell 0 c))) $$ [HatV0] with HzV0
  · isplitr; · iexact HIVc0
    iexact HatV0
  imod (Rounds.cell_close ER (a2aRd m ρ) (Set.mem_univ (K (c, rcvIx 1))) (fun h => h) (R := 0 + 1) (duties_later m ρ (rcvCell 1 c))) $$ [HatV1] with HzV1
  · isplitr; · iexact HIVc1
    iexact HatV1
  imod (Rounds.cell_close ER (a2aRd m ρ) (Set.mem_univ (K (c, rcvIx 2))) (fun h => h) (R := 0 + 1) (duties_later m ρ (rcvCell 2 c))) $$ [HatV2] with HzV2
  · isplitr; · iexact HIVc2
    iexact HatV2
  rw [wp_ret]; imodintro
  iapply Hk
  unfold bodyPost Φ₁ ownZero Dat.owesAt Pipeline.owesWithin
  rw [show (dats m ρ 0 c).owed t₀.succ = 0 from rfl]
  -- the send buffer's three slots back together
  ihave Hq0 := (Entails.of_eq (pay_snd m ρ c 0)) $$ HatS0_pay1
  ihave Hq1 := (Entails.of_eq (pay_snd m ρ c 1)) $$ HatS1_pay1
  ihave Hq2 := (Entails.of_eq (pay_snd m ρ c 2)) $$ HatS2_pay1
  unfold sndPay
  icases Hq0 with ⟨%q0, Hq0⟩
  icases Hq1 with ⟨%q1, Hq1⟩
  icases Hq2 with ⟨%q2, Hq2⟩
  ihave Hc := (comm_join (F := F) c q0 q1 q2) $$ [Hq0 Hq1 Hq2]
  · isplitl [Hq0]; · iexact Hq0
    isplitl [Hq1]; · iexact Hq1
    iexact Hq2
  icases Hc with ⟨%fc, Hc⟩
  -- the result buffer's four row blocks back together: the kept one as stored, the lent ones as the peers' transfers filled them
  ihave Hown : (((c : Thread nD τ).loc cc0_stg1_0) ↦[(oM.access (oRect c) : View sig .tc _ _ _).set]{fullShare}
      ((oM.access (oRect c) : View sig .tc _ _ _).write (Elt F) g1 (k0_pay4 (ldOwn m ρ c)) Finset.univ) : sProp 𝕄) $$ [Hown]
  · iexact Hown
  ihave Hown := (Entails.of_eq (pointsTo_congr (own_store_eq m ρ c g1))) $$ Hown
  unfold rcvPay
  ihave Hout := (out_join (F := F) c (outF m ρ c)) $$ [Hown Hr0 Hr1 Hr2]
  · isplitl [Hown]; · iexact Hown
    isplitl [Hr0]; · iexact Hr0
    isplitl [Hr1]; · iexact Hr1
    iexact Hr2
  ihave Hx := (Entails.of_eq (xPts_eq (F := F) c _)) $$ Hx
  isplitl [Hc HzS0 HzS1 HzS2 HzV0 HzV1 HzV2]
  · isplitl [Hc]; · iexists fc; rw [cPts_eq]; iexact Hc
    isplitl [HzS0]; · iexact HzS0
    isplitl [HzS1]; · iexact HzS1
    isplitl [HzS2]; · iexact HzS2
    isplitl [HzV0]; · iexact HzV0
    isplitl [HzV1]; · iexact HzV1
    iexact HzV2
  isplitl [HO]
  · iexists _
    isplitr
    rotate_left
    · iexact HO
    · ipureintro; exact fun _ _ => Or.inl trivial
  isplitl [Hx]
  · iexists _; isplitr; · (ipureintro; rfl)
    iexact Hx
  iexists _; isplitr; · (ipureintro; rfl)
  iexact Hout

/-- info: 'Cert.Kernel.A2a.sound_body'' depends on axioms: [propext, Classical.choice, Quot.sound] -/
#guard_msgs in #print axioms sound_body'

end Body

end Cert.Kernel.A2a

end
-- ==== Proof.Bits.Body.lean ====
import proofs.«900655_g7700000000000656_dist_a2a_v7x_xyz2x4x4_y_m512_n512_bf16_1_alg».proof.Proof.Bits.Levels
import proofs.«900655_g7700000000000656_dist_a2a_v7x_xyz2x4x4_y_m512_n512_bf16_1_alg».proof.Proof.Bits.Blocks
import proofs.«900655_g7700000000000656_dist_a2a_v7x_xyz2x4x4_y_m512_n512_bf16_1_alg».proof.Proof.Bits.BodyRun
import Idealize.ShloMosaic.Lib.Exec

/-!
# One device's body

From what the launch deals a device — the invariants of every cell, its positions, the tokens of the nine duties
it pays, the credit for what its peers owe its cells, its staged array, its result buffer and its send buffer —
the body runs to the end: the three signals each lend a peer one row block of the result buffer; the narrowing
stores fill the send buffer and the kept row block; the barrier wait returns the peers' row blocks; the three
transfers pay the peers' receive duties with those blocks overwritten by the slots; the receive waits return the
lent row blocks filled; the send waits return the slots.
-/

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 7 → ℕ)

/-- The body run, as the obligation below takes it. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt :=
  sound_body' m ρ K c Kt

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

end Body

end Cert.Kernel.A2a

end
-- ==== Proof.Bits.Launch.lean ====
import proofs.«900655_g7700000000000656_dist_a2a_v7x_xyz2x4x4_y_m512_n512_bf16_1_alg».proof.Proof.Bits.Body

/-!
# The launch

From the launch element to every device's start. The round states, positions and duty tokens of a device's seven
cells are minted per device; every cell's invariant is allocated in one step for all devices, since a barrier cell
is shared by the four devices of a group; the duty tokens are then dealt around each group — a device pays the
barrier duty and the receive duty of each of its three peers and keeps its own send duties —; and the credit a
device is dealt at launch is what its three peers owe its barrier cell and its three receive cells.
-/

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores, the cells, the tokens -/

theorem ownSemFacts : Pipeline.OwnSemFacts cfg0.spec osem := by decide

theorem share_eq (c : Dev nD) (w : Fin cfg0.W) : (dats m ρ 0 c).share w = fullShare := by unfold Dat.share; split <;> rfl

theorem csem_inj : ∀ k k' : Fin 7, (csem k : SemLoc sig) = csem k' → k = k' := by decide

theorem kcell_injective : Function.Injective (kcell : Dev nD × Fin 7 → GSem nD τ sig) := by
  rintro ⟨c, k⟩ ⟨c', k'⟩ h
  have h1 : c = c' := congrArg (fun g : GSem nD τ sig => g.1.1) h
  subst h1
  rw [csem_inj k k' (congrArg Prod.snd h)]

/-- The seven cells of every device. -/
def a2aCells : Finset (GSem nD τ sig) := Finset.univ.map ⟨kcell, kcell_injective⟩

/-- A device's own cells' duties, nine of them: the three of its barrier cell, the one of each send cell, the one of
    each receive cell. -/
abbrev tokSem (ik : Fin 3 × Fin 3) : SemLoc sig × Fin 3 := match ik.1 with
  | 0 => (.reg barS, ik.2) | 1 => (.dma (sndS ik.2).sem, 0) | 2 => (.dma (rcvS ik.2).sem, 0)
theorem tokSem_inj : ∀ a b : Fin 3 × Fin 3, tokSem a = tokSem b → a = b := by decide
abbrev tokOf (x : Dev nD × Fin 3 × Fin 3) : GSem nD τ sig × ℕ × Fin 3 := (((x.1 : Thread nD τ), (tokSem x.2).1), 0, (tokSem x.2).2)
theorem tokOf_injective : Function.Injective (tokOf : Dev nD × Fin 3 × Fin 3 → GSem nD τ sig × ℕ × Fin 3) := by
  rintro ⟨c, a⟩ ⟨c', b⟩ h
  have h1 : c = c' := congrArg (fun x : GSem nD τ sig × ℕ × Fin 3 => x.1.1.1) h
  subst h1
  have h2 : tokSem a = tokSem b :=
    Prod.ext (congrArg (fun x : GSem nD τ sig × ℕ × Fin 3 => x.1.2) h) (congrArg (fun x : GSem nD τ sig × ℕ × Fin 3 => x.2.2) h)
  rw [tokSem_inj a b h2]
def a2aToks : Finset (GSem nD τ sig × ℕ × Fin 3) := Finset.univ.map ⟨tokOf, tokOf_injective⟩

def u₀ : UU :=
  (initOf (Pipeline.cells cfgs cellOf_inj) (Pipeline.launchToks cfgs cellOf_inj), initOf a2aCells a2aToks)

/-- The duty tokens of device `c`'s own cells. -/
def toks (c : Dev nD) : sProp 𝕄 :=
  iprop((bigSep Finset.univ fun d : Fin 3 => dutyTok ER (barCell c) 0 d)
    ∗ (bigSep Finset.univ fun k : Fin 3 => dutyTok ER (sndCell k c) 0 0)
    ∗ (bigSep Finset.univ fun k : Fin 3 => dutyTok ER (rcvCell k c) 0 0))

/-- What the launch element deals device `c`. -/
def G (c : Dev nD) : sProp 𝕄 :=
  iprop((bigSep Finset.univ fun k : Fin 7 => roundState ER (a2aRd m ρ) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem fund_a2a : BI.own (ER (initOf a2aCells a2aToks)) ⊢ (|==> bigSep Finset.univ (G m ρ) : sProp 𝕄) := by
  have hX (Φ : GSem nD τ sig → sProp 𝕄) : bigSep a2aCells Φ = bigSep Finset.univ fun c : Dev nD => bigSep Finset.univ fun k : Fin 7 => Φ (kcell (c, k)) := by
    unfold a2aCells; rw [bigSep_map, bigSep_univ_prod]; rfl
  have hT : bigSep a2aToks (fun x => (dutyTok ER x.1 x.2.1 x.2.2 : sProp 𝕄)) = bigSep Finset.univ fun c : Dev nD => toks c := by
    unfold a2aToks; rw [bigSep_map, bigSep_univ_prod]
    exact bigSep_congr fun c _ => by unfold toks; rw [bigSep_univ_prod, bigSep_fin3]; rfl
  iintro HX
  imod (Rounds.fund ER (a2aRd m ρ) a2aCells a2aToks) $$ HX with ⟨Hst, Hr, Hat, Htok⟩
  imodintro
  ihave Hst' := (Entails.of_eq (hX fun g => roundState ER (a2aRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The three send and the three receive semaphores are the kernel's own six; -/
theorem ownSems0_eq (c : Dev nD) : (Pipeline.ownSems0 (Ix := Unit) (Name := ℕ) (U := UU) (Lvl := ℕ) (Val := Elt F) (τ := τ) osem c : sProp 𝕄)
    = ownZero c := by
  rw [Pipeline.ownSems0_eq_of_list c osem [0, 1, 2, 3, 4, 5] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  unfold ownZero
  iintro ⟨⟨S0, S1, S2, R0, R1, R2⟩, HB⟩
  isplitl [HB]; · iexact HB
  isplitl [S0]; · iexact S0
  isplitl [S1]; · iexact S1
  isplitl [S2]; · iexact S2
  isplitl [R0]; · iexact R0
  isplitl [R1]; · iexact R1
  iexact R2

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (a2aRd m ρ) κ (kcell (c, k))))
          ∗ (bigSep Finset.univ fun k : Fin 7 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (a2aRd m ρ) (kcell (c, k)) 0)
      ⊢ (|={Set.univ}=> bigSep Finset.univ fun k => iprop(∃ κ : ℕ, cellInv ER (a2aRd m ρ) κ (kcell (c, k))) : sProp 𝕄) from by
        rw [← bigSep_sep']
        exact (bigSep_mono fun k _ => (Rounds.body_intro ER (a2aRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around each group -/

/-- What stays with device `c`: its positions and the tokens of the duties it pays. -/
def linear (c : Dev nD) : sProp 𝕄 := iprop(positions c ∗ payToks c)

theorem ghost_intro (K : Dev nD × Fin 7 → ℕ) (c : Dev nD) : iprop(records m ρ K ∗ linear c) ⊢ G' m ρ c := by
  unfold linear G' ghost
  iintro ⟨#HR, HP⟩
  iexists K
  isplitr; · iexact HR
  iexact HP

theorem positions_intro (c : Dev nD) : (bigSep Finset.univ fun k : Fin 7 => (atPos ER (kcell (c, k)) 0 ∅ 0 : sProp 𝕄)) ⊢ positions c := by
  rw [bigSep_fin7]; unfold positions
  iintro ⟨H0, H1, H2, H3, H4, H5, H6⟩
  isplitl [H0]; · iexact H0
  isplitl [H1 H2 H3]
  · isplitl [H1]; · iexact H1
    isplitl [H2]; · iexact H2
    iexact H3
  isplitl [H4]; · iexact H4
  isplitl [H5]; · iexact H5
  iexact H6

/-- Transfer `k` as a permutation of the devices: each to its target. -/
def dstE (k : Fin 3) : Dev nD ≃ Dev nD := ⟨dst k, src k, src_dst k, dst_src k⟩

/-- Barrier duty `rev k` of every device, listed by the device that pays it: the one whose transfer `k` reaches it. -/
theorem tok_bar (k : Fin 3) : (bigSep Finset.univ fun c : Dev nD => (dutyTok ER (barCell (dst k c)) 0 (rev k) : sProp 𝕄))
    = bigSep Finset.univ fun c : Dev nD => dutyTok ER (barCell c) 0 (rev k) :=
  (bigSep_univ_equiv (dstE k) (fun c' : Dev nD => (dutyTok ER (barCell c') 0 (rev k) : sProp 𝕄))).symm
/-- The duty of receive cell `k` of every device, listed by the device that pays it. -/
theorem tok_rcv (k : Fin 3) : (bigSep Finset.univ fun c : Dev nD => (dutyTok ER (rcvCell k (dst k c)) 0 0 : sProp 𝕄))
    = bigSep Finset.univ fun c : Dev nD => dutyTok ER (rcvCell k c) 0 0 :=
  (bigSep_univ_equiv (dstE k) (fun c' : Dev nD => (dutyTok ER (rcvCell k c') 0 0 : sProp 𝕄))).symm

/-- The own tokens dealt around the groups: barrier duty `rev k` and receive duty `k` of a device go to the device whose
    transfer `k` reaches it; the send duties stay. -/
theorem toks_around : (bigSep Finset.univ fun c : Dev nD => (toks c : sProp 𝕄)) ⊢ bigSep Finset.univ fun c : Dev nD => payToks c := by
  unfold toks payToks
  simp only [bigSep_fin3, bigSep_sep']
  rw [tok_bar 0, tok_bar 1, tok_bar 2, tok_rcv 0, tok_rcv 1, tok_rcv 2]
  iintro ⟨⟨B0, B1, B2⟩, ⟨S0, S1, S2⟩, R0, R1, R2⟩
  isplitl [B2 R0 S0]
  · isplitl [B2]; · iexact B2
    isplitl [R0] <;> iassumption
  isplitl [B1 R1 S1]
  · isplitl [B1]; · iexact B1
    isplitl [R1] <;> iassumption
  isplitl [B0]; · iexact B0
  isplitl [R2] <;> iassumption

theorem regroup :
    (bigSep Finset.univ fun c : Dev nD => iprop((bigSep Finset.univ fun k => iprop(∃ κ : ℕ, cellInv ER (a2aRd m ρ) κ (kcell (c, k))))
          ∗ (bigSep Finset.univ fun k : Fin 7 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (a2aRd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (a2aRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from sep_mono_left (positions_intro c)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem O₀_eq : (O₀ : Dev nD → CellTallies nD τ sig Unit) = fun d =>
    tallyAt (rcvCell 2 (dst 2 d)) () N + tallyAt (rcvCell 1 (dst 1 d)) () N + tallyAt (rcvCell 0 (dst 0 d)) () N
      + tallyAt (barCell (dst 2 d)) () 1 + tallyAt (barCell (dst 1 d)) () 1 + tallyAt (barCell (dst 0 d)) () 1 := rfl

/-- What the others owe a device's cells: each of its three peers one unit on its barrier cell, and the peer whose
    transfer `k` reaches it a block's credit on its receive cell `k`. -/
theorem creds_intro (c : Dev nD) : (Pipeline.launchCred O₀ c : sProp 𝕄) ⊢ creds c := by
  have h3 : (tallyAt (barCell c) () 3 : CellTallies nD τ sig Unit) = tallyAt (barCell c) () 1 + tallyAt (barCell c) () 1 + tallyAt (barCell c) () 1 := by
    rw [tallyAt_add, tallyAt_add]
  rw [O₀_eq, Pipeline.launchCred_add, Pipeline.launchCred_add, Pipeline.launchCred_add, Pipeline.launchCred_add, Pipeline.launchCred_add]
  iintro ⟨⟨⟨⟨⟨R2, R1⟩, R0⟩, B2⟩, B1⟩, B0⟩
  ihave C0 := (Pipeline.launchCred_tallyAt (SemLoc.reg barS) (dst 0) (src 0) (dst_src 0) (src_dst 0) () 1 c) $$ B0
  ihave C1 := (Pipeline.launchCred_tallyAt (SemLoc.reg barS) (dst 1) (src 1) (dst_src 1) (src_dst 1) () 1 c) $$ B1
  ihave C2 := (Pipeline.launchCred_tallyAt (SemLoc.reg barS) (dst 2) (src 2) (dst_src 2) (src_dst 2) () 1 c) $$ B2
  ihave D0 := (Pipeline.launchCred_tallyAt (SemLoc.dma (rcvS 0).sem) (dst 0) (src 0) (dst_src 0) (src_dst 0) () N c) $$ R0
  ihave D1 := (Pipeline.launchCred_tallyAt (SemLoc.dma (rcvS 1).sem) (dst 1) (src 1) (dst_src 1) (src_dst 1) () N c) $$ R1
  ihave D2 := (Pipeline.launchCred_tallyAt (SemLoc.dma (rcvS 2).sem) (dst 2) (src 2) (dst_src 2) (src_dst 2) () N c) $$ R2
  unfold creds
  rw [h3]
  isplitl [C0 C1 C2]
  · iapply (cred_add _ _).2
    isplitl [C0 C1]
    · iapply (cred_add _ _).2
      isplitl [C0] <;> iassumption
    · iexact C2
  isplitl [D0]; · iexact D0
  isplitl [D1]; · iexact D1
  iexact D2

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [cPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨⟨%f, Hr⟩, Hz⟩
  isplitr; · iempintro
  isplitl [Hz]; · iexact Hz
  iexists f; rw [← cPts_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of thirty-two devices, for any float values, from any memory with zero counters: every weakly
    fair execution of @main — the devices of each group handshaking on the barrier semaphore, then exchanging their
    blocks — terminates, and every final state has each device's result array at the exchanged contents and its own
    array unchanged. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_a2a m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.A2a.run_main' depends on axioms: [propext, Classical.choice, Quot.sound] -/
#guard_msgs in #print axioms run_main

end Cert.Kernel.A2a

end
-- ==== Proof.Bits.Final.lean ====
import proofs.«900655_g7700000000000656_dist_a2a_v7x_xyz2x4x4_y_m512_n512_bf16_1_alg».proof.Proof.Bits.Data
import Idealize.ShloMosaic.Lib.Pipeline.Cells
import Idealize.ShloMosaic.Lib.Pipeline.Value

/-!
# The two arrays after the run

The pallas_call has one grid point and two windows, each the whole of its array. The staged input is never written
back, so its array ends holding what it held at launch. The result's one block is the whole array and is written back
at the one point, so the array ends holding exactly what the body left in the staging buffer: device `c`'s assembled
2048 × 512 result.
-/

noncomputable section

namespace Cert.Kernel.A2a

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The input array is never written back: after the run it holds what it held at launch. -/
theorem arrAt_x (c : Dev nD) :
    (dats m ρ 0 c).arrAt (0 : Fin 2) cfg0.N = (s₀ m ρ).mem (win0_0.arr.view.loc (c : Thread nD τ)) :=
  (dats (F := F) m ρ 0 c).arrAt_in (0 : Fin 2) rfl _

/-- The result array after the run: its one block, the whole array, was written back at the one point with what the
    body left, whatever the array held before. -/
theorem arrAt_out (c : Dev nD) : (dats m ρ 0 c).arrAt (1 : Fin 2) cfg0.N = outF m ρ c := by
  have h := (dats (F := F) m ρ 0 c).arrAt_succ (1 : Fin 2) t₀
  rw [if_pos (flush0_1 t₀)] at h
  refine (show (dats m ρ 0 c).arrAt (1 : Fin 2) cfg0.N = (dats m ρ 0 c).arrAt (1 : Fin 2) (t₀.val + 1) from
    congrArg ((dats m ρ 0 c).arrAt (1 : Fin 2)) cfg0_N).trans (h.trans ?_)
  exact Memref.write_access_unit_zero_univ (Elt F) main_v1
    (off := fun a => (cfg0.win (1 : Fin 2)).index t₀ a * (cfg0.win (1 : Fin 2)).size a)
    (funext fun a => Nat.zero_mul _) _ _ _

/-- info: 'Cert.Kernel.A2a.arrAt_x' depends on axioms: [propext, Classical.choice, Quot.sound] -/
#guard_msgs in #print axioms arrAt_x
/-- info: 'Cert.Kernel.A2a.arrAt_out' depends on axioms: [propext, Classical.choice, Quot.sound] -/
#guard_msgs in #print axioms arrAt_out

end Cert.Kernel.A2a

end
-- ==== Proof.ClaimsBits.lean ====
import proofs.«900655_g7700000000000656_dist_a2a_v7x_xyz2x4x4_y_m512_n512_bf16_1_alg».proof.Proof.Bits.Launch
import proofs.«900655_g7700000000000656_dist_a2a_v7x_xyz2x4x4_y_m512_n512_bf16_1_alg».proof.Proof.Bits.Final
import proofs.«900655_g7700000000000656_dist_a2a_v7x_xyz2x4x4_y_m512_n512_bf16_1_alg».proof.Proof.Gen.Pre_finite_inputs_Kernel
import proofs.«900655_g7700000000000656_dist_a2a_v7x_xyz2x4x4_y_m512_n512_bf16_1_alg».proof.Defs

/-!
# The frame of the exchange as printed

At the word-level float values the same protocol runs: every fair execution of the thirty-two devices terminates, and
every device's own array, which is staged once and never written back, ends holding what it held at launch.
-/

noncomputable section

namespace Cert.Proof.A2aClaims

open Idealize.ShloMosaic Idealize.SL.Sem

/-- The exchange as printed runs and every device's own array ends unchanged. -/
theorem frame_p : Cert.frame_Kernel :=
  fun m ρ _ => (θ_run Cert.Kernel.defs _ _).mono
    (fun _ h c => (h c (0 : Fin 2)).trans (Cert.Kernel.A2a.arrAt_x (F := Bits) m ρ c))
    (Cert.Kernel.A2a.run_main (F := Bits) m ρ)

end Cert.Proof.A2aClaims

end
-- ==== Proof.lean ====
/- Thirty-two devices on a 2 × 4 × 4 mesh; the four sharing first and last coordinate exchange, all to all, the 512 × 512 column blocks of their arrays, narrowed to bf16.
   Device `c` ends with the 2048 × 512 array whose row block `s` is its own column block of the array of the device at position `s`: its column block of the whole array narrowed entry by entry.
   Proved: the printed program, its ideal reading and the one-device reference terminate and keep their arguments, and at the ideal instance each device's result is its block of the reference's. -/
import proofs.«900655_g7700000000000656_dist_a2a_v7x_xyz2x4x4_y_m512_n512_bf16_1_alg».proof.Defs
import proofs.«900655_g7700000000000656_dist_a2a_v7x_xyz2x4x4_y_m512_n512_bf16_1_alg».proof.Proof.Gen.Kernel
import proofs.«900655_g7700000000000656_dist_a2a_v7x_xyz2x4x4_y_m512_n512_bf16_1_alg».proof.Proof.Gen.Kernel.Skeleton
import proofs.«900655_g7700000000000656_dist_a2a_v7x_xyz2x4x4_y_m512_n512_bf16_1_alg».proof.Proof.Gen.Kernel.Launch
import proofs.«900655_g7700000000000656_dist_a2a_v7x_xyz2x4x4_y_m512_n512_bf16_1_alg».proof.Proof.Gen.Kernel.Points
import proofs.«900655_g7700000000000656_dist_a2a_v7x_xyz2x4x4_y_m512_n512_bf16_1_alg».proof.Proof.Gen.Kernel.Frame
import proofs.«900655_g7700000000000656_dist_a2a_v7x_xyz2x4x4_y_m512_n512_bf16_1_alg».proof.Proof.Gen.KernelIdeal
import proofs.«900655_g7700000000000656_dist_a2a_v7x_xyz2x4x4_y_m512_n512_bf16_1_alg».proof.Proof.Gen.KernelIdeal.Skeleton
import proofs.«900655_g7700000000000656_dist_a2a_v7x_xyz2x4x4_y_m512_n512_bf16_1_alg».proof.Proof.Gen.KernelIdeal.Launch
import proofs.«900655_g7700000000000656_dist_a2a_v7x_xyz2x4x4_y_m512_n512_bf16_1_alg».proof.Proof.Gen.KernelIdeal.Points
import proofs.«900655_g7700000000000656_dist_a2a_v7x_xyz2x4x4_y_m512_n512_bf16_1_alg».proof.Proof.Gen.KernelIdeal.Frame
import proofs.«900655_g7700000000000656_dist_a2a_v7x_xyz2x4x4_y_m512_n512_bf16_1_alg».proof.Proof.Gen.ReferenceIdeal
import proofs.«900655_g7700000000000656_dist_a2a_v7x_xyz2x4x4_y_m512_n512_bf16_1_alg».proof.Proof.Gen.ReferenceIdeal.Run
import proofs.«900655_g7700000000000656_dist_a2a_v7x_xyz2x4x4_y_m512_n512_bf16_1_alg».proof.Proof.Gen.ReferenceIdeal.Read
import proofs.«900655_g7700000000000656_dist_a2a_v7x_xyz2x4x4_y_m512_n512_bf16_1_alg».proof.Proof.Gen.Pre_finite_inputs_Kernel
import proofs.«900655_g7700000000000656_dist_a2a_v7x_xyz2x4x4_y_m512_n512_bf16_1_alg».proof.Proof.Gen.Pre_finite_inputs_ReferenceIdeal
import proofs.«900655_g7700000000000656_dist_a2a_v7x_xyz2x4x4_y_m512_n512_bf16_1_alg».proof.Proof.Claims
import proofs.«900655_g7700000000000656_dist_a2a_v7x_xyz2x4x4_y_m512_n512_bf16_1_alg».proof.Proof.ClaimsBits
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  A2aClaims.frame_p, A2aClaims.frame_pi, Cert.KernelIdeal.A2a.frame_ri, trivial, A2aClaims.algebraic⟩

end Cert.Proof

end
